-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x1 : Shape := ⟨2, ![100000, 1]⟩
abbrev S1350000x64 : Shape := ⟨2, ![1350000, 64]⟩
abbrev S1x64 : Shape := ⟨2, ![1, 64]⟩
abbrev S128x64 : Shape := ⟨2, ![128, 64]⟩
abbrev S1x128 : Shape := ⟨2, ![1, 128]⟩
abbrev S128x1 : Shape := ⟨2, ![128, 1]⟩
abbrev S5000x64 : Shape := ⟨2, ![5000, 64]⟩
abbrev S5000x1 : Shape := ⟨2, ![5000, 1]⟩
abbrev S5000x128 : Shape := ⟨2, ![5000, 128]⟩
abbrev S128 : Shape := ⟨1, ![128]⟩

abbrev nBuf : Space → Nat
  | .hbm => 65
  | .vmem => 39
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S100000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S1x1250000, .i32⟩
  | .hbm, ⟨14, _⟩ => ⟨S1250000, .i32⟩
  | .hbm, ⟨15, _⟩ => ⟨S1350000, .i32⟩
  | .hbm, ⟨16, _⟩ => ⟨S_, .f32⟩
  | .hbm, ⟨17, _⟩ => ⟨S1350000, .f32⟩
  | .hbm, ⟨18, _⟩ => ⟨S_, .f32⟩
  | .hbm, ⟨19, _⟩ => ⟨S100000, .f32⟩
  | .hbm, ⟨20, _⟩ => ⟨S1350000x1, .i32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1350000, .i32⟩
  | .hbm, ⟨27, _⟩ => ⟨S1350000, .i1⟩
  | .hbm, ⟨28, _⟩ => ⟨S_, .i32⟩
  | .hbm, ⟨29, _⟩ => ⟨S1350000, .i32⟩
  | .hbm, ⟨30, _⟩ => ⟨S1350000, .i32⟩
  | .hbm, ⟨31, _⟩ => ⟨S1350000, .i32⟩
  | .hbm, ⟨32, _⟩ => ⟨S1350000x1, .i32⟩
  | .hbm, ⟨33, _⟩ => ⟨S1350000x64, .f32⟩
  | .hbm, ⟨34, _⟩ => ⟨S_, .f32⟩
  | .hbm, ⟨35, _⟩ => ⟨S100000x64, .f32⟩
  | .hbm, ⟨36, _⟩ => ⟨S1350000x1, .i32⟩
  | .hbm, ⟨37, _⟩ => ⟨S100000x64, .f32⟩
  | .hbm, ⟨38, _⟩ => ⟨S100000x1, .f32⟩
  | .hbm, ⟨39, _⟩ => ⟨S1x64, .f32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S_, .i32⟩
  | .hbm, ⟨44, _⟩ => ⟨S1350000, .i32⟩
  | .hbm, ⟨45, _⟩ => ⟨S1350000, .i1⟩
  | .hbm, ⟨46, _⟩ => ⟨S_, .i32⟩
  | .hbm, ⟨47, _⟩ => ⟨S1350000, .i32⟩
  | .hbm, ⟨48, _⟩ => ⟨S1350000, .i32⟩
  | .hbm, ⟨49, _⟩ => ⟨S1350000, .i32⟩
  | .hbm, ⟨50, _⟩ => ⟨S1350000x1, .i32⟩
  | .hbm, ⟨51, _⟩ => ⟨S1350000x64, .f32⟩
  | .hbm, ⟨52, _⟩ => ⟨S_, .f32⟩
  | .hbm, ⟨53, _⟩ => ⟨S100000x64, .f32⟩
  | .hbm, ⟨54, _⟩ => ⟨S1350000x1, .i32⟩
  | .hbm, ⟨55, _⟩ => ⟨S100000x64, .f32⟩
  | .hbm, ⟨56, _⟩ => ⟨S100000x1, .f32⟩
  | .hbm, ⟨57, _⟩ => ⟨S1x64, .f32⟩
  | .hbm, ⟨58, _⟩ => ⟨S100000x64, .f32⟩
  | .hbm, ⟨59, _⟩ => ⟨S100000x1, .i32⟩
  | .hbm, ⟨60, _⟩ => ⟨S128x64, .f32⟩
  | .hbm, ⟨61, _⟩ => ⟨S1x128, .f32⟩
  | .hbm, ⟨62, _⟩ => ⟨S128x1, .f32⟩
  | .hbm, ⟨63, _⟩ => ⟨S1x64, .f32⟩
  | .hbm, ⟨64, _⟩ => ⟨S128x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .i32⟩
  | .local _ .vmem, ⟨31, _⟩ => ⟨S5000x1, .i32⟩
  | .local _ .vmem, ⟨32, _⟩ => ⟨S128x64, .f32⟩
  | .local _ .vmem, ⟨33, _⟩ => ⟨S1x128, .f32⟩
  | .local _ .vmem, ⟨34, _⟩ => ⟨S128x64, .f32⟩
  | .local _ .vmem, ⟨35, _⟩ => ⟨S128x1, .f32⟩
  | .local _ .vmem, ⟨36, _⟩ => ⟨S64x64, .f32⟩
  | .local _ .vmem, ⟨37, _⟩ => ⟨S1x64, .f32⟩
  | .local _ .vmem, ⟨38, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst : Ref sig .tc := ⟨.hbm, 16, rfl⟩
abbrev main_call0_v7 : Ref sig .tc := ⟨.hbm, 17, rfl⟩
abbrev main_call0_cst_0 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_c : Ref sig .tc := ⟨.hbm, 25, rfl⟩
abbrev main_call0_v14 : Ref sig .tc := ⟨.hbm, 26, rfl⟩
abbrev main_call0_v15 : Ref sig .tc := ⟨.hbm, 27, rfl⟩
abbrev main_call0_c_1 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_cst_2 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_c_3 : Ref sig .tc := ⟨.hbm, 43, rfl⟩
abbrev main_call0_v29 : Ref sig .tc := ⟨.hbm, 44, rfl⟩
abbrev main_call0_v30 : Ref sig .tc := ⟨.hbm, 45, rfl⟩
abbrev main_call0_c_4 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_call0_cst_5 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_call0_v42 : Ref sig .tc := ⟨.hbm, 59, rfl⟩
abbrev main_call0_v43_0 : Ref sig .tc := ⟨.hbm, 60, rfl⟩
abbrev main_call0_v43_1 : Ref sig .tc := ⟨.hbm, 61, rfl⟩
abbrev main_call0_v44 : Ref sig .tc := ⟨.hbm, 62, rfl⟩
abbrev main_call0_v45 : Ref sig .tc := ⟨.hbm, 63, rfl⟩
abbrev main_v0 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc5_sem0_0 : DmaSem sig := 34
abbrev cc5_sem1_0 : DmaSem sig := 35
abbrev cc5_sem2_0 : DmaSem sig := 36
abbrev cc5_sem3_0 : DmaSem sig := 37
abbrev cc5_sem4_0 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  transposes_S1x128_S128x1_1_0 : S1x128.Transposes [1, 0] S128x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  iota_S5000x128_d1_w32 : S5000x128.Iotas .tc 32 [1]
  broadcasts_S5000x1_S5000x128 : S5000x1.Broadcasts S5000x128
  natLt_1_32 : 1 < 32
  shapeCasts_S128x64_S128x64 : S128x64.ShapeCasts S128x64
  shapeCasts_S1x128_S1x128 : S1x128.ShapeCasts S1x128
  reduces_S5000x128_S128 : S5000x128.Reduces [0] S128
  shapeCasts_S128_S1x128 : S128.ShapeCasts S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  broadcasts_S1x64_S128x64 : S1x64.Broadcasts S128x64
  scatter_S100000_S1350000x1_S1350000_n_0_0_1_wf : ScatterDims.WF S100000 S1350000x1 S1350000 [] [0] [0] 1
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S128x64_S64x64_S128x64_1_0_0_1_n_n_wf : DotDims.WF S128x64 S64x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x64.size a ≤ S128x64.size a
  hwx5_0 : ∀ i : grid5.Coords, EltTy.bits .f32 = 32 ∨ (Rect.block (s := S128x64) S128x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x64.size a ≤ S128x64.size a
  hwx5_4 : ∀ i : grid5.Coords, EltTy.bits .f32 = 32 ∨ (Rect.block (s := S128x64) S128x64.size (cc5_transform_4 i) (hinb5_4 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v26) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v28) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v39) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v41) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v41) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v42) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v43_0) S128x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v43_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_call0_v43_0) S128x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_call0_v44) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v45) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v0) S128x64.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S100000, .i32⟩
  | 10 => ⟨S1x1250000, .i32⟩
  | 11 => ⟨S1250000, .i32⟩
  | 12 => ⟨S1350000, .i32⟩
  | 13 => ⟨S1x1250000, .i32⟩
  | 14 => ⟨S1250000, .i32⟩
  | 15 => ⟨S1350000, .i32⟩
  | 16 => ⟨S100000x64, .f32⟩
  | 17 => ⟨S_, .f32⟩
  | 18 => ⟨S1350000, .f32⟩
  | 19 => ⟨S_, .f32⟩
  | 20 => ⟨S100000, .f32⟩
  | 21 => ⟨S1350000x1, .i32⟩
  | 22 => ⟨S100000, .f32⟩
  | 23 => ⟨S100000, .f32⟩
  | 24 => ⟨S_, .i32⟩
  | 25 => ⟨S1350000, .i32⟩
  | 26 => ⟨S1350000, .i1⟩
  | 27 => ⟨S_, .i32⟩
  | 28 => ⟨S1350000, .i32⟩
  | 29 => ⟨S1350000, .i32⟩
  | 30 => ⟨S1350000, .i32⟩
  | 31 => ⟨S1350000x1, .i32⟩
  | 32 => ⟨S1350000, .f32⟩
  | 33 => ⟨S_, .i32⟩
  | 34 => ⟨S1350000, .i32⟩
  | 35 => ⟨S1350000, .i1⟩
  | 36 => ⟨S_, .i32⟩
  | 37 => ⟨S1350000, .i32⟩
  | 38 => ⟨S1350000, .i32⟩
  | 39 => ⟨S1350000, .i32⟩
  | 40 => ⟨S1350000x1, .i32⟩
  | 41 => ⟨S1350000, .f32⟩
  | 42 => ⟨S1350000, .f32⟩
  | 43 => ⟨S_, .i32⟩
  | 44 => ⟨S1350000, .i32⟩
  | 45 => ⟨S1350000, .i1⟩
  | 46 => ⟨S_, .i32⟩
  | 47 => ⟨S1350000, .i32⟩
  | 48 => ⟨S1350000, .i32⟩
  | 49 => ⟨S1350000, .i32⟩
  | 50 => ⟨S1350000x1, .i32⟩
  | 51 => ⟨S1350000x64, .f32⟩
  | 52 => ⟨S1350000x1, .f32⟩
  | 53 => ⟨S1350000x64, .f32⟩
  | 54 => ⟨S1350000x64, .f32⟩
  | 55 => ⟨S_, .f32⟩
  | 56 => ⟨S100000x64, .f32⟩
  | 57 => ⟨S1350000x1, .i32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S_, .f32⟩
  | 67 => ⟨S1350000, .f32⟩
  | 68 => ⟨S_, .f32⟩
  | 69 => ⟨S100000, .f32⟩
  | 70 => ⟨S1350000x1, .i32⟩
  | 71 => ⟨S100000, .f32⟩
  | 72 => ⟨S100000, .f32⟩
  | 73 => ⟨S_, .i32⟩
  | 74 => ⟨S1350000, .i32⟩
  | 75 => ⟨S1350000, .i1⟩
  | 76 => ⟨S_, .i32⟩
  | 77 => ⟨S1350000, .i32⟩
  | 78 => ⟨S1350000, .i32⟩
  | 79 => ⟨S1350000, .i32⟩
  | 80 => ⟨S1350000x1, .i32⟩
  | 81 => ⟨S1350000, .f32⟩
  | 82 => ⟨S_, .i32⟩
  | 83 => ⟨S1350000, .i32⟩
  | 84 => ⟨S1350000, .i1⟩
  | 85 => ⟨S_, .i32⟩
  | 86 => ⟨S1350000, .i32⟩
  | 87 => ⟨S1350000, .i32⟩
  | 88 => ⟨S1350000, .i32⟩
  | 89 => ⟨S1350000x1, .i32⟩
  | 90 => ⟨S1350000, .f32⟩
  | 91 => ⟨S1350000, .f32⟩
  | 92 => ⟨S_, .i32⟩
  | 93 => ⟨S1350000, .i32⟩
  | 94 => ⟨S1350000, .i1⟩
  | 95 => ⟨S_, .i32⟩
  | 96 => ⟨S1350000, .i32⟩
  | 97 => ⟨S1350000, .i32⟩
  | 98 => ⟨S1350000, .i32⟩
  | 99 => ⟨S1350000x1, .i32⟩
  | 100 => ⟨S1350000x64, .f32⟩
  | 101 => ⟨S1350000x1, .f32⟩
  | 102 => ⟨S1350000x64, .f32⟩
  | 103 => ⟨S1350000x64, .f32⟩
  | 104 => ⟨S_, .f32⟩
  | 105 => ⟨S100000x64, .f32⟩
  | 106 => ⟨S1350000x1, .i32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S128x64, .f32⟩
  | 116 => ⟨S100000x1, .i32⟩
  | 117 => ⟨S128x64, .f32⟩
  | 118 => ⟨S_, .f32⟩
  | 119 => ⟨S100000, .f32⟩
  | 120 => ⟨S_, .f32⟩
  | 121 => ⟨S128, .f32⟩
  | 122 => ⟨S100000x1, .i32⟩
  | 123 => ⟨S128, .f32⟩
  | 124 => ⟨S_, .f32⟩
  | 125 => ⟨S128, .f32⟩
  | 126 => ⟨S128, .f32⟩
  | 127 => ⟨S128x1, .f32⟩
  | _ => ⟨S100000x64, .f32⟩

abbrev hbmTy0_1 (i : Nat) : BufTy := match i % 128 with
  | 0 => ⟨S128x64, .f32⟩
  | 1 => ⟨S128x64, .f32⟩
  | 2 => ⟨S128x64, .f32⟩
  | 3 => ⟨S1x64, .f32⟩
  | 4 => ⟨S128x64, .f32⟩
  | 5 => ⟨S128x64, .f32⟩
  | 6 => ⟨S_, .f32⟩
  | 7 => ⟨S128x64, .f32⟩
  | 8 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call1_cst : Ref sig .tc := ⟨.hbm, 111, rfl⟩
abbrev main_call1_v0 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call2_cst : Ref sig .tc := ⟨.hbm, 134, rfl⟩
abbrev main_call2_v0 : Ref sig .tc := ⟨.hbm, 135, rfl⟩
abbrev main_v99 : Ref sig .tc := ⟨.hbm, 136, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  dot_S100000x64_S64x64_S100000x64_1_0_0_1_n_n_wf : DotDims.WF S100000x64 S64x64 S100000x64 [1] [0] [0] [1] [] []
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf

class Facts : Prop extends Facts₀ where

variable [Facts]
-- ==== Proof.Spec.lean ====
/-
  The functions the six kernel bodies compute, read index by index over the extended reals.

  * `scaledProduct X W D` : row n, feature k ↦ (∑ⱼ X(n,j) · W(j,k)) · D(n): the projection of a node's features
    followed by the node's own scale factor (its degree to the power −1/2).
  * `scaleBiasRelu A D B` : (n,k) ↦ max (A(n,k) · D(n) + B(k)) 0: the aggregated messages scaled by the receiving
    node's factor, the bias added, the negative part cut.
  * `oneHot w g` : 1 when the 32-bit word w is the number g, else 0: a node's membership in graph g.
  * `poolSums H B` : (g,k) ↦ the sum over the 20 tiles of 5000 nodes of oneHot(B n, g) · H(n,k): the feature sums of
    graph g; `poolCounts B` : g ↦ the number of nodes of graph g, summed the same way.
  * `headOut S Cn W Bf` : (g,k) ↦ max (∑ⱼ (S(g,j) / max (Cn g) 1) · W(j,k) + Bf(k)) 0: the mean over the graph's
    nodes, the last linear layer, the negative part cut.
-/
import Idealize.ShloMosaic.PureOps.Ideal
import Idealize.ShloMosaic.Lib.ValueIdx

noncomputable section

namespace Cert.Gcn

open Idealize.ShloMosaic Idealize.ShloMosaic.ValueIdx

abbrev SN64 : Shape := ⟨2, ![100000, 64]⟩
abbrev SN1 : Shape := ⟨2, ![100000, 1]⟩
abbrev SW : Shape := ⟨2, ![64, 64]⟩
abbrev SB : Shape := ⟨2, ![1, 64]⟩
abbrev SG64 : Shape := ⟨2, ![128, 64]⟩
abbrev SG1 : Shape := ⟨2, ![128, 1]⟩
abbrev S1G : Shape := ⟨2, ![1, 128]⟩

/-- The value of the all-zero word. -/
abbrev zeroWord : EReal := Ideal.ofBits .f32 0x00000000#32
/-- The value of the word of the float 1.0. -/
abbrev oneWord : EReal := Ideal.ofBits .f32 0x3F800000#32

/-- Node n of tile t (tiles of 5000 nodes, 20 of them). -/
def node (t : Fin 20) (r : Fin 5000) : Fin 100000 := ⟨5000 * t.val + r.val, by omega⟩

/-- (∑ⱼ X(n,j) · W(j,k)) · D(n). -/
def scaledProduct (X : FVec Ideal SN64 .f32) (W : FVec Ideal SW .f32) (D : FVec Ideal SN1 .f32) : FVec Ideal SN64 .f32 :=
  fun i => (fun (n : Fin 100000) (k : Fin 64) => (∑ j : Fin 64, X (ix2 n j) * W (ix2 j k)) * D (ix2 n (0 : Fin 1))) (i 0) (i 1)

theorem scaledProduct_apply (X : FVec Ideal SN64 .f32) (W : FVec Ideal SW .f32) (D : FVec Ideal SN1 .f32) (n : Fin 100000) (k : Fin 64) :
    scaledProduct X W D (ix2 n k) = (∑ j : Fin 64, X (ix2 n j) * W (ix2 j k)) * D (ix2 n (0 : Fin 1)) := rfl

/-- max (A(n,k) · D(n) + B(k)) 0. -/
def scaleBiasRelu (A : FVec Ideal SN64 .f32) (D : FVec Ideal SN1 .f32) (B : FVec Ideal SB .f32) : FVec Ideal SN64 .f32 :=
  fun i => (fun (n : Fin 100000) (k : Fin 64) => max (A (ix2 n k) * D (ix2 n (0 : Fin 1)) + B (ix2 (0 : Fin 1) k)) zeroWord) (i 0) (i 1)

theorem scaleBiasRelu_apply (A : FVec Ideal SN64 .f32) (D : FVec Ideal SN1 .f32) (B : FVec Ideal SB .f32) (n : Fin 100000) (k : Fin 64) :
    scaleBiasRelu A D B (ix2 n k) = max (A (ix2 n k) * D (ix2 n (0 : Fin 1)) + B (ix2 (0 : Fin 1) k)) zeroWord := rfl

/-- 1 when the word is the number g, else 0. -/
def oneHot (w : BitVec 32) (g : Fin 128) : EReal := if w = BitVec.ofNat 32 g.val then 1 else 0

/-- The feature sums per graph, tile by tile. -/
def poolSums (H : FVec Ideal SN64 .f32) (B : IVec SN1 32) : FVec Ideal SG64 .f32 :=
  fun i => (fun (g : Fin 128) (k : Fin 64) =>
    ∑ t : Fin 20, ∑ r : Fin 5000, oneHot (B (ix2 (node t r) (0 : Fin 1))) g * H (ix2 (node t r) k)) (i 0) (i 1)

theorem poolSums_apply (H : FVec Ideal SN64 .f32) (B : IVec SN1 32) (g : Fin 128) (k : Fin 64) :
    poolSums H B (ix2 g k) = ∑ t : Fin 20, ∑ r : Fin 5000, oneHot (B (ix2 (node t r) (0 : Fin 1))) g * H (ix2 (node t r) k) := rfl

/-- The node counts per graph, tile by tile, as a row. -/
def poolCounts (B : IVec SN1 32) : FVec Ideal S1G .f32 :=
  fun i => (fun (g : Fin 128) => ∑ t : Fin 20, ∑ r : Fin 5000, oneHot (B (ix2 (node t r) (0 : Fin 1))) g) (i 1)

theorem poolCounts_apply (B : IVec SN1 32) (g : Fin 128) :
    poolCounts B (ix2 (0 : Fin 1) g) = ∑ t : Fin 20, ∑ r : Fin 5000, oneHot (B (ix2 (node t r) (0 : Fin 1))) g := rfl

/-- max (∑ⱼ (S(g,j) / max (Cn g) 1) · W(j,k) + Bf(k)) 0. -/
def headOut (S : FVec Ideal SG64 .f32) (Cn : FVec Ideal SG1 .f32) (W : FVec Ideal SW .f32) (Bf : FVec Ideal SB .f32) : FVec Ideal SG64 .f32 :=
  fun i => (fun (g : Fin 128) (k : Fin 64) =>
    max ((∑ j : Fin 64, Ideal.div (S (ix2 g j)) (max (Cn (ix2 g (0 : Fin 1))) oneWord) * W (ix2 j k)) + Bf (ix2 (0 : Fin 1) k)) zeroWord) (i 0) (i 1)

theorem headOut_apply (S : FVec Ideal SG64 .f32) (Cn : FVec Ideal SG1 .f32) (W : FVec Ideal SW .f32) (Bf : FVec Ideal SB .f32) (g : Fin 128) (k : Fin 64) :
    headOut S Cn W Bf (ix2 g k)
      = max ((∑ j : Fin 64, Ideal.div (S (ix2 g j)) (max (Cn (ix2 g (0 : Fin 1))) oneWord) * W (ix2 j k)) + Bf (ix2 (0 : Fin 1) k)) zeroWord := rfl

end Cert.Gcn

end
-- ==== Proof.Layers.lean ====
/-
  The two programs' results as compositions of whole-array operations.

  Both programs build the edge lists with self-loops (`srcOf`, `dstOf`: a row of the edge array followed by 0 … N−1),
  the degree of every node as a sum of ones scattered by receiving node, and its power −1/2 (`degInv`); a gather index is
  first wrapped (a negative index has N added: `wrapIdx`) and laid out as a column (`col`).

  The reference's layer scales every message by the product of the two end nodes' factors before the scatter-add;
  the kernel's layer scales the projected features by the sending node's factor (`Gcn.scaledProduct`), scatter-adds, and
  scales the sum by the receiving node's factor (`Gcn.scaleBiasRelu`). The reference's tail is two scatter-adds by graph
  number, a quotient and a linear layer; the kernel's is the one-hot sums (`Gcn.poolSums`, `Gcn.poolCounts`) and
  `Gcn.headOut`.
-/
import proofs.«417988_j22883585753783_3_alg».proof.Proof.Gen.KernelIdeal
import proofs.«417988_j22883585753783_3_alg».proof.Proof.Gen.ReferenceIdeal
import proofs.«417988_j22883585753783_3_alg».proof.Proof.Gen.ReferenceIdeal.Run
import proofs.«417988_j22883585753783_3_alg».proof.Proof.Spec

noncomputable section

open Idealize.ShloMosaic Idealize.ShloMosaic.TcCoe Idealize.SL.Sem

/-! ## The reference's side -/

namespace Cert.Gcn.Ref

open Cert.ReferenceIdeal Cert.ReferenceIdeal.Gen

variable {F : FTy → Type} [FloatOps F]

/-- A negative index has the node count added. -/
def wrapIdx (v : IVec S1350000 32) : IVec S1350000 32 :=
  (select (cmpi .slt v (broadcastInDim S1350000 ![] bcast_S_S1350000 (constantI S_ 32 0#32))) (addi v (broadcastInDim S1350000 ![] bcast_S_S1350000 (constantI S_ 32 100000#32))) v)

/-- An index list as a column. -/
def col (v : IVec S1350000 32) : IVec S1350000x1 32 := (broadcastInDim S1350000x1 ![0] bcast_S1350000_S1350000x1_0 v)

/-- The sending nodes: row 0 of the edge array, then every node once. -/
def srcOf (EI : IVec S2x1250000 32) : IVec S1350000 32 :=
  (concatenate S1350000 0 [⟨S1250000, (shapeCast _ (extractStridedSlice S1x1250000 ![0, 0] EI slices_S2x1250000_S1x1250000_0_0) shapeCasts_S1x1250000_S1250000)⟩, ⟨S100000, (iotaInDim S100000 32 0)⟩] concatenates_S1250000_S100000_S1350000_d0)

/-- The receiving nodes: row 1 of the edge array, then every node once. -/
def dstOf (EI : IVec S2x1250000 32) : IVec S1350000 32 :=
  (concatenate S1350000 0 [⟨S1250000, (shapeCast _ (extractStridedSlice S1x1250000 ![1, 0] EI slices_S2x1250000_S1x1250000_1_0) shapeCasts_S1x1250000_S1250000)⟩, ⟨S100000, (iotaInDim S100000 32 0)⟩] concatenates_S1250000_S100000_S1350000_d0)

/-- Every node's degree (ones summed by receiving node) to the power −1/2. -/
def degInv (dst : IVec S1350000 32) : FVec F S100000 .f32 :=
  (Host.rsqrt (Host.scatterAdd scatter_S100000_S1350000x1_S1350000_n_0_0_1 (broadcastInDim S100000 ![] bcast_S_S100000 (constant (F := F) S_ .f32 0x00000000#32)) (broadcastInDim S1350000x1 ![0] bcast_S1350000_S1350000x1_0 dst) (broadcastInDim S1350000 ![] bcast_S_S1350000 (constant (F := F) S_ .f32 0x3F800000#32))))

/-- One convolution layer as the reference spells it. -/
def layer (X : FVec F S100000x64 .f32) (W : FVec F S64x64 .f32) (B : FVec F S64 .f32) (src dst : IVec S1350000 32) : FVec F S100000x64 .f32 :=
  (maximumf (addf (Host.scatterAdd scatter_S100000x64_S1350000x1_S1350000x64_1_0_0_1 (broadcastInDim S100000x64 ![] bcast_S_S100000x64 (constant S_ .f32 0x00000000#32)) (broadcastInDim S1350000x1 ![0] bcast_S1350000_S1350000x1_0 dst) (mulf (Host.gather gather_S100000x64_S1350000x1_S1350000x64_1_0_n_n_0_1_164 (Host.dotGeneral dot_S100000x64_S64x64_S100000x64_1_0_0_1_n_n none X W) (broadcastInDim S1350000x1 ![0] bcast_S1350000_S1350000x1_0 (select (cmpi .slt src (broadcastInDim S1350000 ![] bcast_S_S1350000 (constantI S_ 32 0#32))) (addi src (broadcastInDim S1350000 ![] bcast_S_S1350000 (constantI S_ 32 100000#32))) src))) (broadcastInDim S1350000x64 ![0, 1] bcast_S1350000x1_S1350000x64_0_1 (broadcastInDim S1350000x1 ![0] bcast_S1350000_S1350000x1_0 (mulf (Host.gather gather_S100000_S1350000x1_S1350000_n_0_n_n_0_1_1 (Host.rsqrt (Host.scatterAdd scatter_S100000_S1350000x1_S1350000_n_0_0_1 (broadcastInDim S100000 ![] bcast_S_S100000 (constant S_ .f32 0x00000000#32)) (broadcastInDim S1350000x1 ![0] bcast_S1350000_S1350000x1_0 dst) (broadcastInDim S1350000 ![] bcast_S_S1350000 (constant S_ .f32 0x3F800000#32)))) (broadcastInDim S1350000x1 ![0] bcast_S1350000_S1350000x1_0 (select (cmpi .slt src (broadcastInDim S1350000 ![] bcast_S_S1350000 (constantI S_ 32 0#32))) (addi src (broadcastInDim S1350000 ![] bcast_S_S1350000 (constantI S_ 32 100000#32))) src))) (Host.gather gather_S100000_S1350000x1_S1350000_n_0_n_n_0_1_1 (Host.rsqrt (Host.scatterAdd scatter_S100000_S1350000x1_S1350000_n_0_0_1 (broadcastInDim S100000 ![] bcast_S_S100000 (constant S_ .f32 0x00000000#32)) (broadcastInDim S1350000x1 ![0] bcast_S1350000_S1350000x1_0 dst) (broadcastInDim S1350000 ![] bcast_S_S1350000 (constant S_ .f32 0x3F800000#32)))) (broadcastInDim S1350000x1 ![0] bcast_S1350000_S1350000x1_0 (select (cmpi .slt dst (broadcastInDim S1350000 ![] bcast_S_S1350000 (constantI S_ 32 0#32))) (addi dst (broadcastInDim S1350000 ![] bcast_S_S1350000 (constantI S_ 32 100000#32))) dst)))))))) (broadcastInDim S100000x64 ![0, 1] bcast_S1x64_S100000x64_0_1 (broadcastInDim S1x64 ![1] bcast_S64_S1x64_1 B))) (broadcastInDim S100000x64 ![] bcast_S_S100000x64 (constant S_ .f32 0x00000000#32)))

/-- Mean pooling by graph number and the last linear layer as the reference spells them. -/
def tail (H : FVec F S100000x64 .f32) (BATCH : IVec S100000 32) (WFC : FVec F S64x64 .f32) (BFC : FVec F S64 .f32) : FVec F S128x64 .f32 :=
  maximumf (addf (Host.dotGeneral dot_S128x64_S64x64_S128x64_1_0_0_1_n_n none (Host.divf (Host.scatterAdd scatter_S128x64_S100000x1_S100000x64_1_0_0_1 (broadcastInDim S128x64 ![] bcast_S_S128x64 (constant S_ .f32 0x00000000#32)) (broadcastInDim S100000x1 ![0] bcast_S100000_S100000x1_0 BATCH) H) (broadcastInDim S128x64 ![0, 1] bcast_S128x1_S128x64_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 BATCH) (broadcastInDim S100000 ![] bcast_S_S100000 (constant S_ .f32 0x3F800000#32))) (broadcastInDim S128 ![] bcast_S_S128 (constant S_ .f32 0x3F800000#32)))))) WFC) (broadcastInDim S128x64 ![0, 1] bcast_S1x64_S128x64_0_1 (broadcastInDim S1x64 ![1] bcast_S64_S1x64_1 BFC))) (broadcastInDim S128x64 ![] bcast_S_S128x64 (constant S_ .f32 0x00000000#32))

/-- The reference's result. -/
def out (X : FVec F S100000x64 .f32) (EI : IVec S2x1250000 32) (BATCH : IVec S100000 32) (W1 : FVec F S64x64 .f32) (B1 : FVec F S64 .f32)
    (W2 : FVec F S64x64 .f32) (B2 : FVec F S64 .f32) (WFC : FVec F S64x64 .f32) (BFC : FVec F S64 .f32) : FVec F S128x64 .f32 :=
  tail (layer (layer X W1 B1 (srcOf EI) (dstOf EI)) W2 B2 (srcOf EI) (dstOf EI)) BATCH WFC BFC

set_option maxRecDepth 8192 in
/-- The reference run's result term is this composition. -/
theorem res_eq (m : (ℓ : Loc nD τ sig) → Buf (Elt F) ℓ) (c : Dev nD) :
    Cert.ReferenceIdeal.Value.res_main_v99 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := rfl

end Cert.Gcn.Ref

/-! ## The kernel's side -/

namespace Cert.Gcn.Ker

open Cert.KernelIdeal Cert.KernelIdeal.Gen

/-- A negative index has the node count added. -/
def wrapIdx (v : IVec S1350000 32) : IVec S1350000 32 :=
  (select (cmpi .slt v (broadcastInDim S1350000 ![] bcast_S_S1350000 (constantI S_ 32 0#32))) (addi v (broadcastInDim S1350000 ![] bcast_S_S1350000 (constantI S_ 32 100000#32))) v)

/-- An index list as a column. -/
def col (v : IVec S1350000 32) : IVec S1350000x1 32 := (broadcastInDim S1350000x1 ![0] bcast_S1350000_S1350000x1_0 v)

/-- The sending nodes: row 0 of the edge array, then every node once. -/
def srcOf (EI : IVec S2x1250000 32) : IVec S1350000 32 :=
  (concatenate S1350000 0 [⟨S1250000, (shapeCast _ (extractStridedSlice S1x1250000 ![0, 0] EI slices_S2x1250000_S1x1250000_0_0) shapeCasts_S1x1250000_S1250000)⟩, ⟨S100000, (iotaInDim S100000 32 0)⟩] concatenates_S1250000_S100000_S1350000_d0)

/-- The receiving nodes: row 1 of the edge array, then every node once. -/
def dstOf (EI : IVec S2x1250000 32) : IVec S1350000 32 :=
  (concatenate S1350000 0 [⟨S1250000, (shapeCast _ (extractStridedSlice S1x1250000 ![1, 0] EI slices_S2x1250000_S1x1250000_1_0) shapeCasts_S1x1250000_S1250000)⟩, ⟨S100000, (iotaInDim S100000 32 0)⟩] concatenates_S1250000_S100000_S1350000_d0)

/-- Every node's degree (ones summed by receiving node) to the power −1/2. -/
def degInv (dst : IVec S1350000 32) : FVec Ideal S100000 .f32 :=
  (Host.rsqrt (Host.scatterAdd scatter_S100000_S1350000x1_S1350000_n_0_0_1 (broadcastInDim S100000 ![] bcast_S_S100000 (constant (F := Ideal) S_ .f32 0x00000000#32)) (broadcastInDim S1350000x1 ![0] bcast_S1350000_S1350000x1_0 dst) (broadcastInDim S1350000 ![] bcast_S_S1350000 (constant (F := Ideal) S_ .f32 0x3F800000#32))))

/-- The degree factors as a column, the way the kernels take them. -/
def degCol (dst : IVec S1350000 32) : FVec Ideal S100000x1 .f32 := shapeCast _ (degInv dst) shapeCasts_S100000_S100000x1

/-- The scatter-add of the gathered rows of `T` by receiving node. -/
def aggregate (T : FVec Ideal S100000x64 .f32) (src dst : IVec S1350000 32) : FVec Ideal S100000x64 .f32 :=
  Host.scatterAdd scatter_S100000x64_S1350000x1_S1350000x64_1_0_0_1 (broadcastInDim S100000x64 ![] bcast_S_S100000x64 (constant (F := Ideal) S_ .f32 0x00000000#32)) (col dst) (Host.gather gather_S100000x64_S1350000x1_S1350000x64_1_0_n_n_0_1_164 T (col (wrapIdx src)))

/-- One convolution layer as the kernel spells it. -/
def layer (X : FVec Ideal S100000x64 .f32) (W : FVec Ideal S64x64 .f32) (B : FVec Ideal S64 .f32) (src dst : IVec S1350000 32) : FVec Ideal S100000x64 .f32 :=
  Cert.Gcn.scaleBiasRelu (aggregate (Cert.Gcn.scaledProduct X W (degCol dst)) src dst) (degCol dst) (shapeCast _ B shapeCasts_S64_S1x64)

/-- Mean pooling by graph number and the last linear layer as the kernel spells them. -/
def tail (H : FVec Ideal S100000x64 .f32) (BATCH : IVec S100000 32) (WFC : FVec Ideal S64x64 .f32) (BFC : FVec Ideal S64 .f32) : FVec Ideal S128x64 .f32 :=
  Cert.Gcn.headOut (Cert.Gcn.poolSums H (shapeCast _ BATCH shapeCasts_S100000_S100000x1))
    (transpose S128x1 [1, 0] (Cert.Gcn.poolCounts (shapeCast _ BATCH shapeCasts_S100000_S100000x1)) transposes_S1x128_S128x1_1_0)
    WFC (shapeCast _ BFC shapeCasts_S64_S1x64)

/-- The kernel's result. -/
def out (X : FVec Ideal S100000x64 .f32) (EI : IVec S2x1250000 32) (BATCH : IVec S100000 32) (W1 : FVec Ideal S64x64 .f32) (B1 : FVec Ideal S64 .f32)
    (W2 : FVec Ideal S64x64 .f32) (B2 : FVec Ideal S64 .f32) (WFC : FVec Ideal S64x64 .f32) (BFC : FVec Ideal S64 .f32) : FVec Ideal S128x64 .f32 :=
  tail (layer (layer X W1 B1 (srcOf EI) (dstOf EI)) W2 B2 (srcOf EI) (dstOf EI)) BATCH WFC BFC

end Cert.Gcn.Ker

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«417988_j22883585753783_3_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.ProjectionRegions.lean ====
/-
  The two projection kernels (the first and the third pallas_call): each grid point t takes rows 5000·t … 5000·t + 4999 of
  the feature array, multiplies them with the whole weight matrix and scales row n by the n-th degree factor. The blocks
  tile the result, so after the last point the result array is `Gcn.scaledProduct` of the three input arrays.
-/
import proofs.«417988_j22883585753783_3_alg».proof.Proof.FrameKernelIdeal
import proofs.«417988_j22883585753783_3_alg».proof.Proof.Spec
import proofs.«417988_j22883585753783_3_alg».proof.Proof.LibRows
import proofs.«417988_j22883585753783_3_alg».proof.Proof.LibPlainAny
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

/-! ## One block of rows -/

/-- The offsets (0, 0) are zero on both axes. -/
theorem zeroOff : (![0, 0] : Fin 2 → Nat) = fun _ => 0 :=
  funext fun a => by
    match a with
    | ⟨0, _⟩ => rfl
    | ⟨1, _⟩ => rfl

/-- A column of 5000 values laid along 64 features: entry (p, q) is the p-th value. -/
theorem column_apply (d : Vec Ideal S5000x1 .f32) (p : Fin 5000) (q : Fin 64) :
    broadcastTo S5000x64 (shapeCast S5000x1 d shapeCasts_S5000x1_S5000x1) broadcasts_S5000x1_S5000x64 (ix2 p q)
      = d (ix2 p (0 : Fin 1)) := by
  rw [shapeCast_self]
  exact broadcastTo_apply d broadcasts_S5000x1_S5000x64 (ix2 p q) (ix2 p (0 : Fin 1)) fun a => by
    match a with
    | ⟨0, _⟩ => rfl
    | ⟨1, _⟩ => rfl

/-- The first kernel's block at (p, q): row p of the feature block times column q of the weights, the sum over the 64
    features, then times the p-th scale factor. Narrowing the operands' float format changes nothing at the ideal values. -/
theorem projBlock0_apply (x : Vec Ideal S5000x64 .f32) (w : Vec Ideal S64x64 .f32) (d : Vec Ideal S5000x1 .f32)
    (p : Fin 5000) (q : Fin 64) :
    k0_pay1 (F := Ideal) x w d (ix2 p q) = (∑ j : Fin 64, x (ix2 p j) * w (ix2 j q)) * d (ix2 p (0 : Fin 1)) := by
  unfold k0_pay1
  refine (mulf_apply _ _ _).trans ?_
  refine congrArg₂ (· * ·) ?_ (column_apply d p q)
  exact Rows.matmul_plain_any (N := 5000) (K := 64) (M := 64) (truncf .bf16 x bitsLt_bf16_f32) (truncf .bf16 w bitsLt_bf16_f32) p q

/-- The third kernel's block at (p, q): the same sum and scale as the first kernel's (its feature block passes through a
    reshape to its own shape first, which changes nothing). -/
theorem projBlock2_apply (x : Vec Ideal S5000x64 .f32) (w : Vec Ideal S64x64 .f32) (d : Vec Ideal S5000x1 .f32)
    (p : Fin 5000) (q : Fin 64) :
    k2_pay1 (F := Ideal) x w d (ix2 p q) = (∑ j : Fin 64, x (ix2 p j) * w (ix2 j q)) * d (ix2 p (0 : Fin 1)) := by
  unfold k2_pay1
  rw [shapeCast_self x shapeCasts_S5000x64_S5000x64]
  refine (mulf_apply _ _ _).trans ?_
  refine congrArg₂ (· * ·) ?_ (column_apply d p q)
  exact Rows.matmul_plain_any (N := 5000) (K := 64) (M := 64) (truncf .bf16 x bitsLt_bf16_f32) (truncf .bf16 w bitsLt_bf16_f32) p q

-- the TensorCore's buffer contents when the region is entered
variable (V : (c : Dev nD) → (b : Ref sig .tc) → Buf (Elt Ideal) ((c : Thread nD τ).loc b))

/-! ## The first pallas_call -/

/-- Where the four windows' blocks sit at grid point t: the feature, scale and result blocks are the t-th of their arrays,
    the weight window is its whole array. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of one point in terms of the whole arrays: when row p of the feature block is row n of the feature array,
    the weight block is the weight array and the p-th scale of the block is the n-th of the array, entry (p, q) of the
    block is entry (n, q) of the scaled projection. -/
theorem projBlock0_eq (X : FVec Ideal Gcn.SN64 .f32) (W : FVec Ideal Gcn.SW .f32) (D : FVec Ideal Gcn.SN1 .f32)
    (x : Vec Ideal S5000x64 .f32) (w : Vec Ideal S64x64 .f32) (d : Vec Ideal S5000x1 .f32) (n : Fin 100000) (p : Fin 5000)
    (hx : ∀ j : Fin 64, x (ix2 p j) = X (ix2 n j)) (hw : ∀ j q : Fin 64, w (ix2 j q) = W (ix2 j q))
    (hd : d (ix2 p (0 : Fin 1)) = D (ix2 n (0 : Fin 1))) (q : Fin 64) :
    k0_pay1 (F := Ideal) x w d (ix2 p q) = Gcn.scaledProduct X W D (ix2 n q) := by
  rw [projBlock0_apply, Gcn.scaledProduct_apply, hd]
  exact congrArg (· * D (ix2 n (0 : Fin 1))) (Finset.sum_congr rfl fun j _ => by rw [hx, hw])

/-- The feature block at point t: its row p is row 5000·t + p of the feature array. -/
theorem featBlock0 (c : Dev nD) (t : Fin cfg0.N) (p : Fin 5000) (j : Fin 64) (n : Fin 100000) (hn : n.val = 5000 * t.val + p.val) :
    (iblk0 V c 0 t : Vec Ideal S5000x64 .f32) (ix2 p j) = (V c main_arg0 : S100000x64.Idx → EReal) (ix2 n j) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 5000 + 1 * p.val = n.val; rw [e0, hn]; omega
  | ⟨1, _⟩ => show win0_0.index t 1 * 64 + 1 * j.val = j.val; rw [e1]; omega

/-- The weight block at every point is the weight array. -/
theorem weightBlock0 (c : Dev nD) (t : Fin cfg0.N) (j q : Fin 64) :
    (iblk0 V c 1 t : Vec Ideal S64x64 .f32) (ix2 j q) = (V c main_arg3 : S64x64.Idx → EReal) (ix2 j q) := by
  obtain ⟨-, -, e0, e1, -⟩ := blockIndex0 t
  unfold iblk0
  rw [View.read_apply]
  show V c main_arg3 _ = V c main_arg3 _
  congr 1
  funext a
  apply Fin.ext
  match a with
  | ⟨0, _⟩ => show win0_1.index t 0 * 64 + 1 * j.val = j.val; rw [e0]; omega
  | ⟨1, _⟩ => show win0_1.index t 1 * 64 + 1 * q.val = q.val; rw [e1]; omega

/-- The scale block at point t: its p-th value is the (5000·t + p)-th of the scale array. -/
theorem scaleBlock0 (c : Dev nD) (t : Fin cfg0.N) (p : Fin 5000) (n : Fin 100000) (hn : n.val = 5000 * t.val + p.val) :
    (iblk0 V c 2 t : Vec Ideal S5000x1 .f32) (ix2 p (0 : Fin 1)) = (V c main_call0_v12 : S100000x1.Idx → EReal) (ix2 n (0 : Fin 1)) := by
  obtain ⟨-, -, -, -, e0, e1, -⟩ := blockIndex0 t
  unfold iblk0
  rw [View.read_apply]
  show V c main_call0_v12 _ = V c main_call0_v12 _
  congr 1
  funext a
  apply Fin.ext
  match a with
  | ⟨0, _⟩ => show win0_2.index t 0 * 5000 + 1 * p.val = n.val; rw [e0, hn]; omega
  | ⟨1, _⟩ => show win0_2.index t 1 * 1 + 1 * 0 = 0; rw [e1]

/-- What point t writes back is the t-th block of rows of the scaled projection of the arrays the region finds. -/
theorem flushed0_eq (c : Dev nD) (t : Fin cfg0.N) :
    (dat0 V c).flushed 3 t = ((cfg0.win 3).blk t).view.read (Elt Ideal)
      (Cert.Gcn.scaledProduct (V c main_arg0) (V c main_arg3) (V c main_call0_v12)) := by
  show (cfg0.win 3).cut (grid0.coords t) ((dat0 V c).after 3 t) = _
  rw [after0_3]
  unfold out0_3
  rw [View.canon_unit_zero zeroOff]
  simp only [View.ld_unit_zero (S := S5000x64) zeroOff, View.ld_unit_zero (S := S64x64) zeroOff, View.ld_unit_zero (S := S5000x1) zeroOff]
  obtain ⟨-, -, -, -, -, -, e0, e1⟩ := blockIndex0 t
  funext j
  obtain ⟨p, q, rfl⟩ : ∃ (p : Fin 5000) (q : Fin 64), j = ix2 p q := ⟨j 0, j 1, eq_ix2 j⟩
  have ht : t.val < 20 := Nat.lt_of_lt_of_eq t.isLt N_0
  have hn : 5000 * t.val + p.val < 100000 := by have := p.isLt; omega
  show k0_pay1 (F := Ideal) (iblk0 V c 0 t) (iblk0 V c 1 t) (iblk0 V c 2 t) (ix2 p q)
    = Gcn.scaledProduct (V c main_arg0) (V c main_arg3) (V c main_call0_v12) (((cfg0.win 3).blk t).view.emb (ix2 p q))
  have hemb : ((cfg0.win 3).blk t).view.emb (ix2 p q) = ix2 (⟨5000 * t.val + p.val, hn⟩ : Fin 100000) q := by
    funext a
    apply Fin.ext
    match a with
    | ⟨0, _⟩ => show win0_3.index t 0 * 5000 + 1 * p.val = 5000 * t.val + p.val; rw [e0]; omega
    | ⟨1, _⟩ => show win0_3.index t 1 * 64 + 1 * q.val = q.val; rw [e1]; omega
  rw [hemb]
  exact projBlock0_eq (V c main_arg0) (V c main_arg3) (V c main_call0_v12) (iblk0 V c 0 t) (iblk0 V c 1 t) (iblk0 V c 2 t)
    ⟨5000 * t.val + p.val, hn⟩ p (fun j => featBlock0 V c t p j _ rfl) (fun j q => weightBlock0 V c t j q)
    (scaleBlock0 V c t p _ rfl) q

/-- An index of the result array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_call0_v13).slice (win0_3.rect t)).set ↔ _
  rw [View.set_slice_whole, Rect.mem_set_unit]
  exact Iff.rfl

/-- After the first pallas_call its result array holds the scaled projection of its three input arrays. -/
theorem final0 (c : Dev nD) :
    (dat0 V c).arrAt 3 cfg0.N = Cert.Gcn.scaledProduct (V c main_arg0) (V c main_arg3) (V c main_call0_v12) :=
  (dat0 V c).arrAt_eq_of_cover 3 (Cert.Gcn.scaledProduct (V c main_arg0) (V c main_arg3) (V c main_call0_v12))
    (fun t _ => flushed0_eq V c t) fun i => by
      have hi0 : (i 0).val < 100000 := (i 0).isLt
      have hi1 : (i 1).val < 64 := (i 1).isLt
      obtain ⟨t, ht⟩ : ∃ t : Fin cfg0.N, t.val = (i 0).val / 5000 :=
        ⟨⟨(i 0).val / 5000, by rw [show cfg0.N = 20 from N_0]; omega⟩, rfl⟩
      obtain ⟨-, -, -, -, -, -, e0, e1⟩ := blockIndex0 t
      refine ⟨t, flush0_3 t, ?_⟩
      rw [mem_blk0]
      intro a
      match a with
      | ⟨0, _⟩ =>
        show win0_3.index t 0 * 5000 ≤ (i 0).val ∧ (i 0).val < win0_3.index t 0 * 5000 + 5000
        rw [e0, ht]; omega
      | ⟨1, _⟩ =>
        show win0_3.index t 1 * 64 ≤ (i 1).val ∧ (i 1).val < win0_3.index t 1 * 64 + 64
        rw [e1]; omega

/-! ## The third pallas_call -/

/-- Where the four windows' blocks sit at grid point t: the feature, scale and result blocks are the t-th of their arrays,
    the weight window is its whole array. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The block of one point in terms of the whole arrays: when row p of the feature block is row n of the feature array,
    the weight block is the weight array and the p-th scale of the block is the n-th of the array, entry (p, q) of the
    block is entry (n, q) of the scaled projection. -/
theorem projBlock2_eq (X : FVec Ideal Gcn.SN64 .f32) (W : FVec Ideal Gcn.SW .f32) (D : FVec Ideal Gcn.SN1 .f32)
    (x : Vec Ideal S5000x64 .f32) (w : Vec Ideal S64x64 .f32) (d : Vec Ideal S5000x1 .f32) (n : Fin 100000) (p : Fin 5000)
    (hx : ∀ j : Fin 64, x (ix2 p j) = X (ix2 n j)) (hw : ∀ j q : Fin 64, w (ix2 j q) = W (ix2 j q))
    (hd : d (ix2 p (0 : Fin 1)) = D (ix2 n (0 : Fin 1))) (q : Fin 64) :
    k2_pay1 (F := Ideal) x w d (ix2 p q) = Gcn.scaledProduct X W D (ix2 n q) := by
  rw [projBlock2_apply, Gcn.scaledProduct_apply, hd]
  exact congrArg (· * D (ix2 n (0 : Fin 1))) (Finset.sum_congr rfl fun j _ => by rw [hx, hw])

/-- The feature block at point t: its row p is row 5000·t + p of the feature array. -/
theorem featBlock2 (c : Dev nD) (t : Fin cfg2.N) (p : Fin 5000) (j : Fin 64) (n : Fin 100000) (hn : n.val = 5000 * t.val + p.val) :
    (iblk2 V c 0 t : Vec Ideal S5000x64 .f32) (ix2 p j) = (V c main_call0_v26 : S100000x64.Idx → EReal) (ix2 n j) := by
  obtain ⟨e0, e1, -⟩ := blockIndex2 t
  unfold iblk2
  rw [View.read_apply]
  show V c main_call0_v26 _ = V c main_call0_v26 _
  congr 1
  funext a
  apply Fin.ext
  match a with
  | ⟨0, _⟩ => show win2_0.index t 0 * 5000 + 1 * p.val = n.val; rw [e0, hn]; omega
  | ⟨1, _⟩ => show win2_0.index t 1 * 64 + 1 * j.val = j.val; rw [e1]; omega

/-- The weight block at every point is the weight array. -/
theorem weightBlock2 (c : Dev nD) (t : Fin cfg2.N) (j q : Fin 64) :
    (iblk2 V c 1 t : Vec Ideal S64x64 .f32) (ix2 j q) = (V c main_arg5 : S64x64.Idx → EReal) (ix2 j q) := by
  obtain ⟨-, -, e0, e1, -⟩ := blockIndex2 t
  unfold iblk2
  rw [View.read_apply]
  show V c main_arg5 _ = V c main_arg5 _
  congr 1
  funext a
  apply Fin.ext
  match a with
  | ⟨0, _⟩ => show win2_1.index t 0 * 64 + 1 * j.val = j.val; rw [e0]; omega
  | ⟨1, _⟩ => show win2_1.index t 1 * 64 + 1 * q.val = q.val; rw [e1]; omega

/-- The scale block at point t: its p-th value is the (5000·t + p)-th of the scale array. -/
theorem scaleBlock2 (c : Dev nD) (t : Fin cfg2.N) (p : Fin 5000) (n : Fin 100000) (hn : n.val = 5000 * t.val + p.val) :
    (iblk2 V c 2 t : Vec Ideal S5000x1 .f32) (ix2 p (0 : Fin 1)) = (V c main_call0_v27 : S100000x1.Idx → EReal) (ix2 n (0 : Fin 1)) := by
  obtain ⟨-, -, -, -, e0, e1, -⟩ := blockIndex2 t
  unfold iblk2
  rw [View.read_apply]
  show V c main_call0_v27 _ = V c main_call0_v27 _
  congr 1
  funext a
  apply Fin.ext
  match a with
  | ⟨0, _⟩ => show win2_2.index t 0 * 5000 + 1 * p.val = n.val; rw [e0, hn]; omega
  | ⟨1, _⟩ => show win2_2.index t 1 * 1 + 1 * 0 = 0; rw [e1]

/-- What point t writes back is the t-th block of rows of the scaled projection of the arrays the region finds. -/
theorem flushed2_eq (c : Dev nD) (t : Fin cfg2.N) :
    (dat2 V c).flushed 3 t = ((cfg2.win 3).blk t).view.read (Elt Ideal)
      (Cert.Gcn.scaledProduct (V c main_call0_v26) (V c main_arg5) (V c main_call0_v27)) := by
  show (cfg2.win 3).cut (grid2.coords t) ((dat2 V c).after 3 t) = _
  rw [after2_3]
  unfold out2_3
  rw [View.canon_unit_zero zeroOff]
  simp only [View.ld_unit_zero (S := S5000x64) zeroOff, View.ld_unit_zero (S := S64x64) zeroOff, View.ld_unit_zero (S := S5000x1) zeroOff]
  obtain ⟨-, -, -, -, -, -, e0, e1⟩ := blockIndex2 t
  funext j
  obtain ⟨p, q, rfl⟩ : ∃ (p : Fin 5000) (q : Fin 64), j = ix2 p q := ⟨j 0, j 1, eq_ix2 j⟩
  have ht : t.val < 20 := Nat.lt_of_lt_of_eq t.isLt N_2
  have hn : 5000 * t.val + p.val < 100000 := by have := p.isLt; omega
  show k2_pay1 (F := Ideal) (iblk2 V c 0 t) (iblk2 V c 1 t) (iblk2 V c 2 t) (ix2 p q)
    = Gcn.scaledProduct (V c main_call0_v26) (V c main_arg5) (V c main_call0_v27) (((cfg2.win 3).blk t).view.emb (ix2 p q))
  have hemb : ((cfg2.win 3).blk t).view.emb (ix2 p q) = ix2 (⟨5000 * t.val + p.val, hn⟩ : Fin 100000) q := by
    funext a
    apply Fin.ext
    match a with
    | ⟨0, _⟩ => show win2_3.index t 0 * 5000 + 1 * p.val = 5000 * t.val + p.val; rw [e0]; omega
    | ⟨1, _⟩ => show win2_3.index t 1 * 64 + 1 * q.val = q.val; rw [e1]; omega
  rw [hemb]
  exact projBlock2_eq (V c main_call0_v26) (V c main_arg5) (V c main_call0_v27) (iblk2 V c 0 t) (iblk2 V c 1 t) (iblk2 V c 2 t)
    ⟨5000 * t.val + p.val, hn⟩ p (fun j => featBlock2 V c t p j _ rfl) (fun j q => weightBlock2 V c t j q)
    (scaleBlock2 V c t p _ rfl) q

/-- An index of the result array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_call0_v28).slice (win2_3.rect t)).set ↔ _
  rw [View.set_slice_whole, Rect.mem_set_unit]
  exact Iff.rfl

/-- After the third pallas_call its result array holds the scaled projection of its three input arrays. -/
theorem final2 (c : Dev nD) :
    (dat2 V c).arrAt 3 cfg2.N = Cert.Gcn.scaledProduct (V c main_call0_v26) (V c main_arg5) (V c main_call0_v27) :=
  (dat2 V c).arrAt_eq_of_cover 3 (Cert.Gcn.scaledProduct (V c main_call0_v26) (V c main_arg5) (V c main_call0_v27))
    (fun t _ => flushed2_eq V c t) fun i => by
      have hi0 : (i 0).val < 100000 := (i 0).isLt
      have hi1 : (i 1).val < 64 := (i 1).isLt
      obtain ⟨t, ht⟩ : ∃ t : Fin cfg2.N, t.val = (i 0).val / 5000 :=
        ⟨⟨(i 0).val / 5000, by rw [show cfg2.N = 20 from N_2]; omega⟩, rfl⟩
      obtain ⟨-, -, -, -, -, -, e0, e1⟩ := blockIndex2 t
      refine ⟨t, flush2_3 t, ?_⟩
      rw [mem_blk2]
      intro a
      match a with
      | ⟨0, _⟩ =>
        show win2_3.index t 0 * 5000 ≤ (i 0).val ∧ (i 0).val < win2_3.index t 0 * 5000 + 5000
        rw [e0, ht]; omega
      | ⟨1, _⟩ =>
        show win2_3.index t 1 * 64 ≤ (i 1).val ∧ (i 1).val < win2_3.index t 1 * 64 + 64
        rw [e1]; omega

end Cert.KernelIdeal.RegionValue

end
-- ==== Proof.ScaleBiasRegions.lean ====
/-
  The two scale-bias-relu kernels (the second and the fourth pallas_call): each grid point t takes rows 5000·t … 5000·t + 4999
  of the aggregated array, scales row n by the n-th degree factor, adds the bias row and cuts the negative part. The blocks
  tile the result, so after the last point the result array is `Gcn.scaleBiasRelu` of the three input arrays.

  The road: the body's value at one entry of its block (two broadcasts, otherwise entry by entry); each window's block at
  point t as rows of its array (an entry of a block sits at block index × block size + its place in the block); so what
  point t writes back is block t of the one function `Gcn.scaleBiasRelu` of the arrays; row r lies in the block of point
  r / 5000, so the 20 blocks cover the array, which therefore ends holding that function.
-/
import proofs.«417988_j22883585753783_3_alg».proof.Proof.FrameKernelIdeal
import proofs.«417988_j22883585753783_3_alg».proof.Proof.Spec
import proofs.«417988_j22883585753783_3_alg».proof.Proof.LibRows
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

-- the TensorCore's buffer contents when the region is entered
variable (V : (c : Dev nD) → (b : Ref sig .tc) → Buf (Elt Ideal) ((c : Thread nD τ).loc b))

/-! ## The body's arithmetic at one entry -/

/-- A column `[a, 1]` broadcast to `[a, b]` reads, at `(p, q)`, the column's entry of row `p`. -/
theorem sbr_bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's value at entry (p, q) of its block: the aggregated entry times row p's degree factor, plus the bias of
    feature q, cut below at the zero word. The two shape casts change nothing, the degree column is laid along each row
    and the bias row down each column. -/
theorem sbr_pay1 (x0 : Vec Ideal S5000x64 .f32) (x1 : Vec Ideal S5000x1 .f32) (x2 : Vec Ideal S1x64 .f32) (p : Fin 5000) (q : Fin 64) :
    k1_pay1 x0 x1 x2 (ix2 p q)
      = max (x0 (ix2 p q) * x1 (ix2 p (0 : Fin 1)) + x2 (ix2 (0 : Fin 1) q)) (Ideal.ofBits .f32 0x00000000#32) := by
  unfold k1_pay1
  show max (shapeCast S5000x64 x0 shapeCasts_S5000x64_S5000x64 (ix2 p q)
        * broadcastTo S5000x64 (shapeCast S5000x1 x1 shapeCasts_S5000x1_S5000x1) broadcasts_S5000x1_S5000x64 (ix2 p q)
      + broadcastTo S5000x64 (shapeCast S1x64 x2 shapeCasts_S1x64_S1x64) broadcasts_S1x64_S5000x64 (ix2 p q))
      (Ideal.ofBits .f32 0x00000000#32) = _
  rw [shapeCast_self, shapeCast_self, shapeCast_self, sbr_bcast_col, broadcastTo_1b_ab_apply]

/-- When the three blocks are rows 5000·t … 5000·t + 4999 of the aggregated array and of the degree column, and the whole
    bias row, the body's value at (p, q) is scale-bias-relu of the arrays at row 5000·t + p, feature q. -/
theorem sbr_block1 (A : FVec Ideal Cert.Gcn.SN64 .f32) (D : FVec Ideal Cert.Gcn.SN1 .f32) (B : FVec Ideal Cert.Gcn.SB .f32) (t : Fin 20)
    (x0 : Vec Ideal S5000x64 .f32) (x1 : Vec Ideal S5000x1 .f32) (x2 : Vec Ideal S1x64 .f32)
    (h0 : ∀ (p : Fin 5000) (q : Fin 64), x0 (ix2 p q) = A (ix2 (Cert.Gcn.node t p) q))
    (h1 : ∀ (p : Fin 5000), x1 (ix2 p (0 : Fin 1)) = D (ix2 (Cert.Gcn.node t p) (0 : Fin 1)))
    (h2 : ∀ (q : Fin 64), x2 (ix2 (0 : Fin 1) q) = B (ix2 (0 : Fin 1) q))
    (p : Fin 5000) (q : Fin 64) :
    k1_pay1 x0 x1 x2 (ix2 p q) = Cert.Gcn.scaleBiasRelu A D B (ix2 (Cert.Gcn.node t p) q) := by
  rw [sbr_pay1, h0, h1, h2, Cert.Gcn.scaleBiasRelu_apply]

/-- The fourth call's body is the second's, operation for operation. -/
theorem sbr_pay3_eq (x0 : Vec Ideal S5000x64 .f32) (x1 : Vec Ideal S5000x1 .f32) (x2 : Vec Ideal S1x64 .f32) :
    k3_pay1 x0 x1 x2 = k1_pay1 x0 x1 x2 := rfl

theorem sbr_block3 (A : FVec Ideal Cert.Gcn.SN64 .f32) (D : FVec Ideal Cert.Gcn.SN1 .f32) (B : FVec Ideal Cert.Gcn.SB .f32) (t : Fin 20)
    (x0 : Vec Ideal S5000x64 .f32) (x1 : Vec Ideal S5000x1 .f32) (x2 : Vec Ideal S1x64 .f32)
    (h0 : ∀ (p : Fin 5000) (q : Fin 64), x0 (ix2 p q) = A (ix2 (Cert.Gcn.node t p) q))
    (h1 : ∀ (p : Fin 5000), x1 (ix2 p (0 : Fin 1)) = D (ix2 (Cert.Gcn.node t p) (0 : Fin 1)))
    (h2 : ∀ (q : Fin 64), x2 (ix2 (0 : Fin 1) q) = B (ix2 (0 : Fin 1) q))
    (p : Fin 5000) (q : Fin 64) :
    k3_pay1 x0 x1 x2 (ix2 p q) = Cert.Gcn.scaleBiasRelu A D B (ix2 (Cert.Gcn.node t p) q) :=
  (congrFun (sbr_pay3_eq x0 x1 x2) (ix2 p q)).trans (sbr_block1 A D B t x0 x1 x2 h0 h1 h2 p q)

/-- The zero offsets of a store or load of a whole block. -/
theorem sbr_hz : (![0, 0] : Fin 2 → Nat) = fun _ => 0 := funext fun a => by fin_cases a <;> rfl

/-! ## The second pallas_call: from its blocks to its result array -/

/-- The four index maps over the 20 grid points: the two row windows and the result window sit at block (t, 0), the bias
    window at block (0, 0). -/
theorem sbr_idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of the aggregated array at point t: its entry (p, q) is the array's entry of row 5000·t + p. -/
theorem sbr_iblk1_0 (c : Dev nD) (t : Fin cfg1.N) (hN : t.val < 20) (p : Fin 5000) (q : Fin 64) :
    (iblk1 V c 0 t : Vec Ideal S5000x64 .f32) (ix2 p q)
      = (V c main_call0_v23 : FVec Ideal Cert.Gcn.SN64 .f32) (ix2 (Cert.Gcn.node ⟨t.val, hN⟩ p) q) := by
  obtain ⟨e0, e1, -⟩ := sbr_idx1 t
  unfold iblk1
  rw [View.read_apply]
  show V c main_call0_v23 _ = V c main_call0_v23 _
  congr 1
  funext a; apply Fin.ext
  match a with
  | ⟨0, _⟩ => show win1_0.index t (0 : Fin 2) * 5000 + 1 * p.val = 5000 * t.val + p.val; omega
  | ⟨1, _⟩ => show win1_0.index t (1 : Fin 2) * 64 + 1 * q.val = q.val; omega

/-- The block of the degree column at point t: its entry p is the column's entry of row 5000·t + p. -/
theorem sbr_iblk1_1 (c : Dev nD) (t : Fin cfg1.N) (hN : t.val < 20) (p : Fin 5000) :
    (iblk1 V c 1 t : Vec Ideal S5000x1 .f32) (ix2 p (0 : Fin 1))
      = (V c main_call0_v24 : FVec Ideal Cert.Gcn.SN1 .f32) (ix2 (Cert.Gcn.node ⟨t.val, hN⟩ p) (0 : Fin 1)) := by
  obtain ⟨-, -, e0, e1, -⟩ := sbr_idx1 t
  unfold iblk1
  rw [View.read_apply]
  show V c main_call0_v24 _ = V c main_call0_v24 _
  congr 1
  funext a; apply Fin.ext
  match a with
  | ⟨0, _⟩ => show win1_1.index t (0 : Fin 2) * 5000 + 1 * p.val = 5000 * t.val + p.val; omega
  | ⟨1, _⟩ => show win1_1.index t (1 : Fin 2) * 1 + 1 * 0 = 0; omega

/-- The bias window's block is the whole bias row at every point. -/
theorem sbr_iblk1_2 (c : Dev nD) (t : Fin cfg1.N) (q : Fin 64) :
    (iblk1 V c 2 t : Vec Ideal S1x64 .f32) (ix2 (0 : Fin 1) q)
      = (V c main_call0_v25 : FVec Ideal Cert.Gcn.SB .f32) (ix2 (0 : Fin 1) q) := by
  obtain ⟨-, -, -, -, e0, e1, -⟩ := sbr_idx1 t
  unfold iblk1
  rw [View.read_apply]
  show V c main_call0_v25 _ = V c main_call0_v25 _
  congr 1
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- What point t writes back is rows 5000·t … 5000·t + 4999 of scale-bias-relu of the three arrays. -/
theorem sbr_flushed1 (c : Dev nD) (t : Fin cfg1.N) :
    (dat1 V c).flushed 3 t = ((cfg1.win 3).blk t).view.read (Elt Ideal)
      (Cert.Gcn.scaleBiasRelu (V c main_call0_v23) (V c main_call0_v24) (V c main_call0_v25)) := by
  show (cfg1.win 3).cut (grid1.coords t) ((dat1 V c).after 3 t) = _
  rw [after1_3]
  unfold out1_3
  rw [View.canon_unit_zero sbr_hz]
  simp only [View.ld_unit_zero (S := S5000x64) sbr_hz, View.ld_unit_zero (S := S5000x1) sbr_hz, View.ld_unit_zero (S := S1x64) sbr_hz]
  funext j
  have hp : (j 0).val < 5000 := (j 0).isLt
  have hq : (j 1).val < 64 := (j 1).isLt
  have hN : t.val < 20 := lt_of_lt_of_eq t.isLt N_1
  obtain ⟨-, -, -, -, -, -, e0, e1⟩ := sbr_idx1 t
  have eL : (win1 3).xinj (grid1.coords t) j = ix2 (⟨(j 0).val, hp⟩ : Fin 5000) (⟨(j 1).val, hq⟩ : Fin 64) := by
    funext a; match a with | ⟨0, _⟩ => rfl | ⟨1, _⟩ => rfl
  have eR : ((View.whole main_call0_v26).slice ((win1 3).rect t)).emb j
      = ix2 (Cert.Gcn.node ⟨t.val, hN⟩ ⟨(j 0).val, hp⟩) (⟨(j 1).val, hq⟩ : Fin 64) := by
    funext a; apply Fin.ext
    match a with
    | ⟨0, _⟩ => show win1_3.index t (0 : Fin 2) * 5000 + 1 * (j 0).val = 5000 * t.val + (j 0).val; omega
    | ⟨1, _⟩ => show win1_3.index t (1 : Fin 2) * 64 + 1 * (j 1).val = (j 1).val; omega
  show k1_pay1 (iblk1 V c 0 t) (iblk1 V c 1 t) (iblk1 V c 2 t) ((win1 3).xinj (grid1.coords t) j)
    = Cert.Gcn.scaleBiasRelu (V c main_call0_v23) (V c main_call0_v24) (V c main_call0_v25)
        (((View.whole main_call0_v26).slice ((win1 3).rect t)).emb j)
  rw [eL, eR]
  exact sbr_block1 (V c main_call0_v23) (V c main_call0_v24) (V c main_call0_v25) ⟨t.val, hN⟩
    (iblk1 V c 0 t) (iblk1 V c 1 t) (iblk1 V c 2 t)
    (sbr_iblk1_0 V c t hN) (sbr_iblk1_1 V c t hN) (sbr_iblk1_2 V c t) _ _

/-- An index of the result array lies in point t's block iff on each axis it lies in the block's range. -/
theorem sbr_mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_call0_v26).slice (win1_3.rect t)).set ↔ _
  rw [View.set_slice_whole, Rect.mem_set_unit]
  exact Iff.rfl

/-- Row r of the result array is written by point r / 5000: the 20 blocks of 5000 rows tile the 100000 rows. -/
theorem sbr_cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 5000 < cfg1.N := by rw [show cfg1.N = 20 from N_1]; omega
  refine ⟨⟨(i 0).val / 5000, hlt⟩, flush1_3 _, ?_⟩
  obtain ⟨-, -, -, -, -, -, e0, e1⟩ := sbr_idx1 ⟨(i 0).val / 5000, hlt⟩
  have e0' : win1_3.index ⟨(i 0).val / 5000, hlt⟩ (0 : Fin 2) = (i 0).val / 5000 := e0
  rw [sbr_mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    omega

/-- After the second pallas_call its result array holds scale-bias-relu of its three input arrays. -/
theorem final1 (c : Dev nD) :
    (dat1 V c).arrAt 3 cfg1.N = Cert.Gcn.scaleBiasRelu (V c main_call0_v23) (V c main_call0_v24) (V c main_call0_v25) :=
  (dat1 V c).arrAt_eq_of_cover 3 (Cert.Gcn.scaleBiasRelu (V c main_call0_v23) (V c main_call0_v24) (V c main_call0_v25))
    (fun t _ => sbr_flushed1 V c t) sbr_cover1

/-! ## The fourth pallas_call: from its blocks to its result array -/

/-- The four index maps over the 20 grid points: the two row windows and the result window sit at block (t, 0), the bias
    window at block (0, 0). -/
theorem sbr_idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The block of the aggregated array at point t: its entry (p, q) is the array's entry of row 5000·t + p. -/
theorem sbr_iblk3_0 (c : Dev nD) (t : Fin cfg3.N) (hN : t.val < 20) (p : Fin 5000) (q : Fin 64) :
    (iblk3 V c 0 t : Vec Ideal S5000x64 .f32) (ix2 p q)
      = (V c main_call0_v38 : FVec Ideal Cert.Gcn.SN64 .f32) (ix2 (Cert.Gcn.node ⟨t.val, hN⟩ p) q) := by
  obtain ⟨e0, e1, -⟩ := sbr_idx3 t
  unfold iblk3
  rw [View.read_apply]
  show V c main_call0_v38 _ = V c main_call0_v38 _
  congr 1
  funext a; apply Fin.ext
  match a with
  | ⟨0, _⟩ => show win3_0.index t (0 : Fin 2) * 5000 + 1 * p.val = 5000 * t.val + p.val; omega
  | ⟨1, _⟩ => show win3_0.index t (1 : Fin 2) * 64 + 1 * q.val = q.val; omega

/-- The block of the degree column at point t: its entry p is the column's entry of row 5000·t + p. -/
theorem sbr_iblk3_1 (c : Dev nD) (t : Fin cfg3.N) (hN : t.val < 20) (p : Fin 5000) :
    (iblk3 V c 1 t : Vec Ideal S5000x1 .f32) (ix2 p (0 : Fin 1))
      = (V c main_call0_v39 : FVec Ideal Cert.Gcn.SN1 .f32) (ix2 (Cert.Gcn.node ⟨t.val, hN⟩ p) (0 : Fin 1)) := by
  obtain ⟨-, -, e0, e1, -⟩ := sbr_idx3 t
  unfold iblk3
  rw [View.read_apply]
  show V c main_call0_v39 _ = V c main_call0_v39 _
  congr 1
  funext a; apply Fin.ext
  match a with
  | ⟨0, _⟩ => show win3_1.index t (0 : Fin 2) * 5000 + 1 * p.val = 5000 * t.val + p.val; omega
  | ⟨1, _⟩ => show win3_1.index t (1 : Fin 2) * 1 + 1 * 0 = 0; omega

/-- The bias window's block is the whole bias row at every point. -/
theorem sbr_iblk3_2 (c : Dev nD) (t : Fin cfg3.N) (q : Fin 64) :
    (iblk3 V c 2 t : Vec Ideal S1x64 .f32) (ix2 (0 : Fin 1) q)
      = (V c main_call0_v40 : FVec Ideal Cert.Gcn.SB .f32) (ix2 (0 : Fin 1) q) := by
  obtain ⟨-, -, -, -, e0, e1, -⟩ := sbr_idx3 t
  unfold iblk3
  rw [View.read_apply]
  show V c main_call0_v40 _ = V c main_call0_v40 _
  congr 1
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- What point t writes back is rows 5000·t … 5000·t + 4999 of scale-bias-relu of the three arrays. -/
theorem sbr_flushed3 (c : Dev nD) (t : Fin cfg3.N) :
    (dat3 V c).flushed 3 t = ((cfg3.win 3).blk t).view.read (Elt Ideal)
      (Cert.Gcn.scaleBiasRelu (V c main_call0_v38) (V c main_call0_v39) (V c main_call0_v40)) := by
  show (cfg3.win 3).cut (grid3.coords t) ((dat3 V c).after 3 t) = _
  rw [after3_3]
  unfold out3_3
  rw [View.canon_unit_zero sbr_hz]
  simp only [View.ld_unit_zero (S := S5000x64) sbr_hz, View.ld_unit_zero (S := S5000x1) sbr_hz, View.ld_unit_zero (S := S1x64) sbr_hz]
  funext j
  have hp : (j 0).val < 5000 := (j 0).isLt
  have hq : (j 1).val < 64 := (j 1).isLt
  have hN : t.val < 20 := lt_of_lt_of_eq t.isLt N_3
  obtain ⟨-, -, -, -, -, -, e0, e1⟩ := sbr_idx3 t
  have eL : (win3 3).xinj (grid3.coords t) j = ix2 (⟨(j 0).val, hp⟩ : Fin 5000) (⟨(j 1).val, hq⟩ : Fin 64) := by
    funext a; match a with | ⟨0, _⟩ => rfl | ⟨1, _⟩ => rfl
  have eR : ((View.whole main_call0_v41).slice ((win3 3).rect t)).emb j
      = ix2 (Cert.Gcn.node ⟨t.val, hN⟩ ⟨(j 0).val, hp⟩) (⟨(j 1).val, hq⟩ : Fin 64) := by
    funext a; apply Fin.ext
    match a with
    | ⟨0, _⟩ => show win3_3.index t (0 : Fin 2) * 5000 + 1 * (j 0).val = 5000 * t.val + (j 0).val; omega
    | ⟨1, _⟩ => show win3_3.index t (1 : Fin 2) * 64 + 1 * (j 1).val = (j 1).val; omega
  show k3_pay1 (iblk3 V c 0 t) (iblk3 V c 1 t) (iblk3 V c 2 t) ((win3 3).xinj (grid3.coords t) j)
    = Cert.Gcn.scaleBiasRelu (V c main_call0_v38) (V c main_call0_v39) (V c main_call0_v40)
        (((View.whole main_call0_v41).slice ((win3 3).rect t)).emb j)
  rw [eL, eR]
  exact sbr_block3 (V c main_call0_v38) (V c main_call0_v39) (V c main_call0_v40) ⟨t.val, hN⟩
    (iblk3 V c 0 t) (iblk3 V c 1 t) (iblk3 V c 2 t)
    (sbr_iblk3_0 V c t hN) (sbr_iblk3_1 V c t hN) (sbr_iblk3_2 V c t) _ _

/-- An index of the result array lies in point t's block iff on each axis it lies in the block's range. -/
theorem sbr_mem_blk3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_call0_v41).slice (win3_3.rect t)).set ↔ _
  rw [View.set_slice_whole, Rect.mem_set_unit]
  exact Iff.rfl

/-- Row r of the result array is written by point r / 5000: the 20 blocks of 5000 rows tile the 100000 rows. -/
theorem sbr_cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hlt : (i 0).val / 5000 < cfg3.N := by rw [show cfg3.N = 20 from N_3]; omega
  refine ⟨⟨(i 0).val / 5000, hlt⟩, flush3_3 _, ?_⟩
  obtain ⟨-, -, -, -, -, -, e0, e1⟩ := sbr_idx3 ⟨(i 0).val / 5000, hlt⟩
  have e0' : win3_3.index ⟨(i 0).val / 5000, hlt⟩ (0 : Fin 2) = (i 0).val / 5000 := e0
  rw [sbr_mem_blk3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    omega
  | ⟨1, _⟩ =>
    show win3_3.index ⟨(i 0).val / 5000, hlt⟩ (1 : Fin 2) * 64 ≤ (i 1).val
      ∧ (i 1).val < win3_3.index ⟨(i 0).val / 5000, hlt⟩ (1 : Fin 2) * 64 + 64
    omega

/-- After the fourth pallas_call its result array holds scale-bias-relu of its three input arrays. -/
theorem final3 (c : Dev nD) :
    (dat3 V c).arrAt 3 cfg3.N = Cert.Gcn.scaleBiasRelu (V c main_call0_v38) (V c main_call0_v39) (V c main_call0_v40) :=
  (dat3 V c).arrAt_eq_of_cover 3 (Cert.Gcn.scaleBiasRelu (V c main_call0_v38) (V c main_call0_v39) (V c main_call0_v40))
    (fun t _ => sbr_flushed3 V c t) sbr_cover3

end Cert.KernelIdeal.RegionValue

end
-- ==== Proof.ChainLayers.lean ====
/-
  The first four pallas_calls with the host operations around them, read off the buffer contents at the region
  boundaries: after the second pallas_call its result array holds the first convolution layer of the arguments, and after
  the fourth the second layer of that. Each step is one of: a host operation's result as its function of earlier
  contents; a buffer no operation of a stretch writes, unchanged across it; a region's input array, unchanged across it;
  a region's output array, the region's function of its input arrays.
-/
import proofs.«417988_j22883585753783_3_alg».proof.Proof.FrameKernelIdeal
import proofs.«417988_j22883585753783_3_alg».proof.Proof.Layers
import proofs.«417988_j22883585753783_3_alg».proof.Proof.ProjectionRegions
import proofs.«417988_j22883585753783_3_alg».proof.Proof.ScaleBiasRegions

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg) (c : Dev nD)

/-- A transport along an equation of a type with itself is the identity. -/
theorem cast_same {A : Type} (h : A = A) (x : A) : cast h x = x := rfl

/-- A value carried into a buffer's type and back is the value. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At these four buffers the buffer's type is the value's type itself, so carrying a value into or out of the buffer's
    type changes nothing. -/
theorem toBuf_v23 (h1 h2 h3) (v : (⟨S100000x64, .f32⟩ : BufTy).Contents (Elt Ideal)) :
    (StableHlo.TRef.of (sig := sig) (T := ⟨S100000x64, .f32⟩) main_call0_v23 h1 h2 h3).toBuf v = v := rfl

theorem ofBuf_v13 (h1 h2 h3) (v : (⟨S100000x64, .f32⟩ : BufTy).Contents (Elt Ideal)) :
    (StableHlo.TRef.of (sig := sig) (T := ⟨S100000x64, .f32⟩) main_call0_v13 h1 h2 h3).ofBuf v = v := rfl

theorem ofBuf_v3 (h1 h2 h3) (v : (⟨S1350000, .i32⟩ : BufTy).Contents (Elt Ideal)) :
    (StableHlo.TRef.of (sig := sig) (T := ⟨S1350000, .i32⟩) main_call0_v3 h1 h2 h3).ofBuf v = v := rfl

theorem ofBuf_v6 (h1 h2 h3) (v : (⟨S1350000, .i32⟩ : BufTy).Contents (Elt Ideal)) :
    (StableHlo.TRef.of (sig := sig) (T := ⟨S1350000, .i32⟩) main_call0_v6 h1 h2 h3).ofBuf v = v := rfl

/-! ## Before the first pallas_call: the edge lists and the degree factors -/

/-- The sending-node list is built from the edge array as launched. -/
theorem v3_at1 : W1 m ρ c (Proc.devRef .tc main_call0_v3) = Cert.Gcn.Ker.srcOf (m ((c : Thread nD τ).loc main_arg1)) := by
  show StableHlo.after hostOps0 (W0 m ρ c) (Proc.devRef .tc main_call0_v3) = _
  after_results
  simp only [StableHlo.TRef.toBuf, StableHlo.TRef.ofBuf]
  repeat erw [cast_same]
  rfl

/-- The receiving-node list is built from the edge array as launched. -/
theorem v6_at1 : W1 m ρ c (Proc.devRef .tc main_call0_v6) = Cert.Gcn.Ker.dstOf (m ((c : Thread nD τ).loc main_arg1)) := by
  show StableHlo.after hostOps0 (W0 m ρ c) (Proc.devRef .tc main_call0_v6) = _
  after_results
  simp only [StableHlo.TRef.toBuf, StableHlo.TRef.ofBuf]
  repeat erw [cast_same]
  rfl

/-- The degree factors: ones scattered by receiving node, to the power −1/2. -/
theorem v11_at1 : W1 m ρ c (Proc.devRef .tc main_call0_v11) = Cert.Gcn.Ker.degInv (Cert.Gcn.Ker.dstOf (m ((c : Thread nD τ).loc main_arg1))) := by
  show StableHlo.after hostOps0 (W0 m ρ c) (Proc.devRef .tc main_call0_v11) = _
  after_results
  simp only [StableHlo.TRef.toBuf, StableHlo.TRef.ofBuf]
  repeat erw [cast_same]
  rfl

/-- The degree factors as a column. -/
theorem v12_at1 : W1 m ρ c (Proc.devRef .tc main_call0_v12) = Cert.Gcn.Ker.degCol (Cert.Gcn.Ker.dstOf (m ((c : Thread nD τ).loc main_arg1))) := by
  show StableHlo.after hostOps0 (W0 m ρ c) (Proc.devRef .tc main_call0_v12) = _
  after_results
  simp only [StableHlo.TRef.toBuf, StableHlo.TRef.ofBuf]
  repeat erw [cast_same]
  rfl

/-- The features are not written before the first pallas_call. -/
theorem arg0_at1 : W1 m ρ c (Proc.devRef .tc main_arg0) = (m ((c : Thread nD τ).loc main_arg0)) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first weights are not written before the first pallas_call. -/
theorem arg3_at1 : W1 m ρ c (Proc.devRef .tc main_arg3) = (m ((c : Thread nD τ).loc main_arg3)) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first bias is not written before the first pallas_call. -/
theorem arg4_at1 : W1 m ρ c (Proc.devRef .tc main_arg4) = (m ((c : Thread nD τ).loc main_arg4)) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## After the first pallas_call -/

/-- Its result is the scaled projection of the features. -/
theorem v13_at2 : W2 m ρ c (Proc.devRef .tc main_call0_v13)
    = Cert.Gcn.scaledProduct (m ((c : Thread nD τ).loc main_arg0)) (m ((c : Thread nD τ).loc main_arg3)) (Cert.Gcn.Ker.degCol (Cert.Gcn.Ker.dstOf (m ((c : Thread nD τ).loc main_arg1)))) := by
  refine ((W2_arr m ρ c 3).trans (Cert.KernelIdeal.RegionValue.final0 (V1 m ρ) c)).trans ?_
  show Cert.Gcn.scaledProduct (W1 m ρ c (Proc.devRef .tc main_arg0)) (W1 m ρ c (Proc.devRef .tc main_arg3))
    (W1 m ρ c (Proc.devRef .tc main_call0_v12)) = _
  rw [arg0_at1, arg3_at1, v12_at1]

/-- The pallas_call leaves the sending-node list alone. -/
theorem v3_at2 : W2 m ρ c (Proc.devRef .tc main_call0_v3) = Cert.Gcn.Ker.srcOf (m ((c : Thread nD τ).loc main_arg1)) :=
  (W2_of_ne m ρ c main_call0_v3 (by decide)).trans (v3_at1 m ρ c)

/-- The pallas_call leaves the receiving-node list alone. -/
theorem v6_at2 : W2 m ρ c (Proc.devRef .tc main_call0_v6) = Cert.Gcn.Ker.dstOf (m ((c : Thread nD τ).loc main_arg1)) :=
  (W2_of_ne m ρ c main_call0_v6 (by decide)).trans (v6_at1 m ρ c)

/-- The pallas_call leaves the degree factors alone. -/
theorem v11_at2 : W2 m ρ c (Proc.devRef .tc main_call0_v11) = Cert.Gcn.Ker.degInv (Cert.Gcn.Ker.dstOf (m ((c : Thread nD τ).loc main_arg1))) :=
  (W2_of_ne m ρ c main_call0_v11 (by decide)).trans (v11_at1 m ρ c)

/-- The pallas_call leaves the first bias alone. -/
theorem arg4_at2 : W2 m ρ c (Proc.devRef .tc main_arg4) = (m ((c : Thread nD τ).loc main_arg4)) :=
  (W2_of_ne m ρ c main_arg4 (by decide)).trans (arg4_at1 m ρ c)

/-! ## Between the first two pallas_calls: the aggregation -/

/-- The gathered rows of the scaled projection, added up by receiving node. -/
theorem v23_at3 : W3 m ρ c (Proc.devRef .tc main_call0_v23)
    = Cert.Gcn.Ker.aggregate (Cert.Gcn.scaledProduct (m ((c : Thread nD τ).loc main_arg0)) (m ((c : Thread nD τ).loc main_arg3)) (Cert.Gcn.Ker.degCol (Cert.Gcn.Ker.dstOf (m ((c : Thread nD τ).loc main_arg1)))))
        (Cert.Gcn.Ker.srcOf (m ((c : Thread nD τ).loc main_arg1))) (Cert.Gcn.Ker.dstOf (m ((c : Thread nD τ).loc main_arg1))) := by
  have h : W3 m ρ c (Proc.devRef .tc main_call0_v23)
      = Cert.Gcn.Ker.aggregate (W2 m ρ c (Proc.devRef .tc main_call0_v13)) (W2 m ρ c (Proc.devRef .tc main_call0_v3))
          (W2 m ρ c (Proc.devRef .tc main_call0_v6)) := by
    show StableHlo.after hostOps1 (W2 m ρ c) (Proc.devRef .tc main_call0_v23) = _
    after_results
    simp only [ofBuf_toBuf, toBuf_v23, ofBuf_v13, ofBuf_v3, ofBuf_v6]
    rfl
  rw [h, v13_at2, v3_at2, v6_at2]

/-- The degree factors as a column, once more. -/
theorem v24_at3 : W3 m ρ c (Proc.devRef .tc main_call0_v24) = Cert.Gcn.Ker.degCol (Cert.Gcn.Ker.dstOf (m ((c : Thread nD τ).loc main_arg1))) := by
  have h : W3 m ρ c (Proc.devRef .tc main_call0_v24)
      = shapeCast _ (W2 m ρ c (Proc.devRef .tc main_call0_v11)) shapeCasts_S100000_S100000x1 := by
    show StableHlo.after hostOps1 (W2 m ρ c) (Proc.devRef .tc main_call0_v24) = _
    after_results
    simp only [StableHlo.TRef.toBuf, StableHlo.TRef.ofBuf]
    repeat erw [cast_same]
    rfl
  rw [h, v11_at2]
  rfl

/-- The first bias as a row. -/
theorem v25_at3 : W3 m ρ c (Proc.devRef .tc main_call0_v25) = shapeCast _ (m ((c : Thread nD τ).loc main_arg4)) shapeCasts_S64_S1x64 := by
  have h : W3 m ρ c (Proc.devRef .tc main_call0_v25)
      = shapeCast _ (W2 m ρ c (Proc.devRef .tc main_arg4)) shapeCasts_S64_S1x64 := by
    show StableHlo.after hostOps1 (W2 m ρ c) (Proc.devRef .tc main_call0_v25) = _
    after_results
    simp only [StableHlo.TRef.toBuf, StableHlo.TRef.ofBuf]
    repeat erw [cast_same]
    rfl
  rw [h, arg4_at2]

/-- After the second pallas_call its result holds the first layer of the arguments. -/
theorem layer1_value :
    W4 m ρ c (Proc.devRef .tc main_call0_v26)
      = Cert.Gcn.Ker.layer (m ((c : Thread nD τ).loc main_arg0)) (m ((c : Thread nD τ).loc main_arg3)) (m ((c : Thread nD τ).loc main_arg4))
          (Cert.Gcn.Ker.srcOf (m ((c : Thread nD τ).loc main_arg1))) (Cert.Gcn.Ker.dstOf (m ((c : Thread nD τ).loc main_arg1))) := by
  refine ((W4_arr m ρ c 3).trans (Cert.KernelIdeal.RegionValue.final1 (V3 m ρ) c)).trans ?_
  show Cert.Gcn.scaleBiasRelu (W3 m ρ c (Proc.devRef .tc main_call0_v23)) (W3 m ρ c (Proc.devRef .tc main_call0_v24))
    (W3 m ρ c (Proc.devRef .tc main_call0_v25)) = _
  rw [v23_at3, v24_at3, v25_at3]
  rfl

end Cert.KernelIdeal.Chain

end
-- ==== Proof.ChainLayer2.lean ====
/-
  The first four pallas_calls with the host operations around them, read off the buffer contents at the region
  boundaries: after the second pallas_call its result array holds the first convolution layer of the arguments, and after
  the fourth the second layer of that. Each step is one of: a host operation's result as its function of earlier
  contents; a buffer no operation of a stretch writes, unchanged across it; a region's input array, unchanged across it;
  a region's output array, the region's function of its input arrays.
-/
import proofs.«417988_j22883585753783_3_alg».proof.Proof.FrameKernelIdeal
import proofs.«417988_j22883585753783_3_alg».proof.Proof.Layers
import proofs.«417988_j22883585753783_3_alg».proof.Proof.ProjectionRegions
import proofs.«417988_j22883585753783_3_alg».proof.Proof.ScaleBiasRegions

set_option maxRecDepth 16384

noncomputable section

namespace Cert.KernelIdeal.Chain2

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg) (c : Dev nD)

/-- A transport along an equation of a type with itself is the identity. -/
theorem cast_same {A : Type} (h : A = A) (x : A) : cast h x = x := rfl

/-- A value carried into a buffer's type and back is the value. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At these four buffers the buffer's type is the value's type itself, so carrying a value into or out of the buffer's
    type changes nothing. -/
theorem toBuf_v38 (h1 h2 h3) (v : (⟨S100000x64, .f32⟩ : BufTy).Contents (Elt Ideal)) :
    (StableHlo.TRef.of (sig := sig) (T := ⟨S100000x64, .f32⟩) main_call0_v38 h1 h2 h3).toBuf v = v := rfl

theorem ofBuf_v28 (h1 h2 h3) (v : (⟨S100000x64, .f32⟩ : BufTy).Contents (Elt Ideal)) :
    (StableHlo.TRef.of (sig := sig) (T := ⟨S100000x64, .f32⟩) main_call0_v28 h1 h2 h3).ofBuf v = v := rfl

theorem ofBuf_v3 (h1 h2 h3) (v : (⟨S1350000, .i32⟩ : BufTy).Contents (Elt Ideal)) :
    (StableHlo.TRef.of (sig := sig) (T := ⟨S1350000, .i32⟩) main_call0_v3 h1 h2 h3).ofBuf v = v := rfl

theorem ofBuf_v6 (h1 h2 h3) (v : (⟨S1350000, .i32⟩ : BufTy).Contents (Elt Ideal)) :
    (StableHlo.TRef.of (sig := sig) (T := ⟨S1350000, .i32⟩) main_call0_v6 h1 h2 h3).ofBuf v = v := rfl

/-! ## The edge lists and the degree factors, built before the first pallas_call -/

/-- The sending-node list is built from the edge array as launched. -/
theorem v3_at1 : W1 m ρ c (Proc.devRef .tc main_call0_v3) = (Cert.Gcn.Ker.srcOf (m ((c : Thread nD τ).loc main_arg1))) := by
  show StableHlo.after hostOps0 (W0 m ρ c) (Proc.devRef .tc main_call0_v3) = _
  after_results
  simp only [StableHlo.TRef.toBuf, StableHlo.TRef.ofBuf]
  repeat erw [cast_same]
  rfl

/-- The receiving-node list is built from the edge array as launched. -/
theorem v6_at1 : W1 m ρ c (Proc.devRef .tc main_call0_v6) = (Cert.Gcn.Ker.dstOf (m ((c : Thread nD τ).loc main_arg1))) := by
  show StableHlo.after hostOps0 (W0 m ρ c) (Proc.devRef .tc main_call0_v6) = _
  after_results
  simp only [StableHlo.TRef.toBuf, StableHlo.TRef.ofBuf]
  repeat erw [cast_same]
  rfl

/-- The degree factors: ones scattered by receiving node, to the power −1/2. -/
theorem v11_at1 : W1 m ρ c (Proc.devRef .tc main_call0_v11) = (Cert.Gcn.Ker.degInv (Cert.Gcn.Ker.dstOf (m ((c : Thread nD τ).loc main_arg1)))) := by
  show StableHlo.after hostOps0 (W0 m ρ c) (Proc.devRef .tc main_call0_v11) = _
  after_results
  simp only [StableHlo.TRef.toBuf, StableHlo.TRef.ofBuf]
  repeat erw [cast_same]
  rfl

/-- The second weights are as launched: nothing before the first pallas_call writes them. -/
theorem arg5_at1 : W1 m ρ c (Proc.devRef .tc main_arg5) = (m ((c : Thread nD τ).loc main_arg5)) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second bias is as launched: nothing before the first pallas_call writes it. -/
theorem arg6_at1 : W1 m ρ c (Proc.devRef .tc main_arg6) = (m ((c : Thread nD τ).loc main_arg6)) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## These five buffers are written by nothing up to the third pallas_call, so they keep their contents -/

/-- The first pallas_call leaves the sending-node list alone. -/
theorem v3_at2 : W2 m ρ c (Proc.devRef .tc main_call0_v3) = (Cert.Gcn.Ker.srcOf (m ((c : Thread nD τ).loc main_arg1))) :=
  (W2_of_ne m ρ c main_call0_v3 (by decide)).trans (v3_at1 m ρ c)

/-- The operations between the first two pallas_calls leave the sending-node list alone. -/
theorem v3_at3 : W3 m ρ c (Proc.devRef .tc main_call0_v3) = (Cert.Gcn.Ker.srcOf (m ((c : Thread nD τ).loc main_arg1))) :=
  (show W3 m ρ c (Proc.devRef .tc main_call0_v3) = W2 m ρ c (Proc.devRef .tc main_call0_v3) from
    StableHlo.after_of_forall_not_mem (b := Proc.devRef .tc main_call0_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (v3_at2 m ρ c)

/-- The second pallas_call leaves the sending-node list alone. -/
theorem v3_at4 : W4 m ρ c (Proc.devRef .tc main_call0_v3) = (Cert.Gcn.Ker.srcOf (m ((c : Thread nD τ).loc main_arg1))) :=
  (W4_of_ne m ρ c main_call0_v3 (by decide)).trans (v3_at3 m ρ c)

/-- The reshape before the third pallas_call leaves the sending-node list alone. -/
theorem v3_at5 : W5 m ρ c (Proc.devRef .tc main_call0_v3) = (Cert.Gcn.Ker.srcOf (m ((c : Thread nD τ).loc main_arg1))) :=
  (show W5 m ρ c (Proc.devRef .tc main_call0_v3) = W4 m ρ c (Proc.devRef .tc main_call0_v3) from
    StableHlo.after_of_forall_not_mem (b := Proc.devRef .tc main_call0_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (v3_at4 m ρ c)

/-- The third pallas_call leaves the sending-node list alone. -/
theorem v3_at6 : W6 m ρ c (Proc.devRef .tc main_call0_v3) = (Cert.Gcn.Ker.srcOf (m ((c : Thread nD τ).loc main_arg1))) :=
  (W6_of_ne m ρ c main_call0_v3 (by decide)).trans (v3_at5 m ρ c)

/-- The first pallas_call leaves the receiving-node list alone. -/
theorem v6_at2 : W2 m ρ c (Proc.devRef .tc main_call0_v6) = (Cert.Gcn.Ker.dstOf (m ((c : Thread nD τ).loc main_arg1))) :=
  (W2_of_ne m ρ c main_call0_v6 (by decide)).trans (v6_at1 m ρ c)

/-- The operations between the first two pallas_calls leave the receiving-node list alone. -/
theorem v6_at3 : W3 m ρ c (Proc.devRef .tc main_call0_v6) = (Cert.Gcn.Ker.dstOf (m ((c : Thread nD τ).loc main_arg1))) :=
  (show W3 m ρ c (Proc.devRef .tc main_call0_v6) = W2 m ρ c (Proc.devRef .tc main_call0_v6) from
    StableHlo.after_of_forall_not_mem (b := Proc.devRef .tc main_call0_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (v6_at2 m ρ c)

/-- The second pallas_call leaves the receiving-node list alone. -/
theorem v6_at4 : W4 m ρ c (Proc.devRef .tc main_call0_v6) = (Cert.Gcn.Ker.dstOf (m ((c : Thread nD τ).loc main_arg1))) :=
  (W4_of_ne m ρ c main_call0_v6 (by decide)).trans (v6_at3 m ρ c)

/-- The reshape before the third pallas_call leaves the receiving-node list alone. -/
theorem v6_at5 : W5 m ρ c (Proc.devRef .tc main_call0_v6) = (Cert.Gcn.Ker.dstOf (m ((c : Thread nD τ).loc main_arg1))) :=
  (show W5 m ρ c (Proc.devRef .tc main_call0_v6) = W4 m ρ c (Proc.devRef .tc main_call0_v6) from
    StableHlo.after_of_forall_not_mem (b := Proc.devRef .tc main_call0_v6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (v6_at4 m ρ c)

/-- The third pallas_call leaves the receiving-node list alone. -/
theorem v6_at6 : W6 m ρ c (Proc.devRef .tc main_call0_v6) = (Cert.Gcn.Ker.dstOf (m ((c : Thread nD τ).loc main_arg1))) :=
  (W6_of_ne m ρ c main_call0_v6 (by decide)).trans (v6_at5 m ρ c)

/-- The first pallas_call leaves the degree factors alone. -/
theorem v11_at2 : W2 m ρ c (Proc.devRef .tc main_call0_v11) = (Cert.Gcn.Ker.degInv (Cert.Gcn.Ker.dstOf (m ((c : Thread nD τ).loc main_arg1)))) :=
  (W2_of_ne m ρ c main_call0_v11 (by decide)).trans (v11_at1 m ρ c)

/-- The operations between the first two pallas_calls leave the degree factors alone. -/
theorem v11_at3 : W3 m ρ c (Proc.devRef .tc main_call0_v11) = (Cert.Gcn.Ker.degInv (Cert.Gcn.Ker.dstOf (m ((c : Thread nD τ).loc main_arg1)))) :=
  (show W3 m ρ c (Proc.devRef .tc main_call0_v11) = W2 m ρ c (Proc.devRef .tc main_call0_v11) from
    StableHlo.after_of_forall_not_mem (b := Proc.devRef .tc main_call0_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (v11_at2 m ρ c)

/-- The second pallas_call leaves the degree factors alone. -/
theorem v11_at4 : W4 m ρ c (Proc.devRef .tc main_call0_v11) = (Cert.Gcn.Ker.degInv (Cert.Gcn.Ker.dstOf (m ((c : Thread nD τ).loc main_arg1)))) :=
  (W4_of_ne m ρ c main_call0_v11 (by decide)).trans (v11_at3 m ρ c)

/-- The reshape before the third pallas_call leaves the degree factors alone. -/
theorem v11_at5 : W5 m ρ c (Proc.devRef .tc main_call0_v11) = (Cert.Gcn.Ker.degInv (Cert.Gcn.Ker.dstOf (m ((c : Thread nD τ).loc main_arg1)))) :=
  (show W5 m ρ c (Proc.devRef .tc main_call0_v11) = W4 m ρ c (Proc.devRef .tc main_call0_v11) from
    StableHlo.after_of_forall_not_mem (b := Proc.devRef .tc main_call0_v11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (v11_at4 m ρ c)

/-- The third pallas_call leaves the degree factors alone. -/
theorem v11_at6 : W6 m ρ c (Proc.devRef .tc main_call0_v11) = (Cert.Gcn.Ker.degInv (Cert.Gcn.Ker.dstOf (m ((c : Thread nD τ).loc main_arg1)))) :=
  (W6_of_ne m ρ c main_call0_v11 (by decide)).trans (v11_at5 m ρ c)

/-- The first pallas_call leaves the second weights alone. -/
theorem arg5_at2 : W2 m ρ c (Proc.devRef .tc main_arg5) = (m ((c : Thread nD τ).loc main_arg5)) :=
  (W2_of_ne m ρ c main_arg5 (by decide)).trans (arg5_at1 m ρ c)

/-- The operations between the first two pallas_calls leave the second weights alone. -/
theorem arg5_at3 : W3 m ρ c (Proc.devRef .tc main_arg5) = (m ((c : Thread nD τ).loc main_arg5)) :=
  (show W3 m ρ c (Proc.devRef .tc main_arg5) = W2 m ρ c (Proc.devRef .tc main_arg5) from
    StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg5_at2 m ρ c)

/-- The second pallas_call leaves the second weights alone. -/
theorem arg5_at4 : W4 m ρ c (Proc.devRef .tc main_arg5) = (m ((c : Thread nD τ).loc main_arg5)) :=
  (W4_of_ne m ρ c main_arg5 (by decide)).trans (arg5_at3 m ρ c)

/-- The reshape before the third pallas_call leaves the second weights alone. -/
theorem arg5_at5 : W5 m ρ c (Proc.devRef .tc main_arg5) = (m ((c : Thread nD τ).loc main_arg5)) :=
  (show W5 m ρ c (Proc.devRef .tc main_arg5) = W4 m ρ c (Proc.devRef .tc main_arg5) from
    StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg5_at4 m ρ c)

/-- The first pallas_call leaves the second bias alone. -/
theorem arg6_at2 : W2 m ρ c (Proc.devRef .tc main_arg6) = (m ((c : Thread nD τ).loc main_arg6)) :=
  (W2_of_ne m ρ c main_arg6 (by decide)).trans (arg6_at1 m ρ c)

/-- The operations between the first two pallas_calls leave the second bias alone. -/
theorem arg6_at3 : W3 m ρ c (Proc.devRef .tc main_arg6) = (m ((c : Thread nD τ).loc main_arg6)) :=
  (show W3 m ρ c (Proc.devRef .tc main_arg6) = W2 m ρ c (Proc.devRef .tc main_arg6) from
    StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg6_at2 m ρ c)

/-- The second pallas_call leaves the second bias alone. -/
theorem arg6_at4 : W4 m ρ c (Proc.devRef .tc main_arg6) = (m ((c : Thread nD τ).loc main_arg6)) :=
  (W4_of_ne m ρ c main_arg6 (by decide)).trans (arg6_at3 m ρ c)

/-- The reshape before the third pallas_call leaves the second bias alone. -/
theorem arg6_at5 : W5 m ρ c (Proc.devRef .tc main_arg6) = (m ((c : Thread nD τ).loc main_arg6)) :=
  (show W5 m ρ c (Proc.devRef .tc main_arg6) = W4 m ρ c (Proc.devRef .tc main_arg6) from
    StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg6_at4 m ρ c)

/-- The third pallas_call leaves the second bias alone. -/
theorem arg6_at6 : W6 m ρ c (Proc.devRef .tc main_arg6) = (m ((c : Thread nD τ).loc main_arg6)) :=
  (W6_of_ne m ρ c main_arg6 (by decide)).trans (arg6_at5 m ρ c)

/-! ## Around the third pallas_call -/

/-- The first layer's result is not written by the reshape before the third pallas_call. -/
theorem v26_at5 : W5 m ρ c (Proc.devRef .tc main_call0_v26) = W4 m ρ c (Proc.devRef .tc main_call0_v26) :=
  StableHlo.after_of_forall_not_mem (b := Proc.devRef .tc main_call0_v26) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The degree factors as a column, for the third pallas_call. -/
theorem v27_at5 : W5 m ρ c (Proc.devRef .tc main_call0_v27) = (Cert.Gcn.Ker.degCol (Cert.Gcn.Ker.dstOf (m ((c : Thread nD τ).loc main_arg1)))) := by
  have h : W5 m ρ c (Proc.devRef .tc main_call0_v27)
      = shapeCast _ (W4 m ρ c (Proc.devRef .tc main_call0_v11)) shapeCasts_S100000_S100000x1 := by
    show StableHlo.after hostOps2 (W4 m ρ c) (Proc.devRef .tc main_call0_v27) = _
    after_results
    simp only [StableHlo.TRef.toBuf, StableHlo.TRef.ofBuf]
    repeat erw [cast_same]
    rfl
  rw [h, v11_at4]
  rfl

/-- The third pallas_call's result is the scaled projection of the first layer's result. -/
theorem v28_at6 : W6 m ρ c (Proc.devRef .tc main_call0_v28)
    = Cert.Gcn.scaledProduct (W4 m ρ c (Proc.devRef .tc main_call0_v26)) (m ((c : Thread nD τ).loc main_arg5)) (Cert.Gcn.Ker.degCol (Cert.Gcn.Ker.dstOf (m ((c : Thread nD τ).loc main_arg1)))) := by
  refine ((W6_arr m ρ c 3).trans (Cert.KernelIdeal.RegionValue.final2 (V5 m ρ) c)).trans ?_
  show Cert.Gcn.scaledProduct (W5 m ρ c (Proc.devRef .tc main_call0_v26)) (W5 m ρ c (Proc.devRef .tc main_arg5))
    (W5 m ρ c (Proc.devRef .tc main_call0_v27)) = _
  rw [v26_at5, arg5_at5, v27_at5]

/-! ## Between the third and the fourth pallas_call: the aggregation -/

/-- The gathered rows of the scaled projection, added up by receiving node. -/
theorem v38_at7 : W7 m ρ c (Proc.devRef .tc main_call0_v38)
    = Cert.Gcn.Ker.aggregate (Cert.Gcn.scaledProduct (W4 m ρ c (Proc.devRef .tc main_call0_v26)) (m ((c : Thread nD τ).loc main_arg5)) (Cert.Gcn.Ker.degCol (Cert.Gcn.Ker.dstOf (m ((c : Thread nD τ).loc main_arg1))))) (Cert.Gcn.Ker.srcOf (m ((c : Thread nD τ).loc main_arg1))) (Cert.Gcn.Ker.dstOf (m ((c : Thread nD τ).loc main_arg1))) := by
  have h : W7 m ρ c (Proc.devRef .tc main_call0_v38)
      = Cert.Gcn.Ker.aggregate (W6 m ρ c (Proc.devRef .tc main_call0_v28)) (W6 m ρ c (Proc.devRef .tc main_call0_v3))
          (W6 m ρ c (Proc.devRef .tc main_call0_v6)) := by
    show StableHlo.after hostOps3 (W6 m ρ c) (Proc.devRef .tc main_call0_v38) = _
    after_results
    simp only [ofBuf_toBuf, toBuf_v38, ofBuf_v28, ofBuf_v3, ofBuf_v6]
    rfl
  rw [h, v28_at6, v3_at6, v6_at6]

/-- The degree factors as a column, for the fourth pallas_call. -/
theorem v39_at7 : W7 m ρ c (Proc.devRef .tc main_call0_v39) = (Cert.Gcn.Ker.degCol (Cert.Gcn.Ker.dstOf (m ((c : Thread nD τ).loc main_arg1)))) := by
  have h : W7 m ρ c (Proc.devRef .tc main_call0_v39)
      = shapeCast _ (W6 m ρ c (Proc.devRef .tc main_call0_v11)) shapeCasts_S100000_S100000x1 := by
    show StableHlo.after hostOps3 (W6 m ρ c) (Proc.devRef .tc main_call0_v39) = _
    after_results
    simp only [StableHlo.TRef.toBuf, StableHlo.TRef.ofBuf]
    repeat erw [cast_same]
    rfl
  rw [h, v11_at6]
  rfl

/-- The second bias as a row. -/
theorem v40_at7 : W7 m ρ c (Proc.devRef .tc main_call0_v40) = shapeCast _ (m ((c : Thread nD τ).loc main_arg6)) shapeCasts_S64_S1x64 := by
  have h : W7 m ρ c (Proc.devRef .tc main_call0_v40)
      = shapeCast _ (W6 m ρ c (Proc.devRef .tc main_arg6)) shapeCasts_S64_S1x64 := by
    show StableHlo.after hostOps3 (W6 m ρ c) (Proc.devRef .tc main_call0_v40) = _
    after_results
    simp only [StableHlo.TRef.toBuf, StableHlo.TRef.ofBuf]
    repeat erw [cast_same]
    rfl
  rw [h, arg6_at6]

/-- After the fourth pallas_call its result holds the second layer of the first layer's result. -/
theorem layer2_value :
    W8 m ρ c (Proc.devRef .tc main_call0_v41)
      = Cert.Gcn.Ker.layer (W4 m ρ c (Proc.devRef .tc main_call0_v26)) (m ((c : Thread nD τ).loc main_arg5)) (m ((c : Thread nD τ).loc main_arg6))
          (Cert.Gcn.Ker.srcOf (m ((c : Thread nD τ).loc main_arg1))) (Cert.Gcn.Ker.dstOf (m ((c : Thread nD τ).loc main_arg1))) := by
  refine ((W8_arr m ρ c 3).trans (Cert.KernelIdeal.RegionValue.final3 (V7 m ρ) c)).trans ?_
  show Cert.Gcn.scaleBiasRelu (W7 m ρ c (Proc.devRef .tc main_call0_v38)) (W7 m ρ c (Proc.devRef .tc main_call0_v39))
    (W7 m ρ c (Proc.devRef .tc main_call0_v40)) = _
  rw [v38_at7, v39_at7, v40_at7]
  rfl

end Cert.KernelIdeal.Chain2

end
-- ==== Proof.PoolRegion.lean ====
/-
  The pooling kernel (the fifth pallas_call): its two result blocks stay in place over the 20 grid points; point 0 resets
  them to zero, and every point t adds, for every graph g, the features (and the count) of the nodes of tile t whose
  graph number is g. After the last point the blocks hold the sums over all 20 tiles: `Gcn.poolSums` and `Gcn.poolCounts`.
-/
import proofs.«417988_j22883585753783_3_alg».proof.Proof.FrameKernelIdeal
import proofs.«417988_j22883585753783_3_alg».proof.Proof.Spec
import proofs.«417988_j22883585753783_3_alg».proof.Proof.LibRows
import proofs.«417988_j22883585753783_3_alg».proof.Proof.LibPlainAny
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

section Pieces

variable {F : FTy → Type} [FloatOps F]

/-- Both result blocks are read and written from their first entry on. -/
theorem origin2 : (![0, 0] : Fin 2 → Nat) = fun _ => 0 := funext fun a => by fin_cases a <;> rfl

/-- Point 0, the sums block: the zero block is stored, read back, and the tile's contribution is added to it. -/
theorem sums_first (c : Dev nD) (i : grid4.Coords) (arg1 : Memref sig .tc .vmem S5000x64 .f32) (harg1 : arg1.IsWhole)
    (arg2 : Memref sig .tc .vmem S5000x1 .i32) (harg2 : arg2.IsWhole) (arg3 : Memref sig .tc .vmem S128x64 .f32) (harg3 : arg3.IsWhole)
    (arg4 : Memref sig .tc .vmem S1x128 .f32) (harg4 : arg4.IsWhole) (hc0 : cond4_0 i)
    (x0 : Vec F S5000x64 .f32) (x1 : Vec F S5000x1 .i32) :
    out4_A_2 c i arg1 harg1 arg2 harg2 arg3 harg3 arg4 harg4 hc0 x0 x1 = k4_pay4 x1 x0 (k4_pay1 (F := F)) := by
  unfold out4_A_2
  rw [View.read_writes_eq_canon _ _ _ (cover4_A_2 c i arg1 harg1 arg2 harg2 arg3 harg3 arg4 harg4 hc0 x0 x1)]
  unfold kernelRun4_A
  dsimp only
  sl_unfold_words
  rw [View.canon_cons_unit_zero (S := S128x64) origin2, View.readCov_unit_zero (S := S128x64) _ origin2]
  simp only [View.readAt_eq_ld, harg1.read_unread, harg2.read_unread, View.ld_unit_zero (S := S5000x64) origin2,
    View.ld_unit_zero (S := S5000x1) origin2]

/-- Point 0, the counts row: the zero row is stored, read back, and the tile's counts are added to it. -/
theorem counts_first (c : Dev nD) (i : grid4.Coords) (arg1 : Memref sig .tc .vmem S5000x64 .f32) (harg1 : arg1.IsWhole)
    (arg2 : Memref sig .tc .vmem S5000x1 .i32) (harg2 : arg2.IsWhole) (arg3 : Memref sig .tc .vmem S128x64 .f32) (harg3 : arg3.IsWhole)
    (arg4 : Memref sig .tc .vmem S1x128 .f32) (harg4 : arg4.IsWhole) (hc0 : cond4_0 i)
    (x0 : Vec F S5000x64 .f32) (x1 : Vec F S5000x1 .i32) :
    out4_A_3 c i arg1 harg1 arg2 harg2 arg3 harg3 arg4 harg4 hc0 x0 x1 = k4_pay5 x1 (k4_pay2 (F := F)) := by
  unfold out4_A_3
  rw [View.read_writes_eq_canon _ _ _ (cover4_A_3 c i arg1 harg1 arg2 harg2 arg3 harg3 arg4 harg4 hc0 x0 x1)]
  unfold kernelRun4_A
  dsimp only
  sl_unfold_words
  rw [View.canon_cons_unit_zero (S := S1x128) origin2, View.readCov_unit_zero (S := S1x128) _ origin2]
  simp only [View.readAt_eq_ld, harg1.read_unread, harg2.read_unread, View.ld_unit_zero (S := S5000x64) origin2,
    View.ld_unit_zero (S := S5000x1) origin2]

/-- A later point, the sums block: the tile's contribution is added to what the block held. -/
theorem sums_later (c : Dev nD) (i : grid4.Coords) (arg1 : Memref sig .tc .vmem S5000x64 .f32) (harg1 : arg1.IsWhole)
    (arg2 : Memref sig .tc .vmem S5000x1 .i32) (harg2 : arg2.IsWhole) (arg3 : Memref sig .tc .vmem S128x64 .f32) (harg3 : arg3.IsWhole)
    (arg4 : Memref sig .tc .vmem S1x128 .f32) (harg4 : arg4.IsWhole) (hc0 : ¬cond4_0 i)
    (x0 : Vec F S5000x64 .f32) (x1 : Vec F S5000x1 .i32) (xo2 : Vec F S128x64 .f32) (xo3 : Vec F S1x128 .f32) :
    out4_B_2 c i arg1 harg1 arg2 harg2 arg3 harg3 arg4 harg4 hc0 x0 x1 xo2 xo3 = k4_pay4 x1 x0 xo2 := by
  unfold out4_B_2
  rw [View.read_writes_eq_canon _ _ _ (cover4_B_2 c i arg1 harg1 arg2 harg2 arg3 harg3 arg4 harg4 hc0 x0 x1 xo2 xo3)]
  unfold kernelRun4_B
  dsimp only
  sl_unfold_words
  rw [View.canon_unit_zero origin2]
  simp only [View.readAt_eq_ld, harg1.read_unread, harg2.read_unread, harg3.read_unread, harg4.read_unread,
    View.ld_unit_zero (S := S5000x64) origin2, View.ld_unit_zero (S := S5000x1) origin2, View.ld_unit_zero (S := S128x64) origin2,
    View.ld_unit_zero (S := S1x128) origin2]

/-- A later point, the counts row: the tile's counts are added to what the row held. -/
theorem counts_later (c : Dev nD) (i : grid4.Coords) (arg1 : Memref sig .tc .vmem S5000x64 .f32) (harg1 : arg1.IsWhole)
    (arg2 : Memref sig .tc .vmem S5000x1 .i32) (harg2 : arg2.IsWhole) (arg3 : Memref sig .tc .vmem S128x64 .f32) (harg3 : arg3.IsWhole)
    (arg4 : Memref sig .tc .vmem S1x128 .f32) (harg4 : arg4.IsWhole) (hc0 : ¬cond4_0 i)
    (x0 : Vec F S5000x64 .f32) (x1 : Vec F S5000x1 .i32) (xo2 : Vec F S128x64 .f32) (xo3 : Vec F S1x128 .f32) :
    out4_B_3 c i arg1 harg1 arg2 harg2 arg3 harg3 arg4 harg4 hc0 x0 x1 xo2 xo3 = k4_pay5 x1 xo3 := by
  unfold out4_B_3
  rw [View.read_writes_eq_canon _ _ _ (cover4_B_3 c i arg1 harg1 arg2 harg2 arg3 harg3 arg4 harg4 hc0 x0 x1 xo2 xo3)]
  unfold kernelRun4_B
  dsimp only
  sl_unfold_words
  rw [View.canon_unit_zero origin2]
  simp only [View.readAt_eq_ld, harg1.read_unread, harg2.read_unread, harg3.read_unread, harg4.read_unread,
    View.ld_unit_zero (S := S5000x64) origin2, View.ld_unit_zero (S := S5000x1) origin2, View.ld_unit_zero (S := S128x64) origin2,
    View.ld_unit_zero (S := S1x128) origin2]

end Pieces

section Values

/-! ## The arithmetic of one point, entry by entry -/

/-- The comparison word widened and converted: 1 when the two words are equal, 0 when not. -/
theorem membership_word (w v : BitVec 32) :
    (((((IntOp.cmpi .eq w v).setWidth 32).toInt : ℝ)) : EReal) = if w = v then 1 else 0 := by
  have key : ∀ b : Bool, ((BitVec.ofBool b).setWidth 32).toInt = if b then 1 else 0 := by decide
  show (((((BitVec.ofBool (w == v)).setWidth 32).toInt : ℝ)) : EReal) = _
  rw [key]
  by_cases h : w = v
  · subst h; simp
  · have hb : (w == v) = false := beq_eq_false_iff_ne.mpr h
    rw [hb, if_neg h]; simp

/-- The membership matrix of a tile: entry (r, g) is 1 when node r of the tile has graph number g, else 0. -/
theorem membership_apply (x1 : Vec Ideal S5000x1 .i32) (r : Fin 5000) (g : Fin 128) :
    k4_pay3 (F := Ideal) x1 (ix2 r g) = Cert.Gcn.oneHot (x1 (ix2 r (0 : Fin 1))) g := by
  unfold k4_pay3
  have e1 : broadcastTo S5000x128 (shapeCast S5000x1 x1 shapeCasts_S5000x1_S5000x1) broadcasts_S5000x1_S5000x128 (ix2 r g)
      = x1 (ix2 r (0 : Fin 1)) := by
    rw [shapeCast_self]
    exact broadcastTo_apply x1 broadcasts_S5000x1_S5000x128 (ix2 r g) (ix2 r (0 : Fin 1)) (fun a => by
      match a with
      | ⟨0, _⟩ => show r.val = if (5000 : ℕ) = 1 then 0 else r.val; rw [if_neg (by decide)]
      | ⟨1, _⟩ => rfl)
  have e2 : iota .tc S5000x128 32 [1] iota_S5000x128_d1_w32 (ix2 r g) = BitVec.ofNat 32 g.val :=
    iota_single_apply .tc S5000x128 32 1 iota_S5000x128_d1_w32 (ix2 r g)
  show (((((IntOp.cmpi .eq (broadcastTo S5000x128 (shapeCast S5000x1 x1 shapeCasts_S5000x1_S5000x1) broadcasts_S5000x1_S5000x128 (ix2 r g))
      (iota .tc S5000x128 32 [1] iota_S5000x128_d1_w32 (ix2 r g))).setWidth 32).toInt : ℝ)) : EReal) = _
  rw [e1, e2, membership_word]
  rfl

/-! The product of the membership matrix with the feature block contracts the node axis of both. -/

theorem pool_lhs_0 (i : S128x64.Idx) (q : dot_S5000x128_S5000x64_S128x64_0_0_1_1_n_n.contr.Idx) :
    (dot_S5000x128_S5000x64_S128x64_0_0_1_1_n_n.lhsIdx i q 0).val = (q ⟨0, Nat.one_pos⟩).val :=
  dot_S5000x128_S5000x64_S128x64_0_0_1_1_n_n.lhsIdx_val_of_single rfl i q

theorem pool_lhs_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch from List.not_mem_nil),
    dif_pos (show (1 : Fin S5000x128.rank) ∈ dot_S5000x128_S5000x64_S128x64_0_0_1_1_n_n.lhsNonContracting from List.mem_singleton.mpr rfl)]
  rfl

theorem pool_rhs_0 (i : S128x64.Idx) (q : dot_S5000x128_S5000x64_S128x64_0_0_1_1_n_n.contr.Idx) :
    (dot_S5000x128_S5000x64_S128x64_0_0_1_1_n_n.rhsIdx i q 0).val = (q ⟨0, Nat.one_pos⟩).val :=
  dot_S5000x128_S5000x64_S128x64_0_0_1_1_n_n.rhsIdx_val_of_single rfl i q

theorem pool_rhs_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch from List.not_mem_nil),
    dif_pos (show (1 : Fin S5000x64.rank) ∈ dot_S5000x128_S5000x64_S128x64_0_0_1_1_n_n.rhsNonContracting from List.mem_singleton.mpr rfl)]
  rfl

/-- Entry (g, k) of the product into a zero accumulator: the sum over the tile's nodes r of l(r, g) · h(r, k). -/
theorem pool_product_apply {φ₁ φ₂ : FTy} (l : FVec Ideal S5000x128 φ₁) (h : FVec Ideal S5000x64 φ₂) (g : Fin 128) (k : Fin 64) :
    matmul dot_S5000x128_S5000x64_S128x64_0_0_1_1_n_n none l h (constant S128x64 .f32 0x00000000#32) (ix2 g k)
      = ∑ r : Fin 5000, l (ix2 r g) * h (ix2 r k) := by
  show FloatOps.matmul dot_S5000x128_S5000x64_S128x64_0_0_1_1_n_n none l h (constant S128x64 .f32 0x00000000#32) (ix2 g k) = _
  rw [Ideal.matmul_constant_zero_apply,
    ← Equiv.sum_comp (contrEquiv1 dot_S5000x128_S5000x64_S128x64_0_0_1_1_n_n 5000 rfl rfl).symm]
  refine Finset.sum_congr rfl fun r _ => ?_
  have hr := contrEquiv1_symm_val dot_S5000x128_S5000x64_S128x64_0_0_1_1_n_n 5000 rfl rfl r
  have el : dot_S5000x128_S5000x64_S128x64_0_0_1_1_n_n.lhsIdx (ix2 g k)
      ((contrEquiv1 dot_S5000x128_S5000x64_S128x64_0_0_1_1_n_n 5000 rfl rfl).symm r) = ix2 r g :=
    funext fun a => Fin.ext (by
      match a with
      | ⟨0, _⟩ => exact (pool_lhs_0 _ _).trans hr
      | ⟨1, _⟩ => exact pool_lhs_1 _ _)
  have er : dot_S5000x128_S5000x64_S128x64_0_0_1_1_n_n.rhsIdx (ix2 g k)
      ((contrEquiv1 dot_S5000x128_S5000x64_S128x64_0_0_1_1_n_n 5000 rfl rfl).symm r) = ix2 r k :=
    funext fun a => Fin.ext (by
      match a with
      | ⟨0, _⟩ => exact (pool_rhs_0 _ _).trans hr
      | ⟨1, _⟩ => exact pool_rhs_1 _ _)
  rw [el, er]

/-- The zero block the first point stores is 0 at every entry. -/
theorem zero_block_apply (j : S128x64.Idx) : k4_pay1 (F := Ideal) j = 0 := Ideal.ofBits_zero_f32

/-- The zero row the first point stores is 0 at every entry. -/
theorem zero_row_apply (j : S1x128.Idx) : k4_pay2 (F := Ideal) j = 0 := Ideal.ofBits_zero_f32

/-- One point's update of the sums block at (g, k): what the block held there plus the sum, over the tile's nodes r
    whose graph number is g, of feature k of node r. -/
theorem sums_step_apply (x1 : Vec Ideal S5000x1 .i32) (x0 : Vec Ideal S5000x64 .f32) (acc : Vec Ideal S128x64 .f32)
    (g : Fin 128) (k : Fin 64) :
    k4_pay4 (F := Ideal) x1 x0 acc (ix2 g k)
      = acc (ix2 g k) + ∑ r : Fin 5000, Cert.Gcn.oneHot (x1 (ix2 r (0 : Fin 1))) g * x0 (ix2 r k) := by
  unfold k4_pay4
  simp only [shapeCast_self]
  rw [addf_apply, pool_product_apply]
  refine congrArg (acc (ix2 g k) + ·) (Finset.sum_congr rfl fun r _ => ?_)
  show k4_pay3 (F := Ideal) x1 (ix2 r g) * x0 (ix2 r k) = _
  rw [membership_apply]

/-- The node axis put back into a graph number gives the membership matrix's entry (r, g). -/
theorem lift_node (g : Fin 128) (r : Fin 5000) : reduces_S5000x128_S128.lift (ix1 g) r = ix2 r g :=
  funext fun a => Fin.ext (by
    match a with
    | ⟨0, _⟩ => rfl
    | ⟨1, _⟩ => rfl)

/-- One point's update of the counts row at g: what the row held there plus the number of the tile's nodes whose
    graph number is g. -/
theorem counts_step_apply (x1 : Vec Ideal S5000x1 .i32) (acc : Vec Ideal S1x128 .f32) (g : Fin 128) :
    k4_pay5 (F := Ideal) x1 acc (ix2 (0 : Fin 1) g)
      = acc (ix2 (0 : Fin 1) g) + ∑ r : Fin 5000, Cert.Gcn.oneHot (x1 (ix2 r (0 : Fin 1))) g := by
  unfold k4_pay5
  simp only [shapeCast_self]
  rw [addf_apply, shapeCast_a_1a_apply]
  refine congrArg (acc (ix2 (0 : Fin 1) g) + ·) ?_
  refine (Ideal.multiReduction_add_single (k4_pay3 (F := Ideal) x1) _ reduces_S5000x128_S128 _ _ (ix1 g)).trans ?_
  refine Finset.sum_congr rfl fun r _ => ?_
  exact (congrArg (k4_pay3 (F := Ideal) x1) (lift_node g r)).trans (membership_apply x1 r g)

end Values

-- the TensorCore's buffer contents when the region is entered
variable (V : (c : Dev nD) → (b : Ref sig .tc) → Buf (Elt Ideal) ((c : Thread nD τ).loc b))

/-! ## The blocks the points read, and the sums they accumulate -/

/-- The feature block of point t: the 5000 rows of tile t of the feature array. -/
abbrev featBlk (c : Dev nD) (t : Fin cfg4.N) : Vec Ideal S5000x64 .f32 := iblk4 V c 0 t

/-- The graph-number block of point t: the 5000 entries of tile t of the graph-number column. -/
abbrev graphBlk (c : Dev nD) (t : Fin cfg4.N) : Vec Ideal S5000x1 .i32 := iblk4 V c 1 t

/-- Both input windows step one block of rows per point and stay in column block 0; both result windows stay at block (0, 0). -/
theorem window_steps : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Row r of the feature block of point t is row 5000·t + r of the feature array. -/
theorem featBlk_apply (c : Dev nD) (t : Fin cfg4.N) (ht : t.val < 20) (r : Fin 5000) (k : Fin 64) :
    featBlk V c t (ix2 r k) = V c main_call0_v41 (ix2 (Cert.Gcn.node ⟨t.val, ht⟩ r) k) := by
  show V c main_call0_v41 (((cfg4.win 0).blk t).view.emb (ix2 r k)) = V c main_call0_v41 _
  refine congrArg (V c main_call0_v41) (funext fun a => Fin.ext ?_)
  match a with
  | ⟨0, _⟩ =>
    show win4_0.index t (0 : Fin 2) * 5000 + 1 * r.val = 5000 * t.val + r.val
    rw [(window_steps t).1]; omega
  | ⟨1, _⟩ =>
    show win4_0.index t (1 : Fin 2) * 64 + 1 * k.val = k.val
    rw [(window_steps t).2.1]; omega

/-- Entry r of the graph-number block of point t is entry 5000·t + r of the graph-number column. -/
theorem graphBlk_apply (c : Dev nD) (t : Fin cfg4.N) (ht : t.val < 20) (r : Fin 5000) :
    graphBlk V c t (ix2 r (0 : Fin 1)) = V c main_call0_v42 (ix2 (Cert.Gcn.node ⟨t.val, ht⟩ r) (0 : Fin 1)) := by
  show V c main_call0_v42 (((cfg4.win 1).blk t).view.emb (ix2 r (0 : Fin 1))) = V c main_call0_v42 _
  refine congrArg (V c main_call0_v42) (funext fun a => Fin.ext ?_)
  match a with
  | ⟨0, _⟩ =>
    show win4_1.index t (0 : Fin 2) * 5000 + 1 * r.val = 5000 * t.val + r.val
    rw [(window_steps t).2.2.1]; omega
  | ⟨1, _⟩ =>
    show win4_1.index t (1 : Fin 2) * 1 + 1 * 0 = 0
    rw [(window_steps t).2.2.2.1]

/-- Tile s's part of the feature sum of graph g, feature k (nothing past the last tile). -/
def tileSum (H : FVec Ideal Cert.Gcn.SN64 .f32) (B : IVec Cert.Gcn.SN1 32) (g : Fin 128) (k : Fin 64) (s : ℕ) : EReal :=
  if hs : s < 20 then
    ∑ r : Fin 5000, Cert.Gcn.oneHot (B (ix2 (Cert.Gcn.node ⟨s, hs⟩ r) (0 : Fin 1))) g * H (ix2 (Cert.Gcn.node ⟨s, hs⟩ r) k)
  else 0

/-- What point t adds at (g, k), read off the two arrays. -/
theorem tile_step (c : Dev nD) (t : Fin cfg4.N) (g : Fin 128) (k : Fin 64) :
    (∑ r : Fin 5000, Cert.Gcn.oneHot (graphBlk V c t (ix2 r (0 : Fin 1))) g * featBlk V c t (ix2 r k))
      = tileSum (V c main_call0_v41) (V c main_call0_v42) g k t.val := by
  have ht : t.val < 20 := lt_of_lt_of_eq t.isLt (show cfg4.N = 20 from N_4)
  unfold tileSum
  rw [dif_pos ht]
  refine Finset.sum_congr rfl fun r _ => ?_
  rw [featBlk_apply V c t ht r k, graphBlk_apply V c t ht r]

/-- The 20 tiles' parts add up to the whole feature sum. -/
theorem tiles_total (H : FVec Ideal Cert.Gcn.SN64 .f32) (B : IVec Cert.Gcn.SN1 32) (g : Fin 128) (k : Fin 64) :
    ∑ s ∈ Finset.range 20, tileSum H B g k s = Cert.Gcn.poolSums H B (ix2 g k) := by
  rw [Cert.Gcn.poolSums_apply, Finset.sum_range]
  refine Finset.sum_congr rfl fun t _ => ?_
  unfold tileSum
  rw [dif_pos t.isLt]

/-- At the first point the sums block holds tile 0's part. -/
theorem sums_at_first (c : Dev nD) (t : Fin cfg4.N) (h0 : t.val % 20 = 0) (g : Fin 128) (k : Fin 64) :
    (outsAt4 V c t.val t.isLt).1 (ix2 g k) = tileSum (V c main_call0_v41) (V c main_call0_v42) g k t.val := by
  rw [outsAt4_A V c t h0]
  dsimp only
  refine (congrFun (sums_first (F := Ideal) c (grid4.coords t) (ms4_0 t) (hs4_0 t) (ms4_1 t) (hs4_1 t) (ms4_2 t) (hs4_2 t)
    (ms4_3 t) (hs4_3 t) ((hcond4_0 t).mpr h0) (featBlk V c t) (graphBlk V c t)) (ix2 g k)).trans ?_
  rw [sums_step_apply, zero_block_apply, zero_add, tile_step]

/-- At a later point the sums block holds what the point before left plus this tile's part. -/
theorem sums_at_later (c : Dev nD) (t : Fin cfg4.N) (h0 : ¬t.val % 20 = 0) (g : Fin 128) (k : Fin 64) :
    (outsAt4 V c t.val t.isLt).1 (ix2 g k)
      = (outsAt4 V c (t.val - 1) (Nat.lt_of_le_of_lt (Nat.sub_le _ _) t.isLt)).1 (ix2 g k)
        + tileSum (V c main_call0_v41) (V c main_call0_v42) g k t.val := by
  rw [outsAt4_B V c t h0]
  dsimp only
  refine (congrFun (sums_later (F := Ideal) c (grid4.coords t) (ms4_0 t) (hs4_0 t) (ms4_1 t) (hs4_1 t) (ms4_2 t) (hs4_2 t)
    (ms4_3 t) (hs4_3 t) (fun h => h0 ((hcond4_0 t).mp h)) (featBlk V c t) (graphBlk V c t)
    (outsAt4 V c (t.val - 1) (Nat.lt_of_le_of_lt (Nat.sub_le _ _) t.isLt)).1
    (outsAt4 V c (t.val - 1) (Nat.lt_of_le_of_lt (Nat.sub_le _ _) t.isLt)).2) (ix2 g k)).trans ?_
  rw [sums_step_apply, tile_step]

/-- After point n the sums block holds the parts of tiles 0 … n. -/
theorem sums_running (c : Dev nD) (g : Fin 128) (k : Fin 64) : ∀ (n : ℕ) (hn : n < cfg4.N),
    (outsAt4 V c n hn).1 (ix2 g k) = ∑ s ∈ Finset.range (n + 1), tileSum (V c main_call0_v41) (V c main_call0_v42) g k s
  | 0, hn => by
    rw [Finset.sum_range_one]
    exact sums_at_first V c ⟨0, hn⟩ rfl g k
  | n + 1, hn => by
    have hN : cfg4.N = 20 := N_4
    have hB : ¬(⟨n + 1, hn⟩ : Fin cfg4.N).val % 20 = 0 := by dsimp only; omega
    rw [Finset.sum_range_succ, ← sums_running c g k n (Nat.lt_of_succ_lt hn)]
    exact sums_at_later V c ⟨n + 1, hn⟩ hB g k

/-! ## From the last point's blocks to the arrays -/

/-- The one write-back of the sums window, after the last point, moves the whole feature sums: the block then holds
    the parts of all 20 tiles, and its place in the array is the array itself. -/
theorem sums_written (c : Dev nD) (t : Fin cfg4.N) (hf : (cfg4.win 2).flush t = true) :
    (dat4 V c).flushed 2 t
      = ((cfg4.win 2).blk t).view.read (Elt Ideal) (Cert.Gcn.poolSums (V c main_call0_v41) (V c main_call0_v42)) := by
  have hN : cfg4.N = 20 := N_4
  have h19 : t.val + 1 = 20 := by have := (flush4_2 t).mp hf; have := t.isLt; omega
  show (cfg4.win 2).cut (grid4.coords t) ((dat4 V c).after 2 t) = _
  rw [after4_2]
  funext j
  obtain ⟨g, k, rfl⟩ : ∃ (g : Fin 128) (k : Fin 64), j = ix2 g k := ⟨j 0, j 1, eq_ix2 j⟩
  show (outsAt4 V c t.val t.isLt).1 (ix2 g k)
    = Cert.Gcn.poolSums (V c main_call0_v41) (V c main_call0_v42) (((cfg4.win 2).blk t).view.emb (ix2 g k))
  have place : ((cfg4.win 2).blk t).view.emb (ix2 g k) = ix2 g k := by
    funext a
    apply Fin.ext
    match a with
    | ⟨0, _⟩ =>
      show win4_2.index t (0 : Fin 2) * 128 + 1 * g.val = g.val
      rw [(window_steps t).2.2.2.2.1]; omega
    | ⟨1, _⟩ =>
      show win4_2.index t (1 : Fin 2) * 64 + 1 * k.val = k.val
      rw [(window_steps t).2.2.2.2.2.1]; omega
  rw [place, sums_running V c g k t.val t.isLt, h19, tiles_total]

/-- The last point of the grid. -/
abbrev lastPoint : Fin cfg4.N := ⟨19, by rw [show cfg4.N = 20 from N_4]; decide⟩

/-- The sums window's block, at any point, covers every entry of the sums array. -/
theorem mem_sums_block (t : Fin cfg4.N) (i : S128x64.Idx) : i ∈ ((cfg4.win 2).blk t).view.set := by
  show i ∈ ((View.whole main_call0_v43_0).slice (win4_2.rect t)).set
  rw [View.set_slice_whole, Rect.mem_set_unit]
  intro a
  have b0 : (i 0).val < 128 := (i 0).isLt
  have b1 : (i 1).val < 64 := (i 1).isLt
  match a with
  | ⟨0, _⟩ =>
    show win4_2.index t (0 : Fin 2) * 128 ≤ (i 0).val ∧ (i 0).val < win4_2.index t (0 : Fin 2) * 128 + 128
    rw [(window_steps t).2.2.2.2.1]; omega
  | ⟨1, _⟩ =>
    show win4_2.index t (1 : Fin 2) * 64 ≤ (i 1).val ∧ (i 1).val < win4_2.index t (1 : Fin 2) * 64 + 64
    rw [(window_steps t).2.2.2.2.2.1]; omega

/-! ## The counts row, the same way -/

/-- Tile s's part of the node count of graph g (nothing past the last tile). -/
def tileCount (B : IVec Cert.Gcn.SN1 32) (g : Fin 128) (s : ℕ) : EReal :=
  if hs : s < 20 then ∑ r : Fin 5000, Cert.Gcn.oneHot (B (ix2 (Cert.Gcn.node ⟨s, hs⟩ r) (0 : Fin 1))) g else 0

/-- What point t adds to the count of graph g, read off the graph-number column. -/
theorem count_step (c : Dev nD) (t : Fin cfg4.N) (g : Fin 128) :
    (∑ r : Fin 5000, Cert.Gcn.oneHot (graphBlk V c t (ix2 r (0 : Fin 1))) g) = tileCount (V c main_call0_v42) g t.val := by
  have ht : t.val < 20 := lt_of_lt_of_eq t.isLt (show cfg4.N = 20 from N_4)
  unfold tileCount
  rw [dif_pos ht]
  refine Finset.sum_congr rfl fun r _ => ?_
  rw [graphBlk_apply V c t ht r]

/-- The 20 tiles' parts add up to the whole count. -/
theorem counts_total (B : IVec Cert.Gcn.SN1 32) (g : Fin 128) :
    ∑ s ∈ Finset.range 20, tileCount B g s = Cert.Gcn.poolCounts B (ix2 (0 : Fin 1) g) := by
  rw [Cert.Gcn.poolCounts_apply, Finset.sum_range]
  refine Finset.sum_congr rfl fun t _ => ?_
  unfold tileCount
  rw [dif_pos t.isLt]

/-- At the first point the counts row holds tile 0's part. -/
theorem counts_at_first (c : Dev nD) (t : Fin cfg4.N) (h0 : t.val % 20 = 0) (g : Fin 128) :
    (outsAt4 V c t.val t.isLt).2 (ix2 (0 : Fin 1) g) = tileCount (V c main_call0_v42) g t.val := by
  rw [outsAt4_A V c t h0]
  dsimp only
  refine (congrFun (counts_first (F := Ideal) c (grid4.coords t) (ms4_0 t) (hs4_0 t) (ms4_1 t) (hs4_1 t) (ms4_2 t) (hs4_2 t)
    (ms4_3 t) (hs4_3 t) ((hcond4_0 t).mpr h0) (featBlk V c t) (graphBlk V c t)) (ix2 (0 : Fin 1) g)).trans ?_
  rw [counts_step_apply, zero_row_apply, zero_add, count_step]

/-- At a later point the counts row holds what the point before left plus this tile's part. -/
theorem counts_at_later (c : Dev nD) (t : Fin cfg4.N) (h0 : ¬t.val % 20 = 0) (g : Fin 128) :
    (outsAt4 V c t.val t.isLt).2 (ix2 (0 : Fin 1) g)
      = (outsAt4 V c (t.val - 1) (Nat.lt_of_le_of_lt (Nat.sub_le _ _) t.isLt)).2 (ix2 (0 : Fin 1) g)
        + tileCount (V c main_call0_v42) g t.val := by
  rw [outsAt4_B V c t h0]
  dsimp only
  refine (congrFun (counts_later (F := Ideal) c (grid4.coords t) (ms4_0 t) (hs4_0 t) (ms4_1 t) (hs4_1 t) (ms4_2 t) (hs4_2 t)
    (ms4_3 t) (hs4_3 t) (fun h => h0 ((hcond4_0 t).mp h)) (featBlk V c t) (graphBlk V c t)
    (outsAt4 V c (t.val - 1) (Nat.lt_of_le_of_lt (Nat.sub_le _ _) t.isLt)).1
    (outsAt4 V c (t.val - 1) (Nat.lt_of_le_of_lt (Nat.sub_le _ _) t.isLt)).2) (ix2 (0 : Fin 1) g)).trans ?_
  rw [counts_step_apply, count_step]

/-- After point n the counts row holds the parts of tiles 0 … n. -/
theorem counts_running (c : Dev nD) (g : Fin 128) : ∀ (n : ℕ) (hn : n < cfg4.N),
    (outsAt4 V c n hn).2 (ix2 (0 : Fin 1) g) = ∑ s ∈ Finset.range (n + 1), tileCount (V c main_call0_v42) g s
  | 0, hn => by
    rw [Finset.sum_range_one]
    exact counts_at_first V c ⟨0, hn⟩ rfl g
  | n + 1, hn => by
    have hN : cfg4.N = 20 := N_4
    have hB : ¬(⟨n + 1, hn⟩ : Fin cfg4.N).val % 20 = 0 := by dsimp only; omega
    rw [Finset.sum_range_succ, ← counts_running c g n (Nat.lt_of_succ_lt hn)]
    exact counts_at_later V c ⟨n + 1, hn⟩ hB g

/-- The one write-back of the counts window, after the last point, moves the whole counts row. -/
theorem counts_written (c : Dev nD) (t : Fin cfg4.N) (hf : (cfg4.win 3).flush t = true) :
    (dat4 V c).flushed 3 t = ((cfg4.win 3).blk t).view.read (Elt Ideal) (Cert.Gcn.poolCounts (V c main_call0_v42)) := by
  have hN : cfg4.N = 20 := N_4
  have h19 : t.val + 1 = 20 := by have := (flush4_3 t).mp hf; have := t.isLt; omega
  show (cfg4.win 3).cut (grid4.coords t) ((dat4 V c).after 3 t) = _
  rw [after4_3]
  funext j
  obtain ⟨u, g, rfl⟩ : ∃ (u : Fin 1) (g : Fin 128), j = ix2 u g := ⟨j 0, j 1, eq_ix2 j⟩
  obtain rfl : u = 0 := Subsingleton.elim _ _
  show (outsAt4 V c t.val t.isLt).2 (ix2 (0 : Fin 1) g)
    = Cert.Gcn.poolCounts (V c main_call0_v42) (((cfg4.win 3).blk t).view.emb (ix2 (0 : Fin 1) g))
  have place : ((cfg4.win 3).blk t).view.emb (ix2 (0 : Fin 1) g) = ix2 (0 : Fin 1) g := by
    funext a
    apply Fin.ext
    match a with
    | ⟨0, _⟩ =>
      show win4_3.index t (0 : Fin 2) * 1 + 1 * 0 = 0
      rw [(window_steps t).2.2.2.2.2.2.1]
    | ⟨1, _⟩ =>
      show win4_3.index t (1 : Fin 2) * 128 + 1 * g.val = g.val
      rw [(window_steps t).2.2.2.2.2.2.2]; omega
  rw [place, counts_running V c g t.val t.isLt, h19, counts_total]

/-- The counts window's block, at any point, covers every entry of the counts row. -/
theorem mem_counts_block (t : Fin cfg4.N) (i : S1x128.Idx) : i ∈ ((cfg4.win 3).blk t).view.set := by
  show i ∈ ((View.whole main_call0_v43_1).slice (win4_3.rect t)).set
  rw [View.set_slice_whole, Rect.mem_set_unit]
  intro a
  have b0 : (i 0).val < 1 := (i 0).isLt
  have b1 : (i 1).val < 128 := (i 1).isLt
  match a with
  | ⟨0, _⟩ =>
    show win4_3.index t (0 : Fin 2) * 1 ≤ (i 0).val ∧ (i 0).val < win4_3.index t (0 : Fin 2) * 1 + 1
    rw [(window_steps t).2.2.2.2.2.2.1]; omega
  | ⟨1, _⟩ =>
    show win4_3.index t (1 : Fin 2) * 128 ≤ (i 1).val ∧ (i 1).val < win4_3.index t (1 : Fin 2) * 128 + 128
    rw [(window_steps t).2.2.2.2.2.2.2]; omega

/-- After the fifth pallas_call the sums array holds the per-graph feature sums. -/
theorem final4_sums (c : Dev nD) :
    (dat4 V c).arrAt 2 cfg4.N = Cert.Gcn.poolSums (V c main_call0_v41) (V c main_call0_v42) :=
  (dat4 V c).arrAt_eq_of_cover 2 _ (sums_written V c) fun i =>
    ⟨lastPoint, (flush4_2 lastPoint).mpr rfl, mem_sums_block lastPoint i⟩

/-- After the fifth pallas_call the counts row holds the per-graph node counts. -/
theorem final4_counts (c : Dev nD) :
    (dat4 V c).arrAt 3 cfg4.N = Cert.Gcn.poolCounts (V c main_call0_v42) :=
  (dat4 V c).arrAt_eq_of_cover 3 _ (counts_written V c) fun i =>
    ⟨lastPoint, (flush4_3 lastPoint).mpr rfl, mem_counts_block lastPoint i⟩

end Cert.KernelIdeal.RegionValue

end
-- ==== Proof.HeadRegion.lean ====
/-
  The last kernel (the sixth pallas_call, one grid point): the per-graph sums divided by the larger of the count and 1,
  multiplied with the weight matrix, the bias row added, the negative part cut: `Gcn.headOut` of the four input arrays.

  The grid has a single point and every window is its whole array, so each index map is constantly zero, each input
  block is the array itself, and the one block written back covers the result array. What remains is the body's
  arithmetic at an entry (g, k): the count of graph g, made at least 1, is laid along row g; the row of sums is divided
  by it entry by entry; narrowing the quotient and the weights to a shorter float format changes nothing over the
  extended reals; the product into a zero accumulator is the sum over j of quotient(g, j) · weight(j, k); the bias row
  is laid along every row and added; the maximum with the zero word cuts the negative part.
-/
import proofs.«417988_j22883585753783_3_alg».proof.Proof.FrameKernelIdeal
import proofs.«417988_j22883585753783_3_alg».proof.Proof.Spec
import proofs.«417988_j22883585753783_3_alg».proof.Proof.LibRows
import proofs.«417988_j22883585753783_3_alg».proof.Proof.LibPlainAny
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

namespace Head

/-- A column laid along the rows: at (p, c) it reads the operand's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at (g, k): the sums of graph g divided by the larger of its count and 1, multiplied
    with column k of the weights, entry k of the bias added, the negative part cut. -/
theorem headPay_apply (cn : Vec Ideal S128x1 .f32) (s : Vec Ideal S128x64 .f32) (w : Vec Ideal S64x64 .f32) (b : Vec Ideal S1x64 .f32)
    (g : Fin 128) (k : Fin 64) :
    k5_pay1 (F := Ideal) cn s w b (ix2 g k)
      = max ((∑ j : Fin 64, Ideal.div (s (ix2 g j)) (max (cn (ix2 g (0 : Fin 1))) Cert.Gcn.oneWord) * w (ix2 j k))
          + b (ix2 (0 : Fin 1) k)) Cert.Gcn.zeroWord := by
  unfold k5_pay1
  rw [maximumf_apply, addf_apply]
  refine congrArg₂ max (congrArg₂ (· + ·) ?_ ?_) rfl
  · -- the product into the zero accumulator is the sum over the contracted coordinate; each factor entry by entry
    refine (Rows.matmul_plain_any _ _ g k).trans ?_
    refine Finset.sum_congr rfl fun j _ => ?_
    refine congrArg₂ (· * ·) (congrArg₂ Ideal.div ?_ ?_) rfl
    · exact congrFun (shapeCast_self s _) (ix2 g j)
    · refine (broadcastTo_a1_ab_apply _ _ g j).trans ?_
      refine congrArg₂ max ?_ rfl
      exact congrFun (shapeCast_self cn _) _
  · -- the bias row laid along every row
    refine (broadcastTo_1b_ab_apply _ _ g k).trans ?_
    exact congrFun (shapeCast_self b _) _

/-- So the body's arithmetic is the head function of its four operands. -/
theorem headPay_eq (cn : Vec Ideal S128x1 .f32) (s : Vec Ideal S128x64 .f32) (w : Vec Ideal S64x64 .f32) (b : Vec Ideal S1x64 .f32) :
    k5_pay1 (F := Ideal) cn s w b = Cert.Gcn.headOut s cn w b :=
  Rows.ext_ix2 fun g k => headPay_apply cn s w b g k

/-- The offsets (0, 0) are zero on both axes. -/
theorem zeroOffsets : (![0, 0] : Fin 2 → Nat) = fun _ => 0 := funext fun a => by fin_cases a <;> rfl

/-- On the one-point grid every index map is constantly zero. -/
theorem idx_zero : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

end Head

-- the TensorCore's buffer contents when the region is entered
variable (V : (c : Dev nD) → (b : Ref sig .tc) → Buf (Elt Ideal) ((c : Thread nD τ).loc b))

namespace Head

/-- The block of the sums' window is the whole array of sums: a block's coordinate is the block index times the
    block's extent plus the coordinate inside the block, and the block index is zero. -/
theorem sumsBlock_eq (c : Dev nD) (t : Fin cfg5.N) :
    (iblk5 V c 0 t : Vec Ideal S128x64 .f32) = V c main_call0_v43_0 := by
  obtain ⟨e0, e1, -⟩ := idx_zero t
  funext y
  unfold iblk5
  rw [View.read_apply]
  show V c main_call0_v43_0 _ = V c main_call0_v43_0 y
  refine congrArg _ (funext fun a => Fin.ext ?_)
  match a with
  | ⟨0, _⟩ => show win5_0.index t (0 : Fin 2) * 128 + 1 * (y 0).val = (y 0).val; rw [e0]; omega
  | ⟨1, _⟩ => show win5_0.index t (1 : Fin 2) * 64 + 1 * (y 1).val = (y 1).val; rw [e1]; omega

/-- The block of the counts' window is the whole column of counts. -/
theorem countsBlock_eq (c : Dev nD) (t : Fin cfg5.N) :
    (iblk5 V c 1 t : Vec Ideal S128x1 .f32) = V c main_call0_v44 := by
  obtain ⟨-, -, e0, e1, -⟩ := idx_zero t
  funext y
  unfold iblk5
  rw [View.read_apply]
  show V c main_call0_v44 _ = V c main_call0_v44 y
  refine congrArg _ (funext fun a => Fin.ext ?_)
  match a with
  | ⟨0, _⟩ => show win5_1.index t (0 : Fin 2) * 128 + 1 * (y 0).val = (y 0).val; rw [e0]; omega
  | ⟨1, _⟩ => show win5_1.index t (1 : Fin 2) * 1 + 1 * (y 1).val = (y 1).val; rw [e1]; omega

/-- The block of the weights' window is the whole weight matrix. -/
theorem weightsBlock_eq (c : Dev nD) (t : Fin cfg5.N) :
    (iblk5 V c 2 t : Vec Ideal S64x64 .f32) = V c main_arg7 := by
  obtain ⟨-, -, -, -, e0, e1, -⟩ := idx_zero t
  funext y
  unfold iblk5
  rw [View.read_apply]
  show V c main_arg7 _ = V c main_arg7 y
  refine congrArg _ (funext fun a => Fin.ext ?_)
  match a with
  | ⟨0, _⟩ => show win5_2.index t (0 : Fin 2) * 64 + 1 * (y 0).val = (y 0).val; rw [e0]; omega
  | ⟨1, _⟩ => show win5_2.index t (1 : Fin 2) * 64 + 1 * (y 1).val = (y 1).val; rw [e1]; omega

/-- The block of the bias' window is the whole bias row. -/
theorem biasBlock_eq (c : Dev nD) (t : Fin cfg5.N) :
    (iblk5 V c 3 t : Vec Ideal S1x64 .f32) = V c main_call0_v45 := by
  obtain ⟨-, -, -, -, -, -, e0, e1, -⟩ := idx_zero t
  funext y
  unfold iblk5
  rw [View.read_apply]
  show V c main_call0_v45 _ = V c main_call0_v45 y
  refine congrArg _ (funext fun a => Fin.ext ?_)
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-- The head function of the four arrays as the call finds them. -/
abbrev headOf (c : Dev nD) : Vec Ideal S128x64 .f32 :=
  Cert.Gcn.headOut (V c main_call0_v43_0) (V c main_call0_v44) (V c main_arg7) (V c main_call0_v45)

/-- What the body leaves in the result's staging buffer: its one store covers the buffer, its loads read the
    whole input blocks, so it is the head function of the four whole arrays. -/
theorem after_eq (c : Dev nD) (t : Fin cfg5.N) : (dat5 V c).after 4 t = headOf V c := by
  rw [after5_4]
  unfold out5_4
  rw [View.canon_unit_zero zeroOffsets]
  simp only [View.ld_unit_zero (S := S128x64) zeroOffsets, View.ld_unit_zero (S := S128x1) zeroOffsets,
    View.ld_unit_zero (S := S64x64) zeroOffsets, View.ld_unit_zero (S := S1x64) zeroOffsets]
  refine (headPay_eq (iblk5 V c 1 t) (iblk5 V c 0 t) (iblk5 V c 2 t) (iblk5 V c 3 t)).trans ?_
  exact congr (congr (congr (congrArg Cert.Gcn.headOut (sumsBlock_eq V c t)) (countsBlock_eq V c t)) (weightsBlock_eq V c t)) (biasBlock_eq V c t)

/-- What the one grid point writes back is the head function's array read through the result's block. -/
theorem flushed_eq (c : Dev nD) (t : Fin cfg5.N) :
    (dat5 V c).flushed 4 t = ((cfg5.win 4).blk t).view.read (Elt Ideal) (headOf V c) := by
  show (cfg5.win 4).cut (grid5.coords t) ((dat5 V c).after 4 t) = _
  rw [after_eq]
  obtain ⟨-, -, -, -, -, -, -, -, e0, e1⟩ := idx_zero t
  funext j
  show headOf V c ((cfg5.win 4).xinj (grid5.coords t) j) = headOf V c (((cfg5.win 4).blk t).view.emb j)
  refine congrArg _ (funext fun a => Fin.ext ?_)
  match a with
  | ⟨0, _⟩ => show (j 0).val = win5_4.index t (0 : Fin 2) * 128 + 1 * (j 0).val; rw [e0]; omega
  | ⟨1, _⟩ => show (j 1).val = win5_4.index t (1 : Fin 2) * 64 + 1 * (j 1).val; rw [e1]; omega

/-- An index of the result array is in the point's block iff each coordinate is in the block's range on its axis. -/
theorem mem_blk (t : Fin cfg5.N) (i : S128x64.Idx) :
    i ∈ ((cfg5.win 4).blk t).view.set ↔ ∀ a : Fin 2, win5_4.index t a * S128x64.size a ≤ (i a).val ∧ (i a).val < win5_4.index t a * S128x64.size a + S128x64.size a := by
  show i ∈ ((View.whole main_v0).slice (win5_4.rect t)).set ↔ _
  rw [View.set_slice_whole, Rect.mem_set_unit]
  exact Iff.rfl

end Head

open Head in
/-- After the sixth pallas_call its result array holds `Gcn.headOut` of its four input arrays. -/
theorem final5 (c : Dev nD) :
    (dat5 V c).arrAt 4 cfg5.N
      = Cert.Gcn.headOut (V c main_call0_v43_0) (V c main_call0_v44) (V c main_arg7) (V c main_call0_v45) := by
  -- the one point's block, at block index (0, 0) and of the array's own extents, holds every index of the array
  refine (dat5 V c).arrAt_eq_of_cover 4 (headOf V c) (fun t _ => flushed_eq V c t) fun i => ?_
  refine ⟨t5_0, flush5_4 t5_0, ?_⟩
  obtain ⟨-, -, -, -, -, -, -, -, e0, e1⟩ := idx_zero t5_0
  rw [mem_blk]
  intro a
  have h0 : (i 0).val < 128 := (i 0).isLt
  have h1 : (i 1).val < 64 := (i 1).isLt
  match a with
  | ⟨0, _⟩ => show win5_4.index t5_0 (0 : Fin 2) * 128 ≤ (i 0).val ∧ (i 0).val < win5_4.index t5_0 (0 : Fin 2) * 128 + 128; rw [e0]; omega
  | ⟨1, _⟩ => show win5_4.index t5_0 (1 : Fin 2) * 64 ≤ (i 1).val ∧ (i 1).val < win5_4.index t5_0 (1 : Fin 2) * 64 + 64; rw [e1]; omega

end Cert.KernelIdeal.RegionValue

end
-- ==== Proof.ChainTail.lean ====
/-
  The last two pallas_calls with the host operations around them, read off the buffer contents at the region
  boundaries: the result buffer after the last pallas_call holds the pooling-and-head function of the second layer's
  result (the fourth pallas_call's output array) and of the arguments.

  Read backwards from the end: the result array of the sixth pallas_call is the head function of its four input arrays
  as that call finds them; of these the sums array is the fifth call's first result, untouched since; the counts column
  is the fifth call's second result transposed; the weight is an argument; the bias row is an argument reshaped. The fifth
  call's two results are the pooled sums and counts of the fourth call's result (untouched by the reshape in between) and
  of the graph numbers reshaped to a column. An argument is never written, so wherever it is read it is the launch contents.
-/
import proofs.«417988_j22883585753783_3_alg».proof.Proof.FrameKernelIdeal
import proofs.«417988_j22883585753783_3_alg».proof.Proof.Layers
import proofs.«417988_j22883585753783_3_alg».proof.Proof.PoolRegion
import proofs.«417988_j22883585753783_3_alg».proof.Proof.HeadRegion

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg) (c : Dev nD)

namespace Tail

/-- The graph-number argument is still the launch contents after the fourth pallas_call: nothing from there to the end
    writes it, and at the end it is as launched. -/
theorem arg2_at8 : W8 m ρ c (Proc.devRef .tc main_arg2) = m ((c : Thread nD τ).loc main_arg2) :=
  have down : W12 m ρ c (Proc.devRef .tc main_arg2) = W8 m ρ c (Proc.devRef .tc main_arg2) :=
    calc W12 m ρ c (Proc.devRef .tc main_arg2)
      _ = W11 m ρ c (Proc.devRef .tc main_arg2) := W12_of_ne m ρ c main_arg2 (by decide)
      _ = W10 m ρ c (Proc.devRef .tc main_arg2) := StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W9 m ρ c (Proc.devRef .tc main_arg2) := W10_of_ne m ρ c main_arg2 (by decide)
      _ = W8 m ρ c (Proc.devRef .tc main_arg2) := StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  down.symm.trans (W12_main_arg2 m ρ c)

/-- The last bias argument is still the launch contents after the fifth pallas_call. -/
theorem arg8_at10 : W10 m ρ c (Proc.devRef .tc main_arg8) = m ((c : Thread nD τ).loc main_arg8) :=
  have down : W12 m ρ c (Proc.devRef .tc main_arg8) = W10 m ρ c (Proc.devRef .tc main_arg8) :=
    calc W12 m ρ c (Proc.devRef .tc main_arg8)
      _ = W11 m ρ c (Proc.devRef .tc main_arg8) := W12_of_ne m ρ c main_arg8 (by decide)
      _ = W10 m ρ c (Proc.devRef .tc main_arg8) := StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  down.symm.trans (W12_main_arg8 m ρ c)

/-- The last weight argument, an input array of the sixth pallas_call, is the launch contents when that call is entered. -/
theorem arg7_at11 : W11 m ρ c (Proc.devRef .tc main_arg7) = m ((c : Thread nD τ).loc main_arg7) :=
  have down : W12 m ρ c (Proc.devRef .tc main_arg7) = W11 m ρ c (Proc.devRef .tc main_arg7) :=
    (W12_arr m ρ c 2).trans (((dat5 (V11 m ρ) c).arrAt_in 2 rfl _).trans (A_eq5 (V11 m ρ) c 2))
  down.symm.trans (W12_main_arg7 m ρ c)

/-- A cast along an equation of a type with itself changes nothing. -/
theorem cast_same {A : Type} (h : A = A) (x : A) : cast h x = x := rfl

/-- Entering the fifth pallas_call, the graph-number column is the launched graph numbers reshaped to a column. -/
theorem v42_at9 : W9 m ρ c (Proc.devRef .tc main_call0_v42)
    = shapeCast S100000x1 (m ((c : Thread nD τ).loc main_arg2) : IVec S100000 32) shapeCasts_S100000_S100000x1 := by
  show StableHlo.after hostOps4 (W8 m ρ c) (Proc.devRef .tc main_call0_v42) = _
  after_results
  simp only [StableHlo.TRef.toBuf, StableHlo.TRef.ofBuf]
  repeat erw [cast_same]
  exact congrArg (fun x : IVec S100000 32 => shapeCast S100000x1 x shapeCasts_S100000_S100000x1) (arg2_at8 m ρ c)

/-- The reshape before the fifth pallas_call leaves the fourth call's result as it was. -/
theorem v41_at9 : W9 m ρ c (Proc.devRef .tc main_call0_v41) = W8 m ρ c (Proc.devRef .tc main_call0_v41) :=
  StableHlo.after_of_forall_not_mem (b := Proc.devRef .tc main_call0_v41) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- After the fifth pallas_call the sums array holds the per-graph feature sums of the fourth call's result. -/
theorem sums_at10 : W10 m ρ c (Proc.devRef .tc main_call0_v43_0)
    = Cert.Gcn.poolSums (W8 m ρ c (Proc.devRef .tc main_call0_v41))
        (shapeCast S100000x1 (m ((c : Thread nD τ).loc main_arg2) : IVec S100000 32) shapeCasts_S100000_S100000x1) := by
  refine ((W10_arr m ρ c 2).trans (Cert.KernelIdeal.RegionValue.final4_sums (V9 m ρ) c)).trans ?_
  show Cert.Gcn.poolSums (W9 m ρ c (Proc.devRef .tc main_call0_v41)) (W9 m ρ c (Proc.devRef .tc main_call0_v42)) = _
  rw [v41_at9, v42_at9]

/-- After the fifth pallas_call the counts row holds the per-graph node counts. -/
theorem counts_at10 : W10 m ρ c (Proc.devRef .tc main_call0_v43_1)
    = Cert.Gcn.poolCounts (shapeCast S100000x1 (m ((c : Thread nD τ).loc main_arg2) : IVec S100000 32) shapeCasts_S100000_S100000x1) := by
  refine ((W10_arr m ρ c 3).trans (Cert.KernelIdeal.RegionValue.final4_counts (V9 m ρ) c)).trans ?_
  show Cert.Gcn.poolCounts (W9 m ρ c (Proc.devRef .tc main_call0_v42)) = _
  rw [v42_at9]

/-- The two host operations before the sixth pallas_call leave the sums array as it was. -/
theorem sums_at11 : W11 m ρ c (Proc.devRef .tc main_call0_v43_0) = W10 m ρ c (Proc.devRef .tc main_call0_v43_0) :=
  StableHlo.after_of_forall_not_mem (b := Proc.devRef .tc main_call0_v43_0) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Entering the sixth pallas_call, the counts column is the counts row transposed. -/
theorem v44_at11 : W11 m ρ c (Proc.devRef .tc main_call0_v44)
    = transpose S128x1 [1, 0]
        (Cert.Gcn.poolCounts (shapeCast S100000x1 (m ((c : Thread nD τ).loc main_arg2) : IVec S100000 32) shapeCasts_S100000_S100000x1))
        transposes_S1x128_S128x1_1_0 := by
  show StableHlo.after hostOps5 (W10 m ρ c) (Proc.devRef .tc main_call0_v44) = _
  after_results
  simp only [StableHlo.TRef.toBuf, StableHlo.TRef.ofBuf]
  repeat erw [cast_same]
  exact congrArg (fun x : FVec Ideal S1x128 .f32 => transpose S128x1 [1, 0] x transposes_S1x128_S128x1_1_0) (counts_at10 m ρ c)

/-- Entering the sixth pallas_call, the bias row is the launched last bias reshaped to a row. -/
theorem v45_at11 : W11 m ρ c (Proc.devRef .tc main_call0_v45)
    = shapeCast S1x64 (m ((c : Thread nD τ).loc main_arg8) : FVec Ideal S64 .f32) shapeCasts_S64_S1x64 := by
  show StableHlo.after hostOps5 (W10 m ρ c) (Proc.devRef .tc main_call0_v45) = _
  after_results
  simp only [StableHlo.TRef.toBuf, StableHlo.TRef.ofBuf]
  repeat erw [cast_same]
  exact congrArg (fun x : FVec Ideal S64 .f32 => shapeCast S1x64 x shapeCasts_S64_S1x64) (arg8_at10 m ρ c)

end Tail

open Tail in
/-- The result buffer holds the tail of the second layer's result. -/
theorem tail_value :
    W12 m ρ c (Proc.devRef .tc main_v0)
      = Cert.Gcn.Ker.tail (W8 m ρ c (Proc.devRef .tc main_call0_v41)) (m ((c : Thread nD τ).loc main_arg2)) (m ((c : Thread nD τ).loc main_arg7)) (m ((c : Thread nD τ).loc main_arg8)) := by
  refine ((W12_arr m ρ c 4).trans (Cert.KernelIdeal.RegionValue.final5 (V11 m ρ) c)).trans ?_
  show Cert.Gcn.headOut (W11 m ρ c (Proc.devRef .tc main_call0_v43_0)) (W11 m ρ c (Proc.devRef .tc main_call0_v44))
      (W11 m ρ c (Proc.devRef .tc main_arg7)) (W11 m ρ c (Proc.devRef .tc main_call0_v45)) = _
  rw [sums_at11, sums_at10, v44_at11, arg7_at11, v45_at11]
  unfold Cert.Gcn.Ker.tail
  rfl

end Cert.KernelIdeal.Chain

end
-- ==== Proof.KernelChain.lean ====
/-
  The kernel's result as one function of the arguments: the result buffer after the run holds the pooling-and-head
  function of the second convolution layer of the first convolution layer of the arguments — `Gcn.Ker.out`.
-/
import proofs.«417988_j22883585753783_3_alg».proof.Proof.ChainLayers
import proofs.«417988_j22883585753783_3_alg».proof.Proof.ChainLayer2
import proofs.«417988_j22883585753783_3_alg».proof.Proof.ChainTail

set_option maxRecDepth 16384

noncomputable section

namespace Cert.KernelIdeal.Chain

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg) (c : Dev nD)

/-- The result buffer at the last boundary holds the kernel's function of the arguments. -/
theorem result_eq :
    W12 m ρ c (Proc.devRef .tc main_v0)
      = Cert.Gcn.Ker.out (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  rw [tail_value, Cert.KernelIdeal.Chain2.layer2_value, layer1_value]
  rfl

end Cert.KernelIdeal.Chain

end
-- ==== Proof.LibGather.lean ====
/-
  Reading a row gather at an element.

  jnp's `table[idx]` over a two-axis table of N rows prints as a gather whose start indices are an (n, 1) column of
  row numbers: the table's first axis is collapsed and start-indexed, its second axis is the one offset axis of the
  result, and the index vector lies along axis 1 of the column.  Result element (p, k) is then the table's element
  (r, k), where r is the p-th start index read as a signed integer and clamped into [0, N - 1].
-/
import Idealize.ShloMosaic.PureOps.ShapeOps
import Idealize.ShloMosaic.Lib.ValueIdx

namespace Idealize.ShloMosaic.RowGather

open Idealize.ShloMosaic Idealize.ShloMosaic.ValueIdx

/-- A list known to be one element long, read at any position, gives that element. -/
theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

/-- On the table's row axis the operand index is the clamped start index. -/
theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

/-- On the table's column axis the operand index is the result's column. -/
theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

/-- Element (p, k) of a row gather is the table's element (r, k), r the p-th start index read signed and clamped into the
    table. -/
theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.LibSumDiv.lean ====
/-
  A sum of products, each second factor divided by one positive extended real, is the sum of the products divided by
  it. On the extended reals multiplication does not distribute over addition in general; it does when the common factor
  is a non-negative number other than +∞, and the inverse of a positive extended real is such a number (the inverse of
  +∞ is 0). No finiteness of the summands is needed.

  `Ideal.div` is the ideal instance's quotient: for a divisor other than 0 it is the product with the inverse.
-/
import Idealize.ShloMosaic.PureOps.Ideal
import Mathlib.Data.EReal.Inv

noncomputable section

namespace Cert.SumDiv

open Idealize.ShloMosaic

/-- A common non-negative factor other than +∞ comes out of a finite sum of extended reals. -/
theorem sum_mul_const {ι : Type} (s : Finset ι) (a : ι → EReal) {k : EReal} (hk : 0 ≤ k) (hk' : k ≠ ⊤) :
    ∑ f ∈ s, a f * k = (∑ f ∈ s, a f) * k := by
  classical
  induction s using Finset.induction_on with
  | empty => simp
  | insert i s hi ih =>
    rw [Finset.sum_insert hi, Finset.sum_insert hi, ih, EReal.right_distrib_of_nonneg_of_ne_top hk hk']

/-- The ideal quotient by a positive extended real is the product with its inverse. -/
theorem div_of_pos {D : EReal} (hD : 0 < D) (x : EReal) : Ideal.div x D = x * D⁻¹ := by
  unfold Ideal.div; rw [if_neg hD.ne']

/-- Dividing each second factor, or the whole sum, by a positive extended real is the same. -/
theorem sum_mul_div {ι : Type} [Fintype ι] (x y : ι → EReal) {D : EReal} (hD : 0 < D) :
    ∑ f, x f * Ideal.div (y f) D = Ideal.div (∑ f, x f * y f) D := by
  rw [div_of_pos hD]
  simp only [div_of_pos hD, ← mul_assoc]
  exact sum_mul_const _ _ (EReal.inv_nonneg_of_nonneg hD.le) (EReal.inv_lt_top D).ne

/-- The same with the divided factor first and the products of the undivided sum commuted. -/
theorem sum_div_mul {ι : Type} [Fintype ι] (x y : ι → EReal) {D : EReal} (hD : 0 < D) :
    ∑ f, x f * Ideal.div (y f) D = Ideal.div (∑ f, y f * x f) D := by
  rw [sum_mul_div x y hD]
  simp only [mul_comm]

/-- The larger of anything and a positive extended real is positive. -/
theorem max_pos_right (a : EReal) {e : EReal} (he : 0 < e) : 0 < max a e := lt_max_of_lt_right he

end Cert.SumDiv

end
-- ==== Proof.LibSegmentSum.lean ====
/-
  A sum of rows grouped by a list of row numbers (jax.ops.segment_sum; jnp's `x.at[idx].add(u)` with one index per
  update row), read at an element.

  The scatter-add prints as `Host.scatterAdd d x idx upd` with the scatter indices an (n, 1) column. At the ideal values
  element (r, k) of the result is x(r, k) plus the sum of upd(e, k) over the update rows e whose index, read as a SIGNED
  integer and not clamped, is r: an update whose index is negative or past the last row contributes nothing.
  The one-axis form (updates a list of n values, the operand a list of N values) reads the same way.
-/
import Idealize.ShloMosaic.PureOps.Ideal
import Idealize.ShloMosaic.PureOps.Contract
import Idealize.ShloMosaic.Lib.ValueIdx

noncomputable section

namespace Idealize.ShloMosaic.SegmentSum

open Idealize.ShloMosaic Idealize.ShloMosaic.ValueIdx

/-- A list with exactly one entry has that entry at every position it can be read at. -/
private theorem getElem_eq_of_singleton {β : Type} {l : List β} {b : β} (h : l = [b]) {i : Nat} (hi : i < l.length) : l[i] = b := by
  subst h
  match i, hi with
  | 0, _ => rfl
  | i + 1, hi => exact absurd hi (by simp)

/-! ## Rows: where an update element lands

  With the operand's row axis both inserted and start-indexed, the updates' column axis their one window axis, and the
  index vector along the column of scatter indices, update element (e, k') starts at row idx(e), column 0, and its window
  coordinate is (0, k'): it lands at (idx(e), k') when idx(e), read signed, is a row of the operand, and nowhere
  otherwise. -/

section rowsAux
variable {N n C w : Nat} (d : ScatterDims ⟨2, ![N, C]⟩ ⟨2, ![n, 1]⟩ ⟨2, ![n, C]⟩)
    (idx : IVec ⟨2, ![n, 1]⟩ w) (e : Fin n) (k' : Fin C)

/-- The operand's axes that are not inserted: the column axis alone. -/
theorem sKept_rows (hiw : d.insertedWindowDims = [0]) : d.sKept = [(1 : Fin 2)] := by
  show Shape.kept _ d.insertedWindowDims = [(1 : Fin 2)]
  rw [hiw]; rfl

/-- The updates' scatter axes: the row axis alone. -/
theorem uScatter_rows (huw : d.updateWindowDims = [1]) : d.uScatter = [(0 : Fin 2)] := by
  show Shape.kept _ d.updateWindowDims = [(0 : Fin 2)]
  rw [huw]; rfl

/-- On the row axis the window of update element (e, k') starts at the e-th scatter index, read signed. -/
theorem start_row (huw : d.updateWindowDims = [1]) (hsd : d.scatterDimsToOperandDims = [0]) (hivd : d.indexVectorDim = 1) :
    d.start (ix2 e k') idx (0 : Fin 2) = (idx (ix2 e (0 : Fin 1))).toInt := by
  have hm : (0 : Fin 2) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix2 e k') (d.uScatter[_]'_)).val = e.val
    rw [getElem_eq_of_singleton (uScatter_rows d huw)]
  | ⟨1, _⟩ =>
    unfold ScatterDims.siIdx
    rw [dif_pos (by rw [hivd])]
    apply Fin.ext
    show List.idxOf (0 : Fin 2) d.scatterDimsToOperandDims = 0
    rw [hsd]; simp

/-- On the column axis the window starts at 0: no scatter index addresses it. -/
theorem start_col (hsd : d.scatterDimsToOperandDims = [0]) : d.start (ix2 e k') idx (1 : Fin 2) = 0 := by
  have hm : (1 : Fin 2) ∉ d.scatterDimsToOperandDims := by rw [hsd]; simp
  unfold ScatterDims.start
  rw [dif_neg hm]

/-- The row axis is inserted: its window coordinate is 0. -/
theorem window_row (hiw : d.insertedWindowDims = [0]) : d.window (ix2 e k') (0 : Fin 2) = 0 := by
  have hk : (0 : Fin 2) ∉ d.sKept := by rw [sKept_rows d hiw]; simp
  unfold ScatterDims.window
  rw [dif_neg hk]

/-- The column axis carries the updates' window axis: its window coordinate is the update's column. -/
theorem window_col (huw : d.updateWindowDims = [1]) (hiw : d.insertedWindowDims = [0]) : d.window (ix2 e k') (1 : Fin 2) = k'.val := by
  have hk : (1 : Fin 2) ∈ d.sKept := by rw [sKept_rows d hiw]; exact List.mem_singleton.mpr rfl
  unfold ScatterDims.window
  rw [dif_pos hk, getElem_eq_of_singleton huw]
  rfl

/-- Update element (e, k') lands at (r, k) exactly when the e-th scatter index, read signed, is r and k' = k: the bounds
    on both axes then hold because r and k are positions in the operand. -/
theorem resultIdx_rows_iff (huw : d.updateWindowDims = [1]) (hiw : d.insertedWindowDims = [0])
    (hsd : d.scatterDimsToOperandDims = [0]) (hivd : d.indexVectorDim = 1) (r : Fin N) (k : Fin C) :
    d.resultIdx? (ix2 e k') idx = some (ix2 r k) ↔ (idx (ix2 e (0 : Fin 1))).toInt = (r.val : ℤ) ∧ k' = k := by
  have h0 := start_row d idx e k' huw hsd hivd
  have h1 := start_col d idx e k' hsd
  have w0 := window_row d e k' hiw
  have w1 := window_col d e k' huw hiw
  unfold ScatterDims.resultIdx?
  split
  · rename_i h
    rw [Option.some.injEq]
    constructor
    · intro hf
      have a0 : (d.start (ix2 e k') idx (0 : Fin 2) + (d.window (ix2 e k') (0 : Fin 2) : ℤ)).toNat = r.val :=
        congrArg (fun f => (f (0 : Fin 2)).val) hf
      have a1 : (d.start (ix2 e k') idx (1 : Fin 2) + (d.window (ix2 e k') (1 : Fin 2) : ℤ)).toNat = k.val :=
        congrArg (fun f => (f (1 : Fin 2)).val) hf
      have b0 := (h (0 : Fin 2)).1
      rw [h0, w0] at a0 b0
      rw [h1, w1] at a1
      refine ⟨by omega, Fin.ext (by omega)⟩
    · rintro ⟨hr, rfl⟩
      funext a
      match a with
      | ⟨0, _⟩ =>
        apply Fin.ext
        show (d.start (ix2 e k') idx (0 : Fin 2) + (d.window (ix2 e k') (0 : Fin 2) : ℤ)).toNat = r.val
        rw [h0, w0, hr]; omega
      | ⟨1, _⟩ =>
        apply Fin.ext
        show (d.start (ix2 e k') idx (1 : Fin 2) + (d.window (ix2 e k') (1 : Fin 2) : ℤ)).toNat = k'.val
        rw [h1, w1]; omega
  · rename_i h
    constructor
    · intro hf; exact absurd hf (by simp)
    · rintro ⟨hr, rfl⟩
      refine absurd (fun a => ?_) h
      match a with
      | ⟨0, _⟩ =>
        show 0 ≤ d.start (ix2 e k') idx (0 : Fin 2) + (d.window (ix2 e k') (0 : Fin 2) : ℤ) ∧
          d.start (ix2 e k') idx (0 : Fin 2) + (d.window (ix2 e k') (0 : Fin 2) : ℤ) < ((N : ℕ) : ℤ)
        rw [h0, w0, hr]; have := r.isLt; omega
      | ⟨1, _⟩ =>
        show 0 ≤ d.start (ix2 e k') idx (1 : Fin 2) + (d.window (ix2 e k') (1 : Fin 2) : ℤ) ∧
          d.start (ix2 e k') idx (1 : Fin 2) + (d.window (ix2 e k') (1 : Fin 2) : ℤ) < ((C : ℕ) : ℤ)
        rw [h1, w1]; have := k'.isLt; omega

end rowsAux

section rows
variable {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w)
include huw hiw hsd hivd

/-- Element (r, k) of a scatter-add of rows: the operand's element plus the update rows whose index is r, at column k. -/
theorem scatterAdd_rows {φ : FTy} (x : FVec Ideal ⟨2, ![N, C]⟩ φ) (upd : FVec Ideal ⟨2, ![n, C]⟩ φ) (r : Fin N) (k : Fin C) :
    Host.scatterAdd d x idx upd (ix2 r k)
      = x (ix2 r k) + ∑ e : Fin n, if (idx (ix2 e (0 : Fin 1))).toInt = (r.val : ℤ) then upd (ix2 e k) else 0 := by
  have hlands := fun (e : Fin n) (b : Fin C) => resultIdx_rows_iff d idx e b huw hiw hsd hivd r k
  unfold Host.scatterAdd
  rw [Ideal.hostScatterAdd_def]
  unfold Ideal.hostScatterAdd
  congr 1
  rw [Finset.sum_filter, sum_idx2]
  refine Finset.sum_congr rfl fun e _ => ?_
  by_cases hr : (idx (ix2 e (0 : Fin 1))).toInt = (r.val : ℤ)
  · rw [if_pos hr, Finset.sum_eq_single k]
    · rw [if_pos ((hlands e k).2 ⟨hr, rfl⟩)]
    · intro b _ hb
      rw [if_neg fun h => hb ((hlands e b).1 h).2]
    · intro hk; exact absurd (Finset.mem_univ k) hk
  · rw [if_neg hr]
    refine Finset.sum_eq_zero fun b _ => ?_
    rw [if_neg fun h => hr ((hlands e b).1 h).1]

end rows

/-! ## Values: where an update lands

  The one-axis form: the operand's only axis is inserted and start-indexed and the updates have no window axis, so
  update e starts at position idx(e) with window coordinate 0, and lands there when idx(e), read signed, is a position of
  the operand. -/

/-- A sum over the positions of a list of n values is the sum over their coordinates. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

section valsAux
variable {N n w : Nat} (d : ScatterDims ⟨1, ![N]⟩ ⟨2, ![n, 1]⟩ ⟨1, ![n]⟩) (idx : IVec ⟨2, ![n, 1]⟩ w) (e : Fin n)

/-- The operand's only axis is inserted: none is kept. -/
theorem sKept_vals (hiw : d.insertedWindowDims = [0]) : d.sKept = [] := by
  show Shape.kept _ d.insertedWindowDims = []
  rw [hiw]; rfl

/-- The updates' only axis is a scatter axis. -/
theorem uScatter_vals (huw : d.updateWindowDims = []) : d.uScatter = [(0 : Fin 1)] := by
  show Shape.kept _ d.updateWindowDims = [(0 : Fin 1)]
  rw [huw]; rfl

/-- The window of update e starts at the e-th scatter index, read signed. -/
theorem start_val (huw : d.updateWindowDims = []) (hsd : d.scatterDimsToOperandDims = [0]) (hivd : d.indexVectorDim = 1) :
    d.start (ix1 e) idx (0 : Fin 1) = (idx (ix2 e (0 : Fin 1))).toInt := by
  have hm : (0 : Fin 1) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_vals d huw)]
  | ⟨1, _⟩ =>
    unfold ScatterDims.siIdx
    rw [dif_pos (by rw [hivd])]
    apply Fin.ext
    show List.idxOf (0 : Fin 1) d.scatterDimsToOperandDims = 0
    rw [hsd]; simp

/-- The operand's axis is inserted: the window coordinate is 0. -/
theorem window_val (hiw : d.insertedWindowDims = [0]) : d.window (ix1 e) (0 : Fin 1) = 0 := by
  have hk : (0 : Fin 1) ∉ d.sKept := by rw [sKept_vals d hiw]; exact List.not_mem_nil
  unfold ScatterDims.window
  rw [dif_neg hk]

/-- Update e lands at position r exactly when the e-th scatter index, read signed, is r. -/
theorem resultIdx_vals_iff (huw : d.updateWindowDims = []) (hiw : d.insertedWindowDims = [0])
    (hsd : d.scatterDimsToOperandDims = [0]) (hivd : d.indexVectorDim = 1) (r : Fin N) :
    d.resultIdx? (ix1 e) idx = some (ix1 r) ↔ (idx (ix2 e (0 : Fin 1))).toInt = (r.val : ℤ) := by
  have h0 := start_val d idx e huw hsd hivd
  have w0 := window_val d e hiw
  unfold ScatterDims.resultIdx?
  split
  · rename_i h
    rw [Option.some.injEq]
    constructor
    · intro hf
      have a0 : (d.start (ix1 e) idx (0 : Fin 1) + (d.window (ix1 e) (0 : Fin 1) : ℤ)).toNat = r.val :=
        congrArg (fun f => (f (0 : Fin 1)).val) hf
      have b0 := (h (0 : Fin 1)).1
      rw [h0, w0] at a0 b0
      omega
    · intro hr
      funext a
      match a with
      | ⟨0, _⟩ =>
        apply Fin.ext
        show (d.start (ix1 e) idx (0 : Fin 1) + (d.window (ix1 e) (0 : Fin 1) : ℤ)).toNat = r.val
        rw [h0, w0, hr]; omega
  · rename_i h
    constructor
    · intro hf; exact absurd hf (by simp)
    · intro hr
      refine absurd (fun a => ?_) h
      match a with
      | ⟨0, _⟩ =>
        show 0 ≤ d.start (ix1 e) idx (0 : Fin 1) + (d.window (ix1 e) (0 : Fin 1) : ℤ) ∧
          d.start (ix1 e) idx (0 : Fin 1) + (d.window (ix1 e) (0 : Fin 1) : ℤ) < ((N : ℕ) : ℤ)
        rw [h0, w0, hr]; have := r.isLt; omega

end valsAux

section vals
variable {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w)
include huw hiw hsd hivd

/-- Entry r of a scatter-add of values: the operand's entry plus the updates whose index is r. -/
theorem scatterAdd_vals {φ : FTy} (x : FVec Ideal ⟨1, ![N]⟩ φ) (upd : FVec Ideal ⟨1, ![n]⟩ φ) (r : Fin N) :
    Host.scatterAdd d x idx upd (ix1 r)
      = x (ix1 r) + ∑ e : Fin n, if (idx (ix2 e (0 : Fin 1))).toInt = (r.val : ℤ) then upd (ix1 e) else 0 := by
  have hlands := fun (e : Fin n) => resultIdx_vals_iff d idx e huw hiw hsd hivd r
  unfold Host.scatterAdd
  rw [Ideal.hostScatterAdd_def]
  unfold Ideal.hostScatterAdd
  congr 1
  rw [Finset.sum_filter, sum_idx1]
  exact Finset.sum_congr rfl fun e _ => if_congr (hlands e) rfl rfl

end vals

end Idealize.ShloMosaic.SegmentSum

end
-- ==== Proof.LibGatherVals.lean ====
/-
  Reading a gather of values at an entry.

  jnp's `v[idx]` over a one-axis list of N values prints as a gather whose start indices are an (n, 1) column of
  positions: the list's one axis is collapsed and start-indexed, the result has no offset axis, and the index vector lies
  along axis 1 of the column. Result entry p is the list's entry r, where r is the p-th start index read as a signed
  integer and clamped into [0, N − 1].

  The operand index of a gather is, on each operand axis, a clamped start plus a batching coordinate plus an offset
  coordinate. Here the operand has one axis; it is collapsed (so its offset coordinate is 0 and its slice is one entry
  long), it is no batching axis (so its batching coordinate is 0), and it is the axis the start index map names. What is
  left is the start: the start index's only component, which sits in the column at row p, clamped into [0, N − 1].
  Both the result and the operand have a single axis, so any axis of either is axis 0; no list of axes has to be computed.
-/
import Idealize.ShloMosaic.PureOps.ShapeOps
import Idealize.ShloMosaic.Lib.ValueIdx

namespace Idealize.ShloMosaic.ValGather

open Idealize.ShloMosaic Idealize.ShloMosaic.ValueIdx

section
variable {N n w : Nat} (d : GatherDims ⟨1, ![N]⟩ ⟨2, ![n, 1]⟩ ⟨1, ![n]⟩)

/-- Where result entry p finds its start index: in the column at row p. On the column's row axis the coordinate is
    the result's coordinate on some batch axis, and the result has only axis 0; on the index vector's axis it is the
    component's number, and a start index here has one component only. -/
theorem siIdx_entry (hsim : d.startIndexMap = [0]) (hivd : d.indexVectorDim = 1) (p : Fin n)
    (c : Fin d.startIndexMap.length) : d.siIdx (ix1 p) c = ix2 p (0 : Fin 1) := by
  funext b
  apply Fin.ext
  match b with
  | ⟨0, _⟩ =>
    unfold GatherDims.siIdx
    rw [dif_neg (by rw [hivd]; exact Nat.zero_ne_one)]
    unfold GatherDims.siCoord
    simp only [Fin.val_cast]
    rw [Subsingleton.elim (d.batchDims[List.idxOf (⟨0, by decide⟩ : Fin 2) d.siKept]'_) (0 : Fin 1)]
  | ⟨1, _⟩ =>
    unfold GatherDims.siIdx
    rw [dif_pos (by rw [hivd])]
    have hlen : d.startIndexMap.length = 1 := by rw [hsim]; rfl
    have hc := c.isLt
    show c.val = 0
    omega

/-- The operand index of result entry p, on the list's one axis: the start index in row p of the column, clamped. -/
theorem operandIdx_entry (hcoll : d.collapsedSliceDims = [0]) (hob : d.operandBatchingDims = [])
    (hsim : d.startIndexMap = [0]) (hivd : d.indexVectorDim = 1) (idx : IVec ⟨2, ![n, 1]⟩ w) (p : Fin n) :
    (d.operandIdx (ix1 p) idx (0 : Fin 1)).val = min (idx (ix2 p (0 : Fin 1))).toInt.toNat (N - 1) := by
  have hcol : (0 : Fin 1) ∈ d.collapsedSliceDims := by rw [hcoll]; exact List.mem_singleton.mpr rfl
  have hmap : (0 : Fin 1) ∈ d.startIndexMap := by rw [hsim]; exact List.mem_singleton.mpr rfl
  have hnb : (0 : Fin 1) ∉ d.operandBatchingDims := by rw [hob]; exact List.not_mem_nil
  have hnk : (0 : Fin 1) ∉ d.sKept := fun h => ((d.mem_sKept 0).mp h).1 hcol
  have hone : d.sliceSizes 0 = 1 := d.slice_collapsed 0 hcol
  show d.start (ix1 p) idx 0 + d.batchCoord (ix1 p) 0 + d.offCoord (ix1 p) 0 = _
  rw [d.batchCoord_eq_zero _ _ hnb, d.offCoord_eq_zero _ _ hnk, Nat.add_zero]
  unfold GatherDims.start
  rw [dif_pos hmap, siIdx_entry d hsim hivd p, hone]
  rfl
end

section
variable {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (idx : IVec ⟨2, ![n, 1]⟩ w) (p : Fin n)
include hoff hcoll hob hsim hivd

/-- Entry p of a gather of values is the list's entry r, r the p-th start index read signed and clamped into the list. -/
theorem gather_vals {α : Type} (x : (⟨1, ![N]⟩ : Shape).Idx → α) (hN : 0 < N) :
    Host.gather d x idx (ix1 p) = x (ix1 ⟨min (idx (ix2 p (0 : Fin 1))).toInt.toNat (N - 1), by omega⟩) := by
  unfold Host.gather
  congr 1
  funext a
  obtain rfl : a = (0 : Fin 1) := Subsingleton.elim _ _
  exact Fin.ext (operandIdx_entry d hcoll hob hsim hivd idx p)
end

end Idealize.ShloMosaic.ValGather
-- ==== Proof.LayerBridge.lean ====
/-
  One convolution layer: the reference's spelling and the kernel's are one function.

  Write c(n) for node n's degree to the power −1/2 and P(n, ·) for the projected features. The reference sends along every
  edge e = (s → d) the message P(s, k) · (c(s) · c(d)) and sums the messages by receiving node; the kernel sums
  P(s, k) · c(s) by receiving node and multiplies the sum by c(d). On the extended reals a common factor comes out of
  a sum when it is a non-negative number other than +∞. c(d) is such a number whenever some edge arrives at d (the degree
  is then a positive count, and its reciprocal square root a non-negative real); when no edge arrives at d both sums are
  empty and both sides are 0, whatever c(d) is.

  The edges that arrive at node n are those whose receiving index word, read as a signed integer and neither wrapped nor
  clamped, is n: the scatter-add drops every other update. A gather first wraps a negative index word (the node count is
  added) and then clamps its signed value into the table. For an edge that arrives at n the receiving word is between 0
  and the node count, so the wrap leaves it alone and the clamp reads row n: the factor the reference gathers for the
  receiving end of such an edge is c(n).
-/
import proofs.«417988_j22883585753783_3_alg».proof.Proof.Layers
import proofs.«417988_j22883585753783_3_alg».proof.Proof.LibRows
import proofs.«417988_j22883585753783_3_alg».proof.Proof.LibGather
import proofs.«417988_j22883585753783_3_alg».proof.Proof.LibSumDiv
import proofs.«417988_j22883585753783_3_alg».proof.Proof.LibSegmentSum
import proofs.«417988_j22883585753783_3_alg».proof.Proof.LibGatherVals

noncomputable section

namespace Cert.Gcn.LayerBridge

open Idealize.ShloMosaic Idealize.ShloMosaic.ValueIdx

/-! ## Index words -/

/-- A negative index word has the node count added. -/
def wrapWord (w : BitVec 32) : BitVec 32 := Scalar.select (IntOp.cmpi .slt w 0#32) (IntOp.addi w 100000#32) w

/-- The row a gather reads for an index word: its signed value clamped into the table. -/
def rowOfWord (w : BitVec 32) : Fin 100000 := ⟨min w.toInt.toNat (100000 - 1), by omega⟩

/-- A word whose signed value is a node number is left alone by the wrap, and the clamp reads that node. -/
theorem rowOfWord_wrapWord_of_toInt {w : BitVec 32} {n : Fin 100000} (h : w.toInt = (n.val : ℤ)) :
    rowOfWord (wrapWord w) = n := by
  have hn := n.isLt
  have hs : w.slt 0#32 = false := by
    have h0 : (0#32 : BitVec 32).toInt = 0 := by decide
    simp only [BitVec.slt, h0, h, decide_eq_false_iff_not]
    omega
  have hw : wrapWord w = w := by
    show Scalar.select (BitVec.ofBool (w.slt 0#32)) _ w = w
    rw [hs]
    exact select_zero _ _
  rw [hw]
  apply Fin.ext
  show min w.toInt.toNat (100000 - 1) = n.val
  rw [h, Int.toNat_natCast]
  omega

/-! ## A common factor out of a sum over the edges that land at a node -/

/-- When the factor is a non-negative number other than +∞ as soon as the sum has a term, it comes out of the sum; with
    no term both sides are zero. -/
theorem sum_landing_mul {ι : Type} [Fintype ι] (L : ι → Prop) [DecidablePred L] (a : ι → EReal) (c : EReal)
    (hc : (∃ e, L e) → 0 ≤ c ∧ c ≠ ⊤) :
    (0 + ∑ e, if L e then a e else 0) * c = 0 + ∑ e, if L e then a e * c else 0 := by
  rw [zero_add, zero_add]
  by_cases h : ∃ e, L e
  · obtain ⟨h0, ht⟩ := hc h
    rw [← Cert.SumDiv.sum_mul_const _ _ h0 ht]
    refine Finset.sum_congr rfl fun e _ => ?_
    by_cases he : L e
    · rw [if_pos he, if_pos he]
    · rw [if_neg he, if_neg he, zero_mul]
  · have hn : ∀ e, ¬ L e := fun e he => h ⟨e, he⟩
    simp only [hn, if_false, Finset.sum_const_zero, zero_mul]

/-! ## The degree factor -/

/-- A sum of ones over the members of a set is a non-negative real, at least one when the set has a member. -/
theorem sum_ones {ι : Type} (s : Finset ι) (L : ι → Prop) [DecidablePred L] :
    ∃ r : ℝ, (∑ e ∈ s, if L e then (1 : EReal) else 0) = (r : EReal) ∧ 0 ≤ r ∧ ((∃ e ∈ s, L e) → 1 ≤ r) := by
  classical
  induction s using Finset.induction_on with
  | empty => exact ⟨0, by simp, le_refl _, fun ⟨e, he, _⟩ => absurd he (Finset.notMem_empty e)⟩
  | insert i s hi ih =>
    obtain ⟨r, hr, h0, h1⟩ := ih
    rw [Finset.sum_insert hi, hr]
    by_cases hL : L i
    · refine ⟨1 + r, ?_, by linarith, fun _ => by linarith⟩
      rw [if_pos hL, EReal.coe_add, EReal.coe_one]
    · refine ⟨r, ?_, h0, ?_⟩
      · rw [if_neg hL, zero_add]
      · rintro ⟨e, he, hLe⟩
        rcases Finset.mem_insert.mp he with rfl | he'
        · exact absurd hLe hL
        · exact h1 ⟨e, he', hLe⟩

/-- The reciprocal square root of zero plus a positive count of ones is a non-negative number other than +∞. -/
theorem rsqrt_count {ι : Type} [Fintype ι] (L : ι → Prop) [DecidablePred L] (h : ∃ e, L e) :
    0 ≤ Ideal.rsqrt (zeroWord + ∑ e, if L e then oneWord else 0)
      ∧ Ideal.rsqrt (zeroWord + ∑ e, if L e then oneWord else 0) ≠ ⊤ := by
  obtain ⟨r, hr, _, h1⟩ := sum_ones (Finset.univ : Finset ι) L
  have hr1 : 1 ≤ r := h1 (by obtain ⟨e, he⟩ := h; exact ⟨e, Finset.mem_univ e, he⟩)
  have hz : zeroWord = 0 := Ideal.ofBits_zero_f32
  have ho : oneWord = 1 := Ideal.ofBits_one_f32
  rw [hz, ho, zero_add, hr, Ideal.rsqrt_coe, if_neg (by linarith), if_neg (by linarith)]
  exact ⟨by exact_mod_cast inv_nonneg.mpr (Real.sqrt_nonneg r), EReal.coe_ne_top _⟩

/-! ## The layout steps of the two spellings, read at an index -/

section Reads
variable {α : Type}

/-- A scalar constant spread over any shape reads the constant's value everywhere. -/
theorem splat_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b := rfl

/-- A list laid out as a column reads, at row e, the list's entry e. -/
theorem col_apply {m : ℕ} (h : (⟨1, ![m]⟩ : Shape).BroadcastsInDim ⟨2, ![m, 1]⟩ ![0]) (v : (⟨1, ![m]⟩ : Shape).Idx → α)
    (e : Fin m) (z : Fin 1) : broadcastInDim ⟨2, ![m, 1]⟩ ![0] h v (ix2 e z) = v (ix1 e) :=
  broadcastInDim_apply ![0] h v (ix2 e z) (ix1 e) fun a => by
    match a with
    | ⟨0, _⟩ =>
      show e.val = if m = 1 then 0 else e.val
      split
      · have := e.isLt; omega
      · rfl

/-- A list laid out as a column and repeated along the rows reads, at (e, k), the list's entry e. -/
theorem colRow_apply {m c : ℕ} (b1 : (⟨1, ![m]⟩ : Shape).BroadcastsInDim ⟨2, ![m, 1]⟩ ![0])
    (b2 : (⟨2, ![m, 1]⟩ : Shape).BroadcastsInDim ⟨2, ![m, c]⟩ ![0, 1]) (v : FVec Ideal ⟨1, ![m]⟩ .f32) (e : Fin m) (k : Fin c) :
    broadcastInDim ⟨2, ![m, c]⟩ ![0, 1] b2 (broadcastInDim ⟨2, ![m, 1]⟩ ![0] b1 v) (ix2 e k) = v (ix1 e) :=
  congrFun (Rows.hcol_eq v b1 b2) (ix2 e k)

/-- A bias list laid out as a row and repeated down the rows reads, at (r, k), the list's entry k. -/
theorem bias_apply {m c : ℕ} (b1 : (⟨1, ![c]⟩ : Shape).BroadcastsInDim ⟨2, ![1, c]⟩ ![1])
    (b2 : (⟨2, ![1, c]⟩ : Shape).BroadcastsInDim ⟨2, ![m, c]⟩ ![0, 1]) (v : (⟨1, ![c]⟩ : Shape).Idx → α) (r : Fin m) (k : Fin c) :
    broadcastInDim ⟨2, ![m, c]⟩ ![0, 1] b2 (broadcastInDim ⟨2, ![1, c]⟩ ![1] b1 v) (ix2 r k) = v (ix1 k) := by
  rw [Idealize.ShloMosaic.broadcastInDim_oneRow_apply]
  exact broadcastInDim_apply ![1] b1 v (ix2 (0 : Fin 1) k) (ix1 k) fun a => by
    match a with
    | ⟨0, _⟩ =>
      show k.val = if c = 1 then 0 else k.val
      split
      · have := k.isLt; omega
      · rfl

/-- The wrap of an index list reads, entry by entry, the wrap of the word. -/
theorem wrap_apply {T : Shape} (h0 h1 : (⟨0, ![]⟩ : Shape).BroadcastsInDim T ![]) (v : IVec T 32) (i : T.Idx) :
    select (cmpi .slt v (broadcastInDim T ![] h0 (constantI ⟨0, ![]⟩ 32 0#32)))
        (addi v (broadcastInDim T ![] h1 (constantI ⟨0, ![]⟩ 32 100000#32))) v i = wrapWord (v i) := rfl

/-- The reciprocal square root of a whole array reads entry by entry. -/
theorem hostRsqrt_apply {s : Shape} (x : FVec Ideal s .f32) (i : s.Idx) : Host.rsqrt x i = Ideal.rsqrt (x i) := rfl

/-- A gather of rows of a table of 100000 rows reads, at (e, k), the table at the row of the e-th index word. -/
theorem gatherRow_apply {m c : ℕ} (d : GatherDims ⟨2, ![100000, c]⟩ ⟨2, ![m, 1]⟩ ⟨2, ![m, c]⟩)
    (hoff : d.offsetDims = [1]) (hcoll : d.collapsedSliceDims = [0]) (hob : d.operandBatchingDims = [])
    (hsim : d.startIndexMap = [0]) (hivd : d.indexVectorDim = 1)
    (T : (⟨2, ![100000, c]⟩ : Shape).Idx → α) (idx : IVec ⟨2, ![m, 1]⟩ 32) (e : Fin m) (k : Fin c) :
    Host.gather d T idx (ix2 e k) = T (ix2 (rowOfWord (idx (ix2 e (0 : Fin 1)))) k) :=
  RowGather.gather_rows d hoff hcoll hob hsim hivd idx e k T (by norm_num)

/-- A gather of entries of a list of 100000 values reads, at e, the list at the row of the e-th index word. -/
theorem gatherVal_apply {m : ℕ} (d : GatherDims ⟨1, ![100000]⟩ ⟨2, ![m, 1]⟩ ⟨1, ![m]⟩)
    (hoff : d.offsetDims = []) (hcoll : d.collapsedSliceDims = [0]) (hob : d.operandBatchingDims = [])
    (hsim : d.startIndexMap = [0]) (hivd : d.indexVectorDim = 1)
    (c : (⟨1, ![100000]⟩ : Shape).Idx → α) (idx : IVec ⟨2, ![m, 1]⟩ 32) (e : Fin m) :
    Host.gather d c idx (ix1 e) = c (ix1 (rowOfWord (idx (ix2 e (0 : Fin 1))))) :=
  ValGather.gather_vals d hoff hcoll hob hsim hivd idx e c (by norm_num)

end Reads

/-! ## The projected features and the degree factor, entry by entry -/

/-- The projected features: row r of X times column k of W. -/
def proj (X : FVec Ideal SN64 .f32) (W : FVec Ideal SW .f32) (r : Fin 100000) (k : Fin 64) : EReal :=
  ∑ j : Fin 64, X (ix2 r j) * W (ix2 j k)

/-- Node r's factor: the reciprocal square root of zero plus one for every edge whose receiving word, read signed, is r. -/
def cdeg (dst : IVec ⟨1, ![1350000]⟩ 32) (r : Fin 100000) : EReal :=
  Ideal.rsqrt (zeroWord + ∑ e : Fin 1350000, if (dst (ix1 e)).toInt = (r.val : ℤ) then oneWord else 0)

/-- The degree factors as both programs spell them (ones scattered by receiving node onto zeros, then the reciprocal
    square root), at entry r. -/
theorem deg_apply (sc : ScatterDims ⟨1, ![100000]⟩ ⟨2, ![1350000, 1]⟩ ⟨1, ![1350000]⟩)
    (huw : sc.updateWindowDims = []) (hiw : sc.insertedWindowDims = [0]) (hsd : sc.scatterDimsToOperandDims = [0])
    (hivd : sc.indexVectorDim = 1)
    (hZ : (⟨0, ![]⟩ : Shape).BroadcastsInDim ⟨1, ![100000]⟩ ![]) (hO : (⟨0, ![]⟩ : Shape).BroadcastsInDim ⟨1, ![1350000]⟩ ![])
    (hc : (⟨1, ![1350000]⟩ : Shape).BroadcastsInDim ⟨2, ![1350000, 1]⟩ ![0])
    (dst : IVec ⟨1, ![1350000]⟩ 32) (r : Fin 100000) :
    Host.rsqrt (Host.scatterAdd sc (broadcastInDim ⟨1, ![100000]⟩ ![] hZ (constant (F := Ideal) ⟨0, ![]⟩ .f32 0x00000000#32))
        (broadcastInDim ⟨2, ![1350000, 1]⟩ ![0] hc dst)
        (broadcastInDim ⟨1, ![1350000]⟩ ![] hO (constant (F := Ideal) ⟨0, ![]⟩ .f32 0x3F800000#32))) (ix1 r) = cdeg dst r := by
  unfold cdeg
  rw [hostRsqrt_apply, SegmentSum.scatterAdd_vals sc huw hiw hsd hivd, splat_apply]
  refine congrArg Ideal.rsqrt (congrArg (zeroWord + ·) (Finset.sum_congr rfl fun e _ => ?_))
  rw [col_apply, splat_apply]

section KernelSide
open Cert.KernelIdeal Cert.KernelIdeal.Gen

theorem degCol_apply (dst : IVec ⟨1, ![1350000]⟩ 32) (r : Fin 100000) (z : Fin 1) : Ker.degCol dst (ix2 r z) = cdeg dst r :=
  (congrFun (Rows.kcol1_eq (Ker.degInv dst) shapeCasts_S100000_S100000x1) (ix2 r z)).trans
    (deg_apply scatter_S100000_S1350000x1_S1350000_n_0_0_1 rfl rfl rfl rfl _ _ _ dst r)

/-- The kernel's scatter-add of gathered rows, at (n, k). -/
theorem aggregate_apply (T : FVec Ideal SN64 .f32) (src dst : IVec ⟨1, ![1350000]⟩ 32) (n : Fin 100000) (k : Fin 64) :
    Ker.aggregate T src dst (ix2 n k)
      = zeroWord + ∑ e : Fin 1350000, if (dst (ix1 e)).toInt = (n.val : ℤ) then
          T (ix2 (rowOfWord (wrapWord (src (ix1 e)))) k) else 0 := by
  unfold Ker.aggregate Ker.col Ker.wrapIdx
  rw [SegmentSum.scatterAdd_rows scatter_S100000x64_S1350000x1_S1350000x64_1_0_0_1 rfl rfl rfl rfl, splat_apply]
  refine congrArg (zeroWord + ·) (Finset.sum_congr rfl fun e _ => ?_)
  rw [col_apply, gatherRow_apply gather_S100000x64_S1350000x1_S1350000x64_1_0_n_n_0_1_164 rfl rfl rfl rfl rfl, col_apply,
    wrap_apply]

/-- The kernel's layer at (n, k). -/
theorem ker_layer_apply (X : FVec Ideal SN64 .f32) (W : FVec Ideal SW .f32) (B : FVec Ideal ⟨1, ![64]⟩ .f32)
    (src dst : IVec ⟨1, ![1350000]⟩ 32) (n : Fin 100000) (k : Fin 64) :
    Ker.layer X W B src dst (ix2 n k)
      = max ((zeroWord + ∑ e : Fin 1350000, if (dst (ix1 e)).toInt = (n.val : ℤ) then
              proj X W (rowOfWord (wrapWord (src (ix1 e)))) k * cdeg dst (rowOfWord (wrapWord (src (ix1 e)))) else 0)
            * cdeg dst n + B (ix1 k)) zeroWord := by
  unfold Ker.layer
  rw [scaleBiasRelu_apply, aggregate_apply, degCol_apply, shapeCast_a_1a_apply]
  refine congrArg (fun t => max (t * cdeg dst n + B (ix1 k)) zeroWord)
    (congrArg (zeroWord + ·) (Finset.sum_congr rfl fun e _ => ?_))
  rw [scaledProduct_apply, degCol_apply]
  rfl

end KernelSide

section ReferenceSide
open Cert.ReferenceIdeal Cert.ReferenceIdeal.Gen

/-- The reference's matrix product at (r, k). -/
theorem dot_apply (X : FVec Ideal SN64 .f32) (W : FVec Ideal SW .f32) (r : Fin 100000) (k : Fin 64) :
    Host.dotGeneral dot_S100000x64_S64x64_S100000x64_1_0_0_1_n_n none X W (ix2 r k) = proj X W r k :=
  Rows.dotGeneral_plain_apply X W r k

/-- The reference's layer at (n, k). -/
theorem ref_layer_apply (X : FVec Ideal SN64 .f32) (W : FVec Ideal SW .f32) (B : FVec Ideal ⟨1, ![64]⟩ .f32)
    (src dst : IVec ⟨1, ![1350000]⟩ 32) (n : Fin 100000) (k : Fin 64) :
    Ref.layer (F := Ideal) X W B src dst (ix2 n k)
      = max ((zeroWord + ∑ e : Fin 1350000, if (dst (ix1 e)).toInt = (n.val : ℤ) then
              proj X W (rowOfWord (wrapWord (src (ix1 e)))) k
                * (cdeg dst (rowOfWord (wrapWord (src (ix1 e)))) * cdeg dst (rowOfWord (wrapWord (dst (ix1 e))))) else 0)
            + B (ix1 k)) zeroWord := by
  unfold Ref.layer
  rw [maximumf_apply, addf_apply,
    SegmentSum.scatterAdd_rows scatter_S100000x64_S1350000x1_S1350000x64_1_0_0_1 rfl rfl rfl rfl, splat_apply, bias_apply]
  refine congrArg (fun t => max (t + B (ix1 k)) zeroWord) (congrArg (zeroWord + ·) (Finset.sum_congr rfl fun e _ => ?_))
  rw [col_apply, mulf_apply, gatherRow_apply gather_S100000x64_S1350000x1_S1350000x64_1_0_n_n_0_1_164 rfl rfl rfl rfl rfl,
    colRow_apply, mulf_apply,
    gatherVal_apply gather_S100000_S1350000x1_S1350000_n_0_n_n_0_1_1 rfl rfl rfl rfl rfl,
    gatherVal_apply gather_S100000_S1350000x1_S1350000_n_0_n_n_0_1_1 rfl rfl rfl rfl rfl,
    deg_apply scatter_S100000_S1350000x1_S1350000_n_0_0_1 rfl rfl rfl rfl,
    deg_apply scatter_S100000_S1350000x1_S1350000_n_0_0_1 rfl rfl rfl rfl,
    col_apply, col_apply, wrap_apply, wrap_apply, dot_apply]

end ReferenceSide

end Cert.Gcn.LayerBridge

namespace Cert.Gcn

open Idealize.ShloMosaic Idealize.ShloMosaic.ValueIdx LayerBridge

/-! ## The two layers agree -/

/-- The reference's layer is the kernel's layer. -/
theorem layer_eq (X : FVec Ideal SN64 .f32) (W : FVec Ideal SW .f32) (B : FVec Ideal ⟨1, ![64]⟩ .f32)
    (src dst : IVec ⟨1, ![1350000]⟩ 32) :
    Ref.layer (F := Ideal) X W B src dst = Ker.layer X W B src dst := by
  refine Rows.ext_ix2 fun n k => ?_
  rw [ref_layer_apply, ker_layer_apply]
  have hc : (∃ e : Fin 1350000, (dst (ix1 e)).toInt = (n.val : ℤ)) → 0 ≤ cdeg dst n ∧ cdeg dst n ≠ ⊤ :=
    fun h => rsqrt_count (fun e : Fin 1350000 => (dst (ix1 e)).toInt = (n.val : ℤ)) h
  have hz : zeroWord = 0 := Ideal.ofBits_zero_f32
  rw [hz, sum_landing_mul (fun e : Fin 1350000 => (dst (ix1 e)).toInt = (n.val : ℤ)) _ (cdeg dst n) hc]
  refine congrArg (fun t => max (t + B (ix1 k)) 0) (congrArg ((0 : EReal) + ·) (Finset.sum_congr rfl fun e _ => ?_))
  by_cases he : (dst (ix1 e)).toInt = (n.val : ℤ)
  · rw [if_pos he, if_pos he, rowOfWord_wrapWord_of_toInt he, mul_assoc]
  · rw [if_neg he, if_neg he]

end Cert.Gcn

end
-- ==== Proof.TailBridge.lean ====
/-
  Mean pooling and the last linear layer: the reference's spelling and the kernel's are one function.

  The reference sums the node features (and ones) by graph number with a scatter-add; the kernel multiplies by the
  one-hot membership (1 when the node's graph number is g, else 0) and sums over all nodes, tile by tile. 1 · x = x and
  0 · x = 0 on the extended reals, and a node whose graph number is outside 0 … 127 contributes to no graph on either side.
-/
import proofs.«417988_j22883585753783_3_alg».proof.Proof.Layers
import proofs.«417988_j22883585753783_3_alg».proof.Proof.LibRows
import proofs.«417988_j22883585753783_3_alg».proof.Proof.LibGather
import proofs.«417988_j22883585753783_3_alg».proof.Proof.LibSumDiv
import proofs.«417988_j22883585753783_3_alg».proof.Proof.LibSegmentSum
import proofs.«417988_j22883585753783_3_alg».proof.Proof.LibGatherVals

noncomputable section

namespace Cert.Gcn

open Idealize.ShloMosaic Idealize.ShloMosaic.ValueIdx

namespace TailFacts

/-! ## Graph numbers as words -/

/-- A 32-bit word read as a signed integer is the number g < 128 exactly when it is the word of g: a word whose signed
    value is non-negative has that value as its unsigned value, and g is far below 2³¹. -/
theorem toInt_eq_iff (w : BitVec 32) (g : Fin 128) : w.toInt = (g.val : ℤ) ↔ w = BitVec.ofNat 32 g.val := by
  have hg := g.isLt
  have hw : w.toNat < 4294967296 := w.isLt
  constructor
  · intro h
    apply BitVec.eq_of_toNat_eq
    rw [BitVec.toNat_ofNat]
    rw [BitVec.toInt_eq_toNat_cond] at h
    split at h <;> omega
  · intro h
    have hn : w.toNat = g.val := by
      rw [h, BitVec.toNat_ofNat]
      omega
    rw [BitVec.toInt_eq_toNat_cond, hn]
    split <;> omega

/-- Membership times a value: the value for the node's own graph, zero for every other. -/
theorem oneHot_mul (w : BitVec 32) (g : Fin 128) (x : EReal) :
    oneHot w g * x = if w.toInt = (g.val : ℤ) then x else 0 := by
  unfold oneHot
  by_cases h : w = BitVec.ofNat 32 g.val
  · rw [if_pos h, if_pos ((toInt_eq_iff w g).2 h), one_mul]
  · rw [if_neg h, if_neg (fun h' => h ((toInt_eq_iff w g).1 h')), zero_mul]

/-- Membership itself: one for the node's own graph, zero for every other. -/
theorem oneHot_eq (w : BitVec 32) (g : Fin 128) :
    oneHot w g = if w.toInt = (g.val : ℤ) then 1 else 0 := by
  have := oneHot_mul w g 1
  rwa [mul_one] at this

/-! ## All nodes as 20 tiles of 5000 -/

/-- Tile and place in the tile ↔ node number. -/
def nodeEquiv : Fin 20 × Fin 5000 ≃ Fin 100000 where
  toFun p := node p.1 p.2
  invFun n := (⟨n.val / 5000, by have := n.isLt; omega⟩, ⟨n.val % 5000, Nat.mod_lt _ (by norm_num)⟩)
  left_inv p := by
    rcases p with ⟨t, r⟩
    have ht := t.isLt
    have hr := r.isLt
    refine Prod.ext (Fin.ext ?_) (Fin.ext ?_)
    · show (5000 * t.val + r.val) / 5000 = t.val
      omega
    · show (5000 * t.val + r.val) % 5000 = r.val
      omega
  right_inv n := by
    refine Fin.ext ?_
    show 5000 * (n.val / 5000) + n.val % 5000 = n.val
    omega

/-- A sum over all nodes is the sum over the tiles of the sums over each tile. -/
theorem sum_nodes (f : Fin 100000 → EReal) : ∑ n : Fin 100000, f n = ∑ t : Fin 20, ∑ r : Fin 5000, f (node t r) := by
  rw [← Equiv.sum_comp nodeEquiv f, Fintype.sum_prod_type]
  rfl

/-! ## The graph numbers as a column, both ways -/

/-- The reference's column of graph numbers at row n is the list's entry n. -/
theorem bcol_apply (b1 : (⟨1, ![100000]⟩ : Shape).BroadcastsInDim ⟨2, ![100000, 1]⟩ ![0]) (B : IVec ⟨1, ![100000]⟩ 32) (n : Fin 100000) :
    broadcastInDim ⟨2, ![100000, 1]⟩ ![0] b1 B (ix2 n (0 : Fin 1)) = B (ix1 n) :=
  broadcastInDim_apply ![0] b1 B (ix2 n (0 : Fin 1)) (ix1 n) (by
    intro a
    match a with
    | ⟨0, _⟩ =>
      show n.val = if (100000 : ℕ) = 1 then 0 else n.val
      rw [if_neg (by norm_num)])

/-- The kernel's column of graph numbers at row n is the same entry. -/
theorem ccol_apply (sc : (⟨1, ![100000]⟩ : Shape).ShapeCasts ⟨2, ![100000, 1]⟩) (B : IVec ⟨1, ![100000]⟩ 32) (n : Fin 100000) :
    shapeCast ⟨2, ![100000, 1]⟩ B sc (ix2 n (0 : Fin 1)) = B (ix1 n) :=
  shapeCast_apply B sc (ix2 n (0 : Fin 1)) (ix1 n) (by
    rw [Shape.rowMajor_val_two, Shape.rowMajor_val_one]
    show n.val = n.val * 1 + 0
    omega)

/-! ## The two sums by graph number -/

/-- The feature sums: the scatter-add into zeros at (g, k) is the one-hot sum over the tiles. -/
theorem sums_eq (d : ScatterDims ⟨2, ![128, 64]⟩ ⟨2, ![100000, 1]⟩ ⟨2, ![100000, 64]⟩)
    (huw : d.updateWindowDims = [1]) (hiw : d.insertedWindowDims = [0]) (hsd : d.scatterDimsToOperandDims = [0]) (hivd : d.indexVectorDim = 1)
    (bz : (⟨0, ![]⟩ : Shape).BroadcastsInDim ⟨2, ![128, 64]⟩ ![])
    (b1 : (⟨1, ![100000]⟩ : Shape).BroadcastsInDim ⟨2, ![100000, 1]⟩ ![0])
    (sc : (⟨1, ![100000]⟩ : Shape).ShapeCasts ⟨2, ![100000, 1]⟩)
    (H : FVec Ideal SN64 .f32) (B : IVec ⟨1, ![100000]⟩ 32) (g : Fin 128) (k : Fin 64) :
    Host.scatterAdd d (broadcastInDim ⟨2, ![128, 64]⟩ ![] bz (constant (F := Ideal) ⟨0, ![]⟩ .f32 0x00000000#32))
        (broadcastInDim ⟨2, ![100000, 1]⟩ ![0] b1 B) H (ix2 g k)
      = poolSums H (shapeCast ⟨2, ![100000, 1]⟩ B sc) (ix2 g k) := by
  rw [SegmentSum.scatterAdd_rows d huw hiw hsd hivd, poolSums_apply, broadcastInDim_scalar_apply]
  show Ideal.ofBits .f32 0x00000000#32 + _ = _
  rw [Ideal.ofBits_zero_f32, zero_add, sum_nodes]
  refine Finset.sum_congr rfl fun t _ => Finset.sum_congr rfl fun r _ => ?_
  rw [oneHot_mul, bcol_apply, ccol_apply]

/-- The node counts: the scatter-add of the word 1.0 into zeros at g is the one-hot count over the tiles. -/
theorem counts_eq (d : ScatterDims ⟨1, ![128]⟩ ⟨2, ![100000, 1]⟩ ⟨1, ![100000]⟩)
    (huw : d.updateWindowDims = []) (hiw : d.insertedWindowDims = [0]) (hsd : d.scatterDimsToOperandDims = [0]) (hivd : d.indexVectorDim = 1)
    (bz : (⟨0, ![]⟩ : Shape).BroadcastsInDim ⟨1, ![128]⟩ ![])
    (bo : (⟨0, ![]⟩ : Shape).BroadcastsInDim ⟨1, ![100000]⟩ ![])
    (b1 : (⟨1, ![100000]⟩ : Shape).BroadcastsInDim ⟨2, ![100000, 1]⟩ ![0])
    (sc : (⟨1, ![100000]⟩ : Shape).ShapeCasts ⟨2, ![100000, 1]⟩)
    (B : IVec ⟨1, ![100000]⟩ 32) (g : Fin 128) :
    Host.scatterAdd d (broadcastInDim ⟨1, ![128]⟩ ![] bz (constant (F := Ideal) ⟨0, ![]⟩ .f32 0x00000000#32))
        (broadcastInDim ⟨2, ![100000, 1]⟩ ![0] b1 B)
        (broadcastInDim ⟨1, ![100000]⟩ ![] bo (constant (F := Ideal) ⟨0, ![]⟩ .f32 0x3F800000#32)) (ix1 g)
      = poolCounts (shapeCast ⟨2, ![100000, 1]⟩ B sc) (ix2 (0 : Fin 1) g) := by
  rw [SegmentSum.scatterAdd_vals d huw hiw hsd hivd, poolCounts_apply, broadcastInDim_scalar_apply]
  show Ideal.ofBits .f32 0x00000000#32 + _ = _
  rw [Ideal.ofBits_zero_f32, zero_add, sum_nodes]
  refine Finset.sum_congr rfl fun t _ => Finset.sum_congr rfl fun r _ => ?_
  rw [oneHot_eq, bcol_apply, ccol_apply, broadcastInDim_scalar_apply]
  show (if _ then Ideal.ofBits .f32 0x3F800000#32 else 0) = _
  rw [Ideal.ofBits_one_f32]

end TailFacts

/-! ## The tail -/

/-- The reference's tail is the kernel's tail. -/
theorem tail_eq (H : FVec Ideal SN64 .f32) (BATCH : IVec ⟨1, ![100000]⟩ 32) (WFC : FVec Ideal SW .f32) (BFC : FVec Ideal ⟨1, ![64]⟩ .f32) :
    Ref.tail (F := Ideal) H BATCH WFC BFC = Ker.tail H BATCH WFC BFC := by
  refine Rows.ext_ix2 fun g k => ?_
  unfold Ref.tail Ker.tail
  rw [headOut_apply, maximumf_apply, addf_apply]
  refine congrArg₂ max (congrArg₂ (· + ·) ?_ ?_) ?_
  · -- the product with the weights, summand by summand
    refine (Rows.dotGeneral_plain_apply _ _ g k).trans (Finset.sum_congr rfl fun j _ => congrArg (· * WFC (ix2 j k)) ?_)
    rw [hostDivf_apply]
    refine congrArg₂ Ideal.div (TailFacts.sums_eq _ rfl rfl rfl rfl _ _ _ H BATCH g j) ?_
    -- the divisor: max (count, 1.0), laid along the row on one side, read from a column on the other
    rw [Rows.hcol_eq, Rows.ofRows_apply, transpose_ix2_apply]
    show max _ _ = _
    refine congrArg₂ max (TailFacts.counts_eq _ rfl rfl rfl rfl _ _ _ _ BATCH g) ?_
    exact broadcastInDim_scalar_apply _ _ _
  · -- the bias
    rw [broadcastInDim_oneRow_apply, shapeCast_a_1a_apply]
    exact broadcastInDim_apply ![1] _ BFC (ix2 (0 : Fin 1) k) (ix1 k) fun a => by
      match a with
      | ⟨0, _⟩ =>
        show k.val = if (64 : ℕ) = 1 then 0 else k.val
        rw [if_neg (by norm_num)]
  · -- the zero the negative part is cut at
    exact broadcastInDim_scalar_apply _ _ _

end Cert.Gcn

end
-- ==== Proof.OutBridge.lean ====
/-
  The two programs' results are one function of the arguments: both build the same edge lists, each of the two
  convolution layers is one function in either spelling, and so is the pooling with the last linear layer.
-/
import proofs.«417988_j22883585753783_3_alg».proof.Proof.LayerBridge
import proofs.«417988_j22883585753783_3_alg».proof.Proof.TailBridge

noncomputable section

namespace Cert.Gcn

open Idealize.ShloMosaic

/-- Both programs list the sending nodes the same way. -/
theorem srcOf_eq (EI : IVec ⟨2, ![2, 1250000]⟩ 32) : Ref.srcOf EI = Ker.srcOf EI := rfl

/-- Both programs list the receiving nodes the same way. -/
theorem dstOf_eq (EI : IVec ⟨2, ![2, 1250000]⟩ 32) : Ref.dstOf EI = Ker.dstOf EI := rfl

/-- The reference's result is the kernel's result. -/
theorem out_eq (X : FVec Ideal SN64 .f32) (EI : IVec ⟨2, ![2, 1250000]⟩ 32) (BATCH : IVec ⟨1, ![100000]⟩ 32)
    (W1 : FVec Ideal SW .f32) (B1 : FVec Ideal ⟨1, ![64]⟩ .f32) (W2 : FVec Ideal SW .f32) (B2 : FVec Ideal ⟨1, ![64]⟩ .f32)
    (WFC : FVec Ideal SW .f32) (BFC : FVec Ideal ⟨1, ![64]⟩ .f32) :
    Ref.out (F := Ideal) X EI BATCH W1 B1 W2 B2 WFC BFC = Ker.out X EI BATCH W1 B1 W2 B2 WFC BFC := by
  unfold Ref.out Ker.out
  rw [srcOf_eq, dstOf_eq, layer_eq, layer_eq, tail_eq]

end Cert.Gcn

end
-- ==== Proof.lean ====
/-
  The certificate of the graph-convolution kernel against its reference.

  The kernel (six pallas_calls among host operations) and the reference (host operations only) both compute, for node
  features X, an edge list with self-loops, graph numbers and three weight matrices with biases:
  two convolution layers  relu (D^{-1/2} (A + I) D^{-1/2} · (H W) + b), the mean of the node features per graph, and a last
  linear layer with relu. The reference scales every message by the product of the two end nodes' degree factors before
  summing by receiving node; the kernel scales the projected features by the sending node's factor, sums, and scales the
  sum by the receiving node's factor. On the extended reals the factor comes out of the sum because it is a non-negative
  real wherever a message arrives (and where none arrives both sums are empty). The pooling is a scatter-add in the
  reference and a product with the one-hot membership matrix in the kernel.

  * the three frames: the kernel's two from the frame certificates of its programs, the reference's from its run;
  * `preserves`: the one entry of the idealization's ledger, a narrowing to bf16 and back that is the identity at the
    ideal values;
  * `algebraic`: the kernel's run leaves `Gcn.Ker.out` of the arguments in its result buffer (KernelChain.lean over the
    region modules), the reference's run leaves `Gcn.Ref.out` (Layers.lean), and the two are one function (OutBridge.lean
    over LayerBridge.lean and TailBridge.lean).
-/
import proofs.«417988_j22883585753783_3_alg».proof.Defs
import proofs.«417988_j22883585753783_3_alg».proof.Proof.Gen.Kernel
import proofs.«417988_j22883585753783_3_alg».proof.Proof.Gen.KernelIdeal
import proofs.«417988_j22883585753783_3_alg».proof.Proof.Gen.ReferenceIdeal
import proofs.«417988_j22883585753783_3_alg».proof.Proof.Gen.Pre_finite_inputs
import proofs.«417988_j22883585753783_3_alg».proof.Proof.Gen.ReferenceIdeal.Run
import proofs.«417988_j22883585753783_3_alg».proof.Proof.FrameKernel
import proofs.«417988_j22883585753783_3_alg».proof.Proof.FrameKernelIdeal
import proofs.«417988_j22883585753783_3_alg».proof.Proof.RunKernelIdeal
import proofs.«417988_j22883585753783_3_alg».proof.Proof.KernelChain
import proofs.«417988_j22883585753783_3_alg».proof.Proof.OutBridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.GenP.frame m ρ

/-- The idealized kernel runs and leaves its arguments unchanged. -/
theorem frame_kernelIdeal : Cert.frame_KernelIdeal := fun m ρ _ => Cert.KernelIdeal.GenP.frame m ρ

/-- The idealized reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ledger's one entry: narrowing the one-hot matrix to bf16 and widening it back is the identity at the ideal values. -/
theorem preserves : Cert.preserves_Kernel_KernelIdeal := IdealRules.truncf_extf.statement _ .f32 .bf16

/-- Both idealized programs end with the same result: the kernel's function of the arguments. -/
theorem algebraic : Cert.algebraic_KernelIdeal_ReferenceIdeal := by
  intro m ρ m' ρ' _ hagree
  refine ⟨fun c => Cert.Gcn.Ker.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.result_eq m ρ c), (h c).2⟩)
      (Cert.KernelIdeal.GenP.run_result m ρ)
  · refine (θ_run Cert.ReferenceIdeal.defs _ _).mono (fun _ h c => ⟨(h c).1.trans ?_, (h c).2⟩)
      (Cert.ReferenceIdeal.Value.run (F := Ideal) m' ρ')
    rw [Cert.Gcn.Ref.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact Cert.Gcn.out_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
